-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.truncf_extf.Statement Cert.KernelIdeal.S512x16x128 .f32 .bf16
  ∧ IdealRules.truncf_extf.Statement Cert.KernelIdeal.S512x16x128 .f32 .bf16
  ∧ IdealRules.truncf_extf.Statement Cert.KernelIdeal.S512x16x128 .f32 .bf16
  ∧ IdealRules.truncf_extf.Statement Cert.KernelIdeal.S512x16x128 .f32 .bf16
  ∧ IdealRules.truncf_extf.Statement Cert.KernelIdeal.S512x16x128 .f32 .bf16
  ∧ IdealRules.truncf_extf.Statement Cert.KernelIdeal.S512x16x128 .f32 .bf16
  ∧ IdealRules.truncf_extf.Statement Cert.KernelIdeal.S512x16x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x2626 : Shape := ⟨2, ![1024, 2626]⟩
abbrev S1024x13 : Shape := ⟨2, ![1024, 13]⟩
abbrev S26x100x1 : Shape := ⟨3, ![26, 100, 1]⟩
abbrev S26x100x16 : Shape := ⟨3, ![26, 100, 16]⟩
abbrev S1x39 : Shape := ⟨2, ![1, 39]⟩
abbrev S1 : Shape := ⟨1, ![1]⟩
abbrev S_ : Shape := ⟨0, ![]⟩

class Facts : Prop where
  bcast_S_S1024x13 : S_.BroadcastsInDim S1024x13 (![] : Fin 0 → Fin S1024x13.rank)
  reducesTo_S1024x13_S_d0_1 : S1024x13.ReducesTo [0, 1] S_
  h_S_ : 0 < S_.numel
  bcast_S_S26x100x1 : S_.BroadcastsInDim S26x100x1 (![] : Fin 0 → Fin S26x100x1.rank)
  reducesTo_S26x100x1_S_d0_1_2 : S26x100x1.ReducesTo [0, 1, 2] S_
  bcast_S_S26x100x16 : S_.BroadcastsInDim S26x100x16 (![] : Fin 0 → Fin S26x100x16.rank)
  reducesTo_S26x100x16_S_d0_1_2 : S26x100x16.ReducesTo [0, 1, 2] S_
  bcast_S_S1x39 : S_.BroadcastsInDim S1x39 (![] : Fin 0 → Fin S1x39.rank)
  reducesTo_S1x39_S_d0_1 : S1x39.ReducesTo [0, 1] S_
  bcast_S_S1 : S_.BroadcastsInDim S1 (![] : Fin 0 → Fin S1.rank)
  reducesTo_S1_S_d0 : S1.ReducesTo [0] S_
  bcast_S_S1024x2626 : S_.BroadcastsInDim S1024x2626 (![] : Fin 0 → Fin S1024x2626.rank)
  reducesTo_S1024x2626_S_d0_1 : S1024x2626.ReducesTo [0, 1] S_

variable [Facts]

def fn_part1 {F : FTy → Type} [FloatOps F] (main_arg0 : IVec S1024x2626 32) (main_arg5 : FVec F S1 .f32) (main_v13 : IVec S_ 1) (main_v16 : IVec S1x39 1) : IVec S_ 1 :=
  let main_c_5 : IVec S_ 1 := constantI S_ 1 1#1
  let main_v17 : IVec S_ 1 := (fun x v => Host.reduce IntOp.andi x v reducesTo_S1x39_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_c_8 : IVec S_ 32 := constantI S_ 32 0#32
  let main_v24 : IVec S1024x2626 32 := broadcastInDim S1024x2626 ![] bcast_S_S1024x2626 main_c_8
  let main_v25 : IVec S1024x2626 1 := cmpi .sge main_arg0 main_v24
  let main_c_9 : IVec S_ 1 := constantI S_ 1 1#1
  let main_v26 : IVec S_ 1 := (fun x v => Host.reduce IntOp.andi x v reducesTo_S1024x2626_S_d0_1 h_S_) main_v25 main_c_9
  let main_v27 : IVec S_ 1 := andi main_v23 main_v26
  main_v27

def fn {F : FTy → Type} [FloatOps F] (main_arg0 : IVec S1024x2626 32) (main_arg1 : FVec F S1024x13 .f32) (main_arg2 : FVec F S26x100x1 .f32) (main_arg3 : FVec F S26x100x16 .f32) (main_arg4 : FVec F S1x39 .f32) (main_arg5 : FVec F S1 .f32) : IVec S_ 1 :=
  let main_v0 : FVec F S1024x13 .f32 := Host.absf main_arg1
  let main_cst : FVec F S_ .f32 := constant S_ .f32 0x7F800000#32
  let main_v1 : FVec F S1024x13 .f32 := broadcastInDim S1024x13 ![] bcast_S_S1024x13 main_cst
  let main_v2 : IVec S1024x13 1 := cmpf .olt main_v0 main_v1
  let main_c : IVec S_ 1 := constantI S_ 1 1#1
  let main_v3 : IVec S_ 1 := (fun x v => Host.reduce IntOp.andi x v reducesTo_S1024x13_S_d0_1 h_S_) main_v2 main_c
  let main_v4 : FVec F S26x100x1 .f32 := Host.absf main_arg2
  let main_cst_0 : FVec F S_ .f32 := constant S_ .f32 0x7F800000#32
  let main_v5 : FVec F S26x100x1 .f32 := broadcastInDim S26x100x1 ![] bcast_S_S26x100x1 main_cst_0
  let main_v6 : IVec S26x100x1 1 := cmpf .olt main_v4 main_v5
  let main_c_1 : IVec S_ 1 := constantI S_ 1 1#1
  let main_v7 : IVec S_ 1 := (fun x v => Host.reduce IntOp.andi x v reducesTo_S26x100x1_S_d0_1_2 h_S_) main_v6 main_c_1
  let main_v8 : IVec S_ 1 := andi main_v3 main_v7
  let main_v9 : FVec F S26x100x16 .f32 := Host.absf main_arg3
  let main_cst_2 : FVec F S_ .f32 := constant S_ .f32 0x7F800000#32
  let main_v10 : FVec F S26x100x16 .f32 := broadcastInDim S26x100x16 ![] bcast_S_S26x100x16 main_cst_2
  let main_v11 : IVec S26x100x16 1 := cmpf .olt main_v9 main_v10
  let main_c_3 : IVec S_ 1 := constantI S_ 1 1#1
  let main_v12 : IVec S_ 1 := (fun x v => Host.reduce IntOp.andi x v reducesTo_S26x100x16_S_d0_1_2 h_S_) main_v11 main_c_3
  let main_v13 : IVec S_ 1 := andi main_v8 main_v12
  let main_v14 : FVec F S1x39 .f32 := Host.absf main_arg4
  let main_cst_4 : FVec F S_ .f32 := constant S_ .f32 0x7F800000#32
  let main_v15 : FVec F S1x39 .f32 := broadcastInDim S1x39 ![] bcast_S_S1x39 main_cst_4
  let main_v16 : IVec S1x39 1 := cmpf .olt main_v14 main_v15
  fn_part1 (F := F) main_arg0 main_arg5 main_v13 main_v16
-- ==== Kernel.lean ====
abbrev S1024x2626 : Shape := ⟨2, ![1024, 2626]⟩
abbrev S1024x13 : Shape := ⟨2, ![1024, 13]⟩
abbrev S26x100x1 : Shape := ⟨3, ![26, 100, 1]⟩
abbrev S26x100x16 : Shape := ⟨3, ![26, 100, 16]⟩
abbrev S1x39 : Shape := ⟨2, ![1, 39]⟩
abbrev S1 : Shape := ⟨1, ![1]⟩
abbrev S1024x26x101 : Shape := ⟨3, ![1024, 26, 101]⟩
abbrev S1024x26x100 : Shape := ⟨3, ![1024, 26, 100]⟩
abbrev S_ : Shape := ⟨0, ![]⟩
abbrev S1024x26x128 : Shape := ⟨3, ![1024, 26, 128]⟩
abbrev S26x1024x128 : Shape := ⟨3, ![26, 1024, 128]⟩
abbrev S26x26 : Shape := ⟨2, ![26, 26]⟩
abbrev S26x100 : Shape := ⟨2, ![26, 100]⟩
abbrev S26x1x26 : Shape := ⟨3, ![26, 1, 26]⟩
abbrev S26x100x26 : Shape := ⟨3, ![26, 100, 26]⟩
abbrev S26x100x59 : Shape := ⟨3, ![26, 100, 59]⟩
abbrev S26x128x128 : Shape := ⟨3, ![26, 128, 128]⟩
abbrev S1024x128 : Shape := ⟨2, ![1024, 128]⟩
abbrev S1x512x128 : Shape := ⟨3, ![1, 512, 128]⟩
abbrev S1x128x128 : Shape := ⟨3, ![1, 128, 128]⟩
abbrev S512x128 : Shape := ⟨2, ![512, 128]⟩
abbrev S128x128 : Shape := ⟨2, ![128, 128]⟩
abbrev S1x1x128 : Shape := ⟨3, ![1, 1, 128]⟩
abbrev S512x16 : Shape := ⟨2, ![512, 16]⟩
abbrev S512x16x1 : Shape := ⟨3, ![512, 16, 1]⟩
abbrev S512x16x128 : Shape := ⟨3, ![512, 16, 128]⟩
abbrev S1024x16 : Shape := ⟨2, ![1024, 16]⟩
abbrev S1024x26 : Shape := ⟨2, ![1024, 26]⟩
abbrev S1024x39 : Shape := ⟨2, ![1024, 39]⟩
abbrev S39x1 : Shape := ⟨2, ![39, 1]⟩
abbrev S1024x1 : Shape := ⟨2, ![1024, 1]⟩
abbrev S1x1 : Shape := ⟨2, ![1, 1]⟩
abbrev S1024 : Shape := ⟨1, ![1024]⟩

abbrev nBuf : Space → Nat
  | .hbm => 60
  | .vmem => 6
  | .smem => 0
  | _ => 0

abbrev bufTy : (tb : Table) → Fin (tcTables nBuf tb) → BufTy
  | .hbm, ⟨0, _⟩ => ⟨S1024x2626, .i32⟩
  | .hbm, ⟨1, _⟩ => ⟨S1024x13, .f32⟩
  | .hbm, ⟨2, _⟩ => ⟨S26x100x1, .f32⟩
  | .hbm, ⟨3, _⟩ => ⟨S26x100x16, .f32⟩
  | .hbm, ⟨4, _⟩ => ⟨S1x39, .f32⟩
  | .hbm, ⟨5, _⟩ => ⟨S1, .f32⟩
  | .hbm, ⟨6, _⟩ => ⟨S1024x26x101, .i32⟩
  | .hbm, ⟨7, _⟩ => ⟨S1024x26x100, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S1024x26x100, .i32⟩
  | .hbm, ⟨12, _⟩ => ⟨S1024x26x100, .i32⟩
  | .hbm, ⟨13, _⟩ => ⟨S_, .i32⟩
  | .hbm, ⟨14, _⟩ => ⟨S1024x26x100, .i32⟩
  | .hbm, ⟨15, _⟩ => ⟨S1024x26x100, .i32⟩
  | .hbm, ⟨16, _⟩ => ⟨S_, .i32⟩
  | .hbm, ⟨17, _⟩ => ⟨S_, .i32⟩
  | .hbm, ⟨18, _⟩ => ⟨S1024x26x128, .i32⟩
  | .hbm, ⟨19, _⟩ => ⟨S1024x26x128, .bf16⟩
  | .hbm, ⟨20, _⟩ => ⟨S26x1024x128, .bf16⟩
  | .hbm, ⟨21, _⟩ => ⟨S26x100x16, .f32⟩
  | .hbm, ⟨22, _⟩ => ⟨S26x26, .i32⟩
  | .hbm, ⟨23, _⟩ => ⟨S26x26, .i32⟩
  | .hbm, ⟨24, _⟩ => ⟨S_, .i32⟩
  | .hbm, ⟨25, _⟩ => ⟨S26x26, .i32⟩
  | .hbm, ⟨26, _⟩ => ⟨S26x26, .i32⟩
  | .hbm, ⟨27, _⟩ => ⟨S26x26, .i1⟩
  | .hbm, ⟨28, _⟩ => ⟨S26x26, .f32⟩
  | .hbm, ⟨29, _⟩ => ⟨S26x100, .f32⟩
  | .hbm, ⟨30, _⟩ => ⟨S26x100x1, .f32⟩
  | .hbm, ⟨31, _⟩ => ⟨S26x1x26, .f32⟩
  | .hbm, ⟨32, _⟩ => ⟨S26x100x26, .f32⟩
  | .hbm, ⟨33, _⟩ => ⟨S26x100x26, .f32⟩
  | .hbm, ⟨34, _⟩ => ⟨S26x100x26, .f32⟩
  | .hbm, ⟨35, _⟩ => ⟨S_, .f32⟩
  | .hbm, ⟨36, _⟩ => ⟨S26x100x1, .f32⟩
  | .hbm, ⟨37, _⟩ => ⟨S26x100x59, .f32⟩
  | .hbm, ⟨38, _⟩ => ⟨S_, .i32⟩
  | .hbm, ⟨39, _⟩ => ⟨S_, .f32⟩
  | .hbm, ⟨40, _⟩ => ⟨S26x128x128, .f32⟩
  | .hbm, ⟨41, _⟩ => ⟨S1024x128, .f32⟩
  | .hbm, ⟨42, _⟩ => ⟨S1024x16, .f32⟩
  | .hbm, ⟨43, _⟩ => ⟨S1024x16, .f32⟩
  | .hbm, ⟨44, _⟩ => ⟨S1024x26, .f32⟩
  | .hbm, ⟨45, _⟩ => ⟨S1024x39, .f32⟩
  | .hbm, ⟨46, _⟩ => ⟨S39x1, .f32⟩
  | .hbm, ⟨47, _⟩ => ⟨S1024x1, .f32⟩
  | .hbm, ⟨48, _⟩ => ⟨S1x1, .f32⟩
  | .hbm, ⟨49, _⟩ => ⟨S1024x1, .f32⟩
  | .hbm, ⟨50, _⟩ => ⟨S1024x1, .f32⟩
  | .hbm, ⟨51, _⟩ => ⟨S1024x16, .f32⟩
  | .hbm, ⟨52, _⟩ => ⟨S1024x16, .f32⟩
  | .hbm, ⟨53, _⟩ => ⟨S_, .f32⟩
  | .hbm, ⟨54, _⟩ => ⟨S1024, .f32⟩
  | .hbm, ⟨55, _⟩ => ⟨S1024x1, .f32⟩
  | .hbm, ⟨56, _⟩ => ⟨S_, .f32⟩
  | .hbm, ⟨57, _⟩ => ⟨S1024x1, .f32⟩
  | .hbm, ⟨58, _⟩ => ⟨S1024x1, .f32⟩
  | .hbm, ⟨59, _⟩ => ⟨S1024x1, .f32⟩
  | .local _ .vmem, ⟨0, _⟩ => ⟨S1x512x128, .bf16⟩
  | .local _ .vmem, ⟨1, _⟩ => ⟨S1x512x128, .bf16⟩
  | .local _ .vmem, ⟨2, _⟩ => ⟨S1x128x128, .f32⟩
  | .local _ .vmem, ⟨3, _⟩ => ⟨S1x128x128, .f32⟩
  | .local _ .vmem, ⟨4, _⟩ => ⟨S512x128, .f32⟩
  | .local _ .vmem, ⟨5, _⟩ => ⟨S512x128, .f32⟩
  | _, _ => ⟨S1024x2626, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v2 : Ref sig .tc := ⟨.hbm, 15, rfl⟩
abbrev main_c_1 : Ref sig .tc := ⟨.hbm, 16, rfl⟩
abbrev main_call1_v0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_call2_v0 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_4 : Ref sig .tc := ⟨.hbm, 53, rfl⟩
abbrev main_v34 : Ref sig .tc := ⟨.hbm, 54, rfl⟩
abbrev main_v35 : Ref sig .tc := ⟨.hbm, 55, rfl⟩
abbrev main_cst_5 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 26], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S1024x2626_S1024x26x101 : S1024x2626.ShapeCasts S1024x26x101
  slices_S1024x26x101_S1024x26x100_0_0_0 : S1024x26x101.Slices ![0, 0, 0] S1024x26x100
  bcast_S_S1024x26x100 : S_.BroadcastsInDim S1024x26x100 (![] : Fin 0 → Fin S1024x26x100.rank)
  pads_S1024x26x100_S1024x26x128_000_000_0280 : S1024x26x100.Pads (![0, 0, 0] : Fin 3 → Nat) ![0, 0, 28] ![0, 0, 0] S1024x26x128
  h_S_ : 0 < S_.numel
  transposes_S1024x26x128_S26x1024x128_1_0_2 : S1024x26x128.Transposes [1, 0, 2] S26x1024x128
  bcast_S_S26x26 : S_.BroadcastsInDim S26x26 (![] : Fin 0 → Fin S26x26.rank)
  shapeCasts_S26x100x1_S26x100 : S26x100x1.ShapeCasts S26x100
  bcast_S26x100_S26x100x1_0_1 : S26x100.BroadcastsInDim S26x100x1 (![0, 1] : Fin 2 → Fin S26x100x1.rank)
  bcast_S26x26_S26x1x26_0_2 : S26x26.BroadcastsInDim S26x1x26 (![0, 2] : Fin 2 → Fin S26x1x26.rank)
  bcast_S26x100x1_S26x100x26_0_1_2 : S26x100x1.BroadcastsInDim S26x100x26 (![0, 1, 2] : Fin 3 → Fin S26x100x26.rank)
  bcast_S26x1x26_S26x100x26_0_1_2 : S26x1x26.BroadcastsInDim S26x100x26 (![0, 1, 2] : Fin 3 → Fin S26x100x26.rank)
  bcast_S_S26x100x1 : S_.BroadcastsInDim S26x100x1 (![] : Fin 0 → Fin S26x100x1.rank)
  concatenates_S26x100x16_S26x100x16_S26x100x1_S26x100x26_S26x100x59_d2 : Shape.Concatenates [S26x100x16, S26x100x16, S26x100x1, S26x100x26] S26x100x59 2
  pads_S26x100x59_S26x128x128_000_0280_0690 : S26x100x59.Pads (![0, 0, 0] : Fin 3 → Nat) ![0, 28, 69] ![0, 0, 0] S26x128x128
  inb_S512x128_S512x128_0_0 : ∀ a, (![0, 0] : Fin 2 → Nat) a + S512x128.size a ≤ S512x128.size a
  h_S512x128 : 0 < S512x128.numel
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  iota_S1x1x128_d2_w32 : S1x1x128.Iotas .tc 32 [2]
  slices_S512x128_o0_0_S512x16 : S512x128.Slices ![0, 0] S512x16
  shapeCasts_S512x16_S512x16x1 : S512x16.ShapeCasts S512x16x1
  broadcasts_S512x16x1_S512x16x128 : S512x16x1.Broadcasts S512x16x128
  broadcasts_S1x1x128_S512x16x128 : S1x1x128.Broadcasts S512x16x128
  natLt_1_32 : 1 < 32
  bitsLt_bf16_f32 : FTy.bits .bf16 < FTy.bits .f32
  reduces_S512x16x128_S512x128 : S512x16x128.Reduces [1] S512x128
  slices_S512x128_o0_16_S512x16 : S512x128.Slices ![0, 16] S512x16
  slices_S512x128_o0_32_S512x16 : S512x128.Slices ![0, 32] S512x16
  slices_S512x128_o0_48_S512x16 : S512x128.Slices ![0, 48] S512x16
  slices_S512x128_o0_64_S512x16 : S512x128.Slices ![0, 64] S512x16
  slices_S512x128_o0_80_S512x16 : S512x128.Slices ![0, 80] S512x16
  slices_S512x128_o0_96_S512x16 : S512x128.Slices ![0, 96] S512x16
  shapeCasts_S512x128_S512x128 : S512x128.ShapeCasts S512x128
  slices_S1024x128_S1024x16_0_0 : S1024x128.Slices ![0, 0] S1024x16
  slices_S1024x128_S1024x16_0_16 : S1024x128.Slices ![0, 16] S1024x16
  slices_S1024x128_S1024x26_0_33 : S1024x128.Slices ![0, 33] S1024x26
  concatenates_S1024x26_S1024x13_S1024x39_d1 : Shape.Concatenates [S1024x26, S1024x13] S1024x39 1
  transposes_S1x39_S39x1_1_0 : S1x39.Transposes [1, 0] S39x1
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  reducesTo_S1024x16_S1024_d1 : S1024x16.ReducesTo [1] S1024
  bcast_S1024_S1024x1_0 : S1024.BroadcastsInDim S1024x1 (![0] : Fin 1 → Fin S1024x1.rank)
  bcast_S_S1024x1 : S_.BroadcastsInDim S1024x1 (![] : Fin 0 → Fin S1024x1.rank)
  dot_S512x128_S128x128_S512x128_1_0_0_1_n_n_wf : DotDims.WF S512x128 S128x128 S512x128 [1] [0] [0] [1] [] []
  dot_S1024x39_S39x1_S1024x1_1_0_0_1_n_n_wf : DotDims.WF S1024x39 S39x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x128.size a ≤ S26x1024x128.size a
  hwx0_0 : ∀ i : grid0.Coords, EltTy.bits .bf16 = 32 ∨ (Rect.block (s := S26x1024x128) S1x512x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S26x128x128.size a
  hwx0_1 : ∀ i : grid0.Coords, EltTy.bits .f32 = 32 ∨ (Rect.block (s := S26x128x128) S1x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S1024x128.size a
  hwx0_2 : ∀ i : grid0.Coords, EltTy.bits .f32 = 32 ∨ (Rect.block (s := S1024x128) S512x128.size (cc0_transform_2 i) (hinb0_2 i)).WholeWords (EltTy.packing .f32)

variable [Facts₀]

def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S1024x39_S39x1_S1024x1_1_0_0_1_n_n : DotDims S1024x39 S39x1 S1024x1 where
  lhsContracting := [1]
  rhsContracting := [0]
  lhsNonContracting := [0]
  rhsNonContracting := [1]
  lhsBatch := []
  rhsBatch := []
  wf := dot_S1024x39_S39x1_S1024x1_1_0_0_1_n_n_wf

abbrev win0_0 : Pipeline.Window sig grid0 :=
  Pipeline.Window.ofSpec (Memref.whole main_v5) S1x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S1x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S512x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x2626 : Shape := ⟨2, ![1024, 2626]⟩
abbrev S1024x13 : Shape := ⟨2, ![1024, 13]⟩
abbrev S26x100x1 : Shape := ⟨3, ![26, 100, 1]⟩
abbrev S26x100x16 : Shape := ⟨3, ![26, 100, 16]⟩
abbrev S1x39 : Shape := ⟨2, ![1, 39]⟩
abbrev S1 : Shape := ⟨1, ![1]⟩
abbrev S26 : Shape := ⟨1, ![26]⟩
abbrev S_ : Shape := ⟨0, ![]⟩
abbrev S26x1 : Shape := ⟨2, ![26, 1]⟩
abbrev S100 : Shape := ⟨1, ![100]⟩
abbrev S1x100 : Shape := ⟨2, ![1, 100]⟩
abbrev S26x100 : Shape := ⟨2, ![26, 100]⟩
abbrev S1024x26x100 : Shape := ⟨3, ![1024, 26, 100]⟩
abbrev S1x26x1 : Shape := ⟨3, ![1, 26, 1]⟩
abbrev S1024x26x100x1 : Shape := ⟨4, ![1024, 26, 100, 1]⟩
abbrev S1024x26x100x3 : Shape := ⟨4, ![1024, 26, 100, 3]⟩
abbrev S1024x26 : Shape := ⟨2, ![1024, 26]⟩
abbrev S1024x39 : Shape := ⟨2, ![1024, 39]⟩
abbrev S39x1 : Shape := ⟨2, ![39, 1]⟩
abbrev S1024x1 : Shape := ⟨2, ![1024, 1]⟩
abbrev S1x1 : Shape := ⟨2, ![1, 1]⟩
abbrev S1024x26x100x2 : Shape := ⟨4, ![1024, 26, 100, 2]⟩
abbrev S1024x26x100x16 : Shape := ⟨4, ![1024, 26, 100, 16]⟩
abbrev S1024x2600x16 : Shape := ⟨3, ![1024, 2600, 16]⟩
abbrev S1024x16 : Shape := ⟨2, ![1024, 16]⟩
abbrev S1024 : Shape := ⟨1, ![1024]⟩

abbrev nBuf : Space → Nat
  | .hbm => 92
  | .vmem => 0
  | .smem => 0
  | _ => 0

abbrev bufTy : (tb : Table) → Fin (tcTables nBuf tb) → BufTy
  | .hbm, ⟨0, _⟩ => ⟨S1024x2626, .i32⟩
  | .hbm, ⟨1, _⟩ => ⟨S1024x13, .f32⟩
  | .hbm, ⟨2, _⟩ => ⟨S26x100x1, .f32⟩
  | .hbm, ⟨3, _⟩ => ⟨S26x100x16, .f32⟩
  | .hbm, ⟨4, _⟩ => ⟨S1x39, .f32⟩
  | .hbm, ⟨5, _⟩ => ⟨S1, .f32⟩
  | .hbm, ⟨6, _⟩ => ⟨S26, .i32⟩
  | .hbm, ⟨7, _⟩ => ⟨S_, .i32⟩
  | .hbm, ⟨8, _⟩ => ⟨S26, .i32⟩
  | .hbm, ⟨9, _⟩ => ⟨S26, .i32⟩
  | .hbm, ⟨10, _⟩ => ⟨S26x1, .i32⟩
  | .hbm, ⟨11, _⟩ => ⟨S100, .i32⟩
  | .hbm, ⟨12, _⟩ => ⟨S1x100, .i32⟩
  | .hbm, ⟨13, _⟩ => ⟨S26x100, .i32⟩
  | .hbm, ⟨14, _⟩ => ⟨S26x100, .i32⟩
  | .hbm, ⟨15, _⟩ => ⟨S26x100, .i32⟩
  | .hbm, ⟨16, _⟩ => ⟨S_, .i32⟩
  | .hbm, ⟨17, _⟩ => ⟨S26x100, .i32⟩
  | .hbm, ⟨18, _⟩ => ⟨S26x100, .i1⟩
  | .hbm, ⟨19, _⟩ => ⟨S_, .i32⟩
  | .hbm, ⟨20, _⟩ => ⟨S26x100, .i32⟩
  | .hbm, ⟨21, _⟩ => ⟨S26x100, .i32⟩
  | .hbm, ⟨22, _⟩ => ⟨S26x100, .i32⟩
  | .hbm, ⟨23, _⟩ => ⟨S26x100x1, .i32⟩
  | .hbm, ⟨24, _⟩ => ⟨S1024x26x100, .i32⟩
  | .hbm, ⟨25, _⟩ => ⟨S26, .i32⟩
  | .hbm, ⟨26, _⟩ => ⟨S1x26x1, .i32⟩
  | .hbm, ⟨27, _⟩ => ⟨S_, .i32⟩
  | .hbm, ⟨28, _⟩ => ⟨S1x26x1, .i32⟩
  | .hbm, ⟨29, _⟩ => ⟨S1x26x1, .i1⟩
  | .hbm, ⟨30, _⟩ => ⟨S_, .i32⟩
  | .hbm, ⟨31, _⟩ => ⟨S1x26x1, .i32⟩
  | .hbm, ⟨32, _⟩ => ⟨S1x26x1, .i32⟩
  | .hbm, ⟨33, _⟩ => ⟨S1x26x1, .i32⟩
  | .hbm, ⟨34, _⟩ => ⟨S_, .i32⟩
  | .hbm, ⟨35, _⟩ => ⟨S1024x26x100, .i32⟩
  | .hbm, ⟨36, _⟩ => ⟨S1024x26x100, .i1⟩
  | .hbm, ⟨37, _⟩ => ⟨S_, .i32⟩
  | .hbm, ⟨38, _⟩ => ⟨S1024x26x100, .i32⟩
  | .hbm, ⟨39, _⟩ => ⟨S1024x26x100, .i32⟩
  | .hbm, ⟨40, _⟩ => ⟨S1024x26x100, .i32⟩
  | .hbm, ⟨41, _⟩ => ⟨S1024x26x100, .i32⟩
  | .hbm, ⟨42, _⟩ => ⟨S_, .i32⟩
  | .hbm, ⟨43, _⟩ => ⟨S1024x26x100, .i32⟩
  | .hbm, ⟨44, _⟩ => ⟨S1024x26x100, .i32⟩
  | .hbm, ⟨45, _⟩ => ⟨S1024x26x100x1, .i32⟩
  | .hbm, ⟨46, _⟩ => ⟨S1024x26x100x1, .i32⟩
  | .hbm, ⟨47, _⟩ => ⟨S1024x26x100x1, .i32⟩
  | .hbm, ⟨48, _⟩ => ⟨S1024x26x100x3, .i32⟩
  | .hbm, ⟨49, _⟩ => ⟨S1024x26x100, .f32⟩
  | .hbm, ⟨50, _⟩ => ⟨S_, .f32⟩
  | .hbm, ⟨51, _⟩ => ⟨S1024x26, .f32⟩
  | .hbm, ⟨52, _⟩ => ⟨S1024x39, .f32⟩
  | .hbm, ⟨53, _⟩ => ⟨S39x1, .f32⟩
  | .hbm, ⟨54, _⟩ => ⟨S1024x1, .f32⟩
  | .hbm, ⟨55, _⟩ => ⟨S1x1, .f32⟩
  | .hbm, ⟨56, _⟩ => ⟨S1024x1, .f32⟩
  | .hbm, ⟨57, _⟩ => ⟨S1024x1, .f32⟩
  | .hbm, ⟨58, _⟩ => ⟨S_, .i32⟩
  | .hbm, ⟨59, _⟩ => ⟨S1x26x1, .i32⟩
  | .hbm, ⟨60, _⟩ => ⟨S1x26x1, .i1⟩
  | .hbm, ⟨61, _⟩ => ⟨S_, .i32⟩
  | .hbm, ⟨62, _⟩ => ⟨S1x26x1, .i32⟩
  | .hbm, ⟨63, _⟩ => ⟨S1x26x1, .i32⟩
  | .hbm, ⟨64, _⟩ => ⟨S1x26x1, .i32⟩
  | .hbm, ⟨65, _⟩ => ⟨S_, .i32⟩
  | .hbm, ⟨66, _⟩ => ⟨S1024x26x100, .i32⟩
  | .hbm, ⟨67, _⟩ => ⟨S1024x26x100, .i1⟩
  | .hbm, ⟨68, _⟩ => ⟨S_, .i32⟩
  | .hbm, ⟨69, _⟩ => ⟨S1024x26x100, .i32⟩
  | .hbm, ⟨70, _⟩ => ⟨S1024x26x100, .i32⟩
  | .hbm, ⟨71, _⟩ => ⟨S1024x26x100, .i32⟩
  | .hbm, ⟨72, _⟩ => ⟨S1024x26x100, .i32⟩
  | .hbm, ⟨73, _⟩ => ⟨S1024x26x100x1, .i32⟩
  | .hbm, ⟨74, _⟩ => ⟨S1024x26x100x1, .i32⟩
  | .hbm, ⟨75, _⟩ => ⟨S1024x26x100x2, .i32⟩
  | .hbm, ⟨76, _⟩ => ⟨S1024x26x100x16, .f32⟩
  | .hbm, ⟨77, _⟩ => ⟨S1024x2600x16, .f32⟩
  | .hbm, ⟨78, _⟩ => ⟨S_, .f32⟩
  | .hbm, ⟨79, _⟩ => ⟨S1024x16, .f32⟩
  | .hbm, ⟨80, _⟩ => ⟨S1024x2600x16, .f32⟩
  | .hbm, ⟨81, _⟩ => ⟨S_, .f32⟩
  | .hbm, ⟨82, _⟩ => ⟨S1024x16, .f32⟩
  | .hbm, ⟨83, _⟩ => ⟨S1024x16, .f32⟩
  | .hbm, ⟨84, _⟩ => ⟨S1024x16, .f32⟩
  | .hbm, ⟨85, _⟩ => ⟨S_, .f32⟩
  | .hbm, ⟨86, _⟩ => ⟨S1024, .f32⟩
  | .hbm, ⟨87, _⟩ => ⟨S1024x1, .f32⟩
  | .hbm, ⟨88, _⟩ => ⟨S_, .f32⟩
  | .hbm, ⟨89, _⟩ => ⟨S1024x1, .f32⟩
  | .hbm, ⟨90, _⟩ => ⟨S1024x1, .f32⟩
  | .hbm, ⟨91, _⟩ => ⟨S1024x1, .f32⟩
  | _, _ => ⟨S1024x2626, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_4 : Ref sig .tc := ⟨.hbm, 34, rfl⟩
abbrev main_v23 : Ref sig .tc := ⟨.hbm, 35, rfl⟩
abbrev main_v24 : Ref sig .tc := ⟨.hbm, 36, rfl⟩
abbrev main_c_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_c_7 : Ref sig .tc := ⟨.hbm, 58, rfl⟩
abbrev main_v43 : Ref sig .tc := ⟨.hbm, 59, rfl⟩
abbrev main_v44 : Ref sig .tc := ⟨.hbm, 60, rfl⟩
abbrev main_c_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_9 : Ref sig .tc := ⟨.hbm, 65, rfl⟩
abbrev main_v48 : Ref sig .tc := ⟨.hbm, 66, rfl⟩
abbrev main_v49 : Ref sig .tc := ⟨.hbm, 67, rfl⟩
abbrev main_c_10 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_11 : Ref sig .tc := ⟨.hbm, 78, rfl⟩
abbrev main_v59 : Ref sig .tc := ⟨.hbm, 79, rfl⟩
abbrev main_v60 : Ref sig .tc := ⟨.hbm, 80, rfl⟩
abbrev main_cst_12 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_13 : Ref sig .tc := ⟨.hbm, 85, rfl⟩
abbrev main_v64 : Ref sig .tc := ⟨.hbm, 86, rfl⟩
abbrev main_v65 : Ref sig .tc := ⟨.hbm, 87, rfl⟩
abbrev main_cst_14 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩

abbrev nD : Nat := 1
abbrev τ : Topo := Topo.v7x

variable {F : FTy → Type} [FloatOps F]

class Facts₀ : Prop where
  bcast_S_S26 : S_.BroadcastsInDim S26 (![] : Fin 0 → Fin S26.rank)
  bcast_S26_S26x1_0 : S26.BroadcastsInDim S26x1 (![0] : Fin 1 → Fin S26x1.rank)
  bcast_S100_S1x100_1 : S100.BroadcastsInDim S1x100 (![1] : Fin 1 → Fin S1x100.rank)
  bcast_S26x1_S26x100_0_1 : S26x1.BroadcastsInDim S26x100 (![0, 1] : Fin 2 → Fin S26x100.rank)
  bcast_S1x100_S26x100_0_1 : S1x100.BroadcastsInDim S26x100 (![0, 1] : Fin 2 → Fin S26x100.rank)
  bcast_S_S26x100 : S_.BroadcastsInDim S26x100 (![] : Fin 0 → Fin S26x100.rank)
  bcast_S26x100_S26x100x1_0_1 : S26x100.BroadcastsInDim S26x100x1 (![0, 1] : Fin 2 → Fin S26x100x1.rank)
  bcast_S26_S1x26x1_1 : S26.BroadcastsInDim S1x26x1 (![1] : Fin 1 → Fin S1x26x1.rank)
  bcast_S_S1x26x1 : S_.BroadcastsInDim S1x26x1 (![] : Fin 0 → Fin S1x26x1.rank)
  bcast_S_S1024x26x100 : S_.BroadcastsInDim S1024x26x100 (![] : Fin 0 → Fin S1024x26x100.rank)
  bcast_S1x26x1_S1024x26x100_0_1_2 : S1x26x1.BroadcastsInDim S1024x26x100 (![0, 1, 2] : Fin 3 → Fin S1024x26x100.rank)
  bcast_S1024x26x100_S1024x26x100x1_0_1_2 : S1024x26x100.BroadcastsInDim S1024x26x100x1 (![0, 1, 2] : Fin 3 → Fin S1024x26x100x1.rank)
  concatenates_S1024x26x100x1_S1024x26x100x1_S1024x26x100x1_S1024x26x100x3_d3 : Shape.Concatenates [S1024x26x100x1, S1024x26x100x1, S1024x26x100x1] S1024x26x100x3 3
  reducesTo_S1024x26x100_S1024x26_d2 : S1024x26x100.ReducesTo [2] S1024x26
  h_S_ : 0 < S_.numel
  concatenates_S1024x26_S1024x13_S1024x39_d1 : Shape.Concatenates [S1024x26, S1024x13] S1024x39 1
  transposes_S1x39_S39x1_1_0 : S1x39.Transposes [1, 0] S39x1
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  concatenates_S1024x26x100x1_S1024x26x100x1_S1024x26x100x2_d3 : Shape.Concatenates [S1024x26x100x1, S1024x26x100x1] S1024x26x100x2 3
  shapeCasts_S1024x26x100x16_S1024x2600x16 : S1024x26x100x16.ShapeCasts S1024x2600x16
  reducesTo_S1024x2600x16_S1024x16_d1 : S1024x2600x16.ReducesTo [1] S1024x16
  reducesTo_S1024x16_S1024_d1 : S1024x16.ReducesTo [1] S1024
  bcast_S1024_S1024x1_0 : S1024.BroadcastsInDim S1024x1 (![0] : Fin 1 → Fin S1024x1.rank)
  bcast_S_S1024x1 : S_.BroadcastsInDim S1024x1 (![] : Fin 0 → Fin S1024x1.rank)
  gather_S1024x2626_S26x100x1_S1024x26x100_0_1_n_n_1_2_10241_wf : GatherDims.WF S1024x2626 S26x100x1 S1024x26x100 [0] [1] [] [1] [] 2 ![1024, 1]
  gather_S26x100x1_S1024x26x100x3_S1024x26x100_n_012_n_n_012_3_111_wf : GatherDims.WF S26x100x1 S1024x26x100x3 S1024x26x100 [] [0, 1, 2] [] [0, 1, 2] [] 3 ![1, 1, 1]
  dot_S1024x39_S39x1_S1024x1_1_0_0_1_n_n_wf : DotDims.WF S1024x39 S39x1 S1024x1 [1] [0] [0] [1] [] []
  gather_S26x100x16_S1024x26x100x2_S1024x26x100x16_3_01_n_n_01_3_1116_wf : GatherDims.WF S26x100x16 S1024x26x100x2 S1024x26x100x16 [3] [0, 1] [] [0, 1] [] 3 ![1, 1, 16]

variable [Facts₀]

def gather_S1024x2626_S26x100x1_S1024x26x100_0_1_n_n_1_2_10241 : GatherDims S1024x2626 S26x100x1 S1024x26x100 where
  offsetDims := [0]
  collapsedSliceDims := [1]
  operandBatchingDims := []
  startIndicesBatchingDims := []
  startIndexMap := [1]
  indexVectorDim := 2
  sliceSizes := ![1024, 1]
  wf := gather_S1024x2626_S26x100x1_S1024x26x100_0_1_n_n_1_2_10241_wf
def gather_S26x100x1_S1024x26x100x3_S1024x26x100_n_012_n_n_012_3_111 : GatherDims S26x100x1 S1024x26x100x3 S1024x26x100 where
  offsetDims := []
  collapsedSliceDims := [0, 1, 2]
  operandBatchingDims := []
  startIndicesBatchingDims := []
  startIndexMap := [0, 1, 2]
  indexVectorDim := 3
  sliceSizes := ![1, 1, 1]
  wf := gather_S26x100x1_S1024x26x100x3_S1024x26x100_n_012_n_n_012_3_111_wf
def dot_S1024x39_S39x1_S1024x1_1_0_0_1_n_n : DotDims S1024x39 S39x1 S1024x1 where
  lhsContracting := [1]
  rhsContracting := [0]
  lhsNonContracting := [0]
  rhsNonContracting := [1]
  lhsBatch := []
  rhsBatch := []
  wf := dot_S1024x39_S39x1_S1024x1_1_0_0_1_n_n_wf
def gather_S26x100x16_S1024x26x100x2_S1024x26x100x16_3_01_n_n_01_3_1116 : GatherDims S26x100x16 S1024x26x100x2 S1024x26x100x16 where
  offsetDims := [3]
  collapsedSliceDims := [0, 1]
  operandBatchingDims := []
  startIndicesBatchingDims := []
  startIndexMap := [0, 1]
  indexVectorDim := 3
  sliceSizes := ![1, 1, 16]
  wf := gather_S26x100x16_S1024x26x100x2_S1024x26x100x16_3_01_n_n_01_3_1116_wf

class Facts : Prop extends Facts₀ where

variable [Facts]
-- ==== Proof.KernelAround.lean ====
/-
  The program around its one pallas_call. @main first prepares the two operands on the host — the ids of every
  field clipped to the table's rows, padded with -1 to 128 positions, converted and transposed to field-major
  order; and the per-field table whose columns are the embedding, its square, a zero column and the field's
  linear weight in the field's own column, padded with zeros to 128 x 128 — then launches the kernel on a
  2 x 26 grid (batch tile, field), and finally reads the accumulated 1024 x 128 result on the host.
  This module states what the launch theorem needs of that shape: the buffer contents the region is entered with
  (the host lines before it applied to the launch contents), that @main is those lines, the region, and the
  lines after it; that the later lines touch no operand of the pipeline; that no host line writes an argument;
  the block each window shows at a grid point; and the branch of the body (the accumulator is reset exactly at
  field 0, that is at the points divisible by 26).
-/
import proofs.«429955_j26156350832970_3_alg».proof.Proof.Gen.Kernel.Launch
import proofs.«429955_j26156350832970_3_alg».proof.Proof.Gen.Kernel.Skeleton
import proofs.«429955_j26156350832970_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines before and after the region -/

/-- The host lines before the region, stretch by stretch (a function jax outlined is a stretch of its own). -/
abbrev linesBefore : List (List (HloOp τ sig (Elt F))) := [hostOps0, hostOps0_1, hostOps0_2, hostOps0_3, hostOps0_4, hostOps0_5]

/-- Core `c`'s buffer contents when the region is entered: the lines before it applied to the launch contents. -/
abbrev V0 (c : Dev nD) : Valuation τ sig (Elt F) := StableHlo.after (List.flatten (linesBefore (F := F))) (fun b => m (c, b))
/-- The same read at a TensorCore reference. -/
abbrev V (c : Dev nD) (b : Ref sig .tc) : Buf (Elt F) ((c : Thread nD τ).loc b) := V0 m c (Proc.devRef .tc b)

theorem linesBefore_sub : (linesBefore (F := F)).Forall fun ops => ops.Forall fun op => op.bufs ⊆ StableHlo.tcRefs τ sig :=
  ⟨hostOps0_sub, hostOps0_1_sub, hostOps0_2_sub, hostOps0_3_sub, hostOps0_4_sub, hostOps0_5_sub⟩

theorem linesBefore_fresh : (linesBefore (F := F)).Forall fun ops => ops.Forall fun op => op.fresh = ∅ := by
  simp only [List.Forall]; repeat' constructor

theorem hostOps1_fresh : (hostOps1 : List (HloOp τ sig (Elt F))).Forall fun op => op.fresh = ∅ := by
  simp only [List.Forall]; repeat' constructor

/-- @main is the lines before the region, the region, the lines after it: it reduces to the region continued by
    the later lines, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main linesBefore [hostOps1] linesBefore_sub linesBefore_fresh main_chain

/-- The later lines touch only unscoped TensorCore buffers: the pipeline's arrays and the buffers that bypass it. -/
theorem later_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem later_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result, which is none of the three arrays the pipeline stages. -/
theorem later_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, StableHlo.TRef.unary, StableHlo.TRef.binary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes argument 0: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, StableHlo.TRef.unary, StableHlo.TRef.binary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes argument 1: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, StableHlo.TRef.unary, StableHlo.TRef.binary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes argument 2: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, StableHlo.TRef.unary, StableHlo.TRef.binary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes argument 3: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, StableHlo.TRef.unary, StableHlo.TRef.binary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes argument 4: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host line before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, StableHlo.TRef.unary, StableHlo.TRef.binary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes argument 5: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The ids' staging buffer holds the point's block of ids at every point, for any proof data over `V` whose
    body leaves that block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the table's staging buffer. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run of the launch theorem -/

/-- Every argument is a buffer that bypasses the pipeline, so a run ending in the launch theorem's post ends with
    every argument as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c)⟩) h

/-! ## The body's branch -/

/-- The condition of the body's one branch, from the grid coordinates: the field coordinate is 0. -/
abbrev atField0 (i : grid0.Coords) : Prop := (Scalar.cmpi .ne (Scalar.extui (Scalar.cmpi .eq (BitVec.ofNat 32 (i 1).val) 0#32)) 0#32) = 1#1
/-- It holds at the points divisible by 26 — decided over the grid. -/
theorem atField0_iff : ∀ t : Fin cfg0.N, atField0 (grid0.coords t) ↔ t.val % 26 = 0 :=
  (by decide +kernel : ∀ t : Fin grid0.N, atField0 (grid0.coords t) ↔ t.val % 26 = 0)

/-! ## The staging memrefs the body is called with -/

/-- One staging buffer of the result window, through which its contents are stated. -/
abbrev VOut : View sig .tc .vmem S512x128 .f32 := (Memref.whole cc0_stg2_0 : Memref sig .tc .vmem S512x128 .f32).view
/-- Each window's current staging memref at point `t`, as the pipeline passes it, and its wholeness. -/
abbrev ms0_0 (t : Fin cfg0.N) : Memref sig .tc .vmem S1x512x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x128 .f32 := win0_2.stage (cfg0.slots t 2)
abbrev hs0_2 (t : Fin cfg0.N) : (ms0_2 t).IsWhole := hstage0_2 ((cfg0.slots t 2).cast nbuf0_2)

end Cert.Kernel.Hand

end
-- ==== Proof.KernelFirst.lean ====
/-
  The kernel body at a point of field 0. There the branch is taken: the body overwrites the whole accumulator
  block with zeros, loads the block of ids and the field's table, and stores accumulator + (histogram of the
  ids) x table back over the whole block. Run on whole staging memrefs — the two inputs at their contents, the
  accumulator at anything — the body ends with the inputs as they were and the accumulator holding the pieces its
  two stores wrote, the later store last; the list of pieces is what the symbolic run finds.
-/
import proofs.«429955_j26156350832970_3_alg».proof.Proof.KernelAround

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body at field 0: from the inputs' buffers at `x0` (ids) and `x1` (table) and the accumulator's at anything,
    it runs to the end, the inputs unchanged and the accumulator's buffer written with the pieces found. -/
noncomputable def runAtField0 (c : Dev nD) (i : grid0.Coords)
    (arg2 : Memref sig .tc .vmem S1x512x128 .bf16) (harg2 : arg2.IsWhole)
    (arg3 : Memref sig .tc .vmem S1x128x128 .f32) (harg3 : arg3.IsWhole)
    (arg4 : Memref sig .tc .vmem S512x128 .f32) (harg4 : arg4.IsWhole) (hc0 : atField0 i)
    (x0 : Vec F S1x512x128 .bf16) (x1 : Vec F S1x128x128 .f32) :
    { L : List (View.Piece (Elt F) S512x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__fm_kernel i arg2 harg2 arg3 harg3 arg4 harg4) K } := by
  refine ⟨?_, fun E K => ?run⟩
  case run =>
    simp only [cc0__fm_kernel_eq_skeleton]; unfold cc0__fm_kernel_skel
    simp only [k0_part1_eq_skeleton, k0_part2_eq_skeleton]
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Hand

end
-- ==== Proof.KernelLater.lean ====
/-
  The kernel body at a point of a later field (field coordinate not 0). The branch is not taken: the body loads the
  block of ids and the field's table, reads the accumulator block as the point before left it, and stores
  accumulator + (histogram of the ids) x table back over the whole block. Run on whole staging memrefs — the two
  inputs at their contents, the accumulator at its running contents — the body ends with the inputs as they were
  and the accumulator holding the one piece its store wrote.
-/
import proofs.«429955_j26156350832970_3_alg».proof.Proof.KernelFirst

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body at a later field: from the inputs' buffers at `x0` (ids) and `x1` (table) and the accumulator's at
    `acc`, it runs to the end, the inputs unchanged and the accumulator's buffer written with the pieces found. -/
noncomputable def runAtLaterField (c : Dev nD) (i : grid0.Coords)
    (arg2 : Memref sig .tc .vmem S1x512x128 .bf16) (harg2 : arg2.IsWhole)
    (arg3 : Memref sig .tc .vmem S1x128x128 .f32) (harg3 : arg3.IsWhole)
    (arg4 : Memref sig .tc .vmem S512x128 .f32) (harg4 : arg4.IsWhole) (hc0 : ¬atField0 i)
    (x0 : Vec F S1x512x128 .bf16) (x1 : Vec F S1x128x128 .f32) (acc : Vec F S512x128 .f32) :
    { L : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare acc
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__fm_kernel i arg2 harg2 arg3 harg3 arg4 harg4) K } := by
  refine ⟨?_, fun E K => ?run⟩
  case run =>
    simp only [cc0__fm_kernel_eq_skeleton]; unfold cc0__fm_kernel_skel
    simp only [k0_part1_eq_skeleton, k0_part2_eq_skeleton]
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Hand

end
-- ==== Proof.KernelFrame.lean ====
/-
  The frame of the program: every weakly fair execution of @main terminates without a fault and leaves the six
  arguments as launched. The kernel keeps a running sum in its result block across the 26 fields of a batch
  tile: the block is reset at field 0, added to at every later field, and written back to the result array only
  after field 25. So what the result's staging buffer holds after the body at a point is defined by recursion on
  the point — at a point of field 0 what the reset-and-add run leaves, at any other point what the add run leaves
  over the contents of the point before — and the body obligation is a case split on the field, each case closed
  by that case's run of the body. The launch theorem for a region with host lines on both sides then gives the
  run, and every argument, being no operand of the pipeline and written by no host line, ends as launched.
-/
import proofs.«429955_j26156350832970_3_alg».proof.Proof.KernelLater

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the accumulator's staging buffer -/

/-- At field 0 the two whole-block stores tile the block, so their pieces cover it. -/
theorem cover_field0 (c : Dev nD) (i : grid0.Coords)
    (arg2 : Memref sig .tc .vmem S1x512x128 .bf16) (harg2 : arg2.IsWhole)
    (arg3 : Memref sig .tc .vmem S1x128x128 .f32) (harg3 : arg3.IsWhole)
    (arg4 : Memref sig .tc .vmem S512x128 .f32) (harg4 : arg4.IsWhole) (hc0 : atField0 i)
    (x0 : Vec F S1x512x128 .bf16) (x1 : Vec F S1x128x128 .f32) (y : S512x128.Idx) :
    ∃ pc ∈ (runAtField0 c i arg2 harg2 arg3 harg3 arg4 harg4 hc0 x0 x1).1, y ∈ pc.1.set :=
  View.cover_of_tiledL (runAtField0 c i arg2 harg2 arg3 harg3 arg4 harg4 hc0 x0 x1).1 S512x128.size (by sl_kernel_rfl) y

/-- What the body leaves in the accumulator's buffer at field 0: its pieces read back. -/
def outAtField0 (c : Dev nD) (i : grid0.Coords)
    (arg2 : Memref sig .tc .vmem S1x512x128 .bf16) (harg2 : arg2.IsWhole)
    (arg3 : Memref sig .tc .vmem S1x128x128 .f32) (harg3 : arg3.IsWhole)
    (arg4 : Memref sig .tc .vmem S512x128 .f32) (harg4 : arg4.IsWhole) (hc0 : atField0 i)
    (x0 : Vec F S1x512x128 .bf16) (x1 : Vec F S1x128x128 .f32) : Vec F S512x128 .f32 :=
  VOut.read (Elt F) (VOut.writes (Elt F) VOut.junk (runAtField0 c i arg2 harg2 arg3 harg3 arg4 harg4 hc0 x0 x1).1)

/-- At a later field the one whole-block store covers the block. -/
theorem cover_later (c : Dev nD) (i : grid0.Coords)
    (arg2 : Memref sig .tc .vmem S1x512x128 .bf16) (harg2 : arg2.IsWhole)
    (arg3 : Memref sig .tc .vmem S1x128x128 .f32) (harg3 : arg3.IsWhole)
    (arg4 : Memref sig .tc .vmem S512x128 .f32) (harg4 : arg4.IsWhole) (hc0 : ¬atField0 i)
    (x0 : Vec F S1x512x128 .bf16) (x1 : Vec F S1x128x128 .f32) (acc : Vec F S512x128 .f32) (y : S512x128.Idx) :
    ∃ pc ∈ (runAtLaterField c i arg2 harg2 arg3 harg3 arg4 harg4 hc0 x0 x1 acc).1, y ∈ pc.1.set :=
  View.cover_of_tiledL (runAtLaterField c i arg2 harg2 arg3 harg3 arg4 harg4 hc0 x0 x1 acc).1 S512x128.size (by sl_kernel_rfl) y

/-- What the body leaves in the accumulator's buffer at a later field, over the running contents `acc`. -/
def outAtLaterField (c : Dev nD) (i : grid0.Coords)
    (arg2 : Memref sig .tc .vmem S1x512x128 .bf16) (harg2 : arg2.IsWhole)
    (arg3 : Memref sig .tc .vmem S1x128x128 .f32) (harg3 : arg3.IsWhole)
    (arg4 : Memref sig .tc .vmem S512x128 .f32) (harg4 : arg4.IsWhole) (hc0 : ¬atField0 i)
    (x0 : Vec F S1x512x128 .bf16) (x1 : Vec F S1x128x128 .f32) (acc : Vec F S512x128 .f32) : Vec F S512x128 .f32 :=
  VOut.read (Elt F) (VOut.writes (Elt F) VOut.junk (runAtLaterField c i arg2 harg2 arg3 harg3 arg4 harg4 hc0 x0 x1 acc).1)

/-! ## The running sum, point by point -/

/-- What the accumulator's staging buffer holds after the body at position `n` of the grid: at a point of field 0
    what the reset-and-add run leaves, otherwise what the add run leaves over the contents after position `n - 1`
    (the buffer is not written back in between). -/
def accAfter (c : Dev nD) : (n : ℕ) → n < cfg0.N → Vec F S512x128 .f32
  | 0, hn => outAtField0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩)
      ((atField0_iff ⟨0, hn⟩).mpr (Nat.zero_mod _)) (iblk m c 0 ⟨0, hn⟩) (iblk m c 1 ⟨0, hn⟩)
  | n + 1, hn =>
    if h0 : (n + 1) % 26 = 0 then
      outAtField0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩)
        ((atField0_iff ⟨n + 1, hn⟩).mpr h0) (iblk m c 0 ⟨n + 1, hn⟩) (iblk m c 1 ⟨n + 1, hn⟩)
    else
      outAtLaterField c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩)
        (fun h => h0 ((atField0_iff ⟨n + 1, hn⟩).mp h)) (iblk m c 0 ⟨n + 1, hn⟩) (iblk m c 1 ⟨n + 1, hn⟩) (accAfter c n (Nat.lt_of_succ_lt hn))

/-- The running sum at a point of field 0. -/
theorem accAfter_field0 (c : Dev nD) (t : Fin cfg0.N) (h0 : t.val % 26 = 0) :
    accAfter m c t.val t.isLt = outAtField0 c (grid0.coords t) (ms0_0 t) (hs0_0 t) (ms0_1 t) (hs0_1 t) (ms0_2 t) (hs0_2 t)
      ((atField0_iff t).mpr h0) (iblk m c 0 t) (iblk m c 1 t) := by
  obtain ⟨n, hn⟩ := t
  cases n with
  | zero => exact rfl
  | succ n => exact (dif_pos h0).trans rfl

/-- The running sum at a point of a later field, over the sum at the point before. -/
theorem accAfter_later (c : Dev nD) (t : Fin cfg0.N) (h0 : ¬t.val % 26 = 0) :
    accAfter m c t.val t.isLt = outAtLaterField c (grid0.coords t) (ms0_0 t) (hs0_0 t) (ms0_1 t) (hs0_1 t) (ms0_2 t) (hs0_2 t)
      (fun h => h0 ((atField0_iff t).mp h)) (iblk m c 0 t) (iblk m c 1 t)
      (accAfter m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at a point, the two inputs' buffers at their blocks and the
    accumulator's at the running sum; the invariant the scoped rest and the generator register; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (accAfter m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (accAfter m c t.val t.isLt) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- At a point of a later field the accumulator's staging buffer holds what the body left at the point before: the
    point is not the first, and the block is written back only after field 25, which the point before is not. -/
theorem before0_2_later (c : Dev nD) (t : Fin cfg0.N) (h0 : ¬t.val % 26 = 0) (d) :
    (dats m 0 c).before 2 t d = (accAfter m c (t.val - 1) (Nat.lt_of_le_of_lt (Nat.sub_le _ _) t.isLt)) := by
  have hN : t.val < 52 := lt_of_lt_of_eq t.isLt (show cfg0.N = 52 from N_0)
  rw [Dat.before_out_kept _ 2 rfl t (by omega) (Bool.eq_false_iff.mpr fun h => by have := (flush0_2 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

set_option maxHeartbeats 800000 in
/-- The body at any point: the inputs' buffers hold their blocks; at field 0 the accumulator's buffer may hold
    anything and the reset-and-add run applies; at a later field it holds the running sum and the add run applies;
    the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  have hN : t.val < 52 := lt_of_lt_of_eq t.isLt (show cfg0.N = 52 from N_0)
  by_cases h0 : t.val % 26 = 0
  · rw [accAfter_field0 m c t h0]
    unfold outAtField0
    iintro ⟨HΦ, Ho, ⟨%d0, H0⟩, ⟨%d1, H1⟩, ⟨%d2, H2⟩⟩
    iapply ((runAtField0 c (grid0.coords t) _ _ _ _ _ _ ((atField0_iff t).mpr h0) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover_field0 c _ _ _ _ _ _ _ _ _ _)
  · rw [accAfter_later m c t h0]
    simp only [before0_2_later m c t h0]
    unfold outAtLaterField
    iintro ⟨HΦ, Ho, ⟨%d0, H0⟩, ⟨%d1, H1⟩, ⟨%d2, H2⟩⟩
    iapply ((runAtLaterField c (grid0.coords t) _ _ _ _ _ _ (fun h => h0 ((atField0_iff t).mp h)) (iblk m c 0 t) (iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover_later c _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has the
    pipeline's arrays at what the proof data say and every other unscoped buffer as the later host lines leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := later_sub) (hfresh := later_fresh) (hkeep := later_keeps)
    (hmain := hmain m Variants.none) (hA := A_eq m) (hΦ := fun _ _ => rfl)

/-- The frame: every execution terminates without a fault and the six arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (run_main m ρ)

end Cert.Kernel.Hand

end
-- ==== Proof.KernelIdealAround.lean ====
/-
  The program around its one pallas_call. @main first prepares the two operands on the host — the ids of every
  field clipped to the table's rows, padded with -1 to 128 positions, converted and transposed to field-major
  order; and the per-field table whose columns are the embedding, its square, a zero column and the field's
  linear weight in the field's own column, padded with zeros to 128 x 128 — then launches the kernel on a
  2 x 26 grid (batch tile, field), and finally reads the accumulated 1024 x 128 result on the host.
  This module states what the launch theorem needs of that shape: the buffer contents the region is entered with
  (the host lines before it applied to the launch contents), that @main is those lines, the region, and the
  lines after it; that the later lines touch no operand of the pipeline; that no host line writes an argument;
  the block each window shows at a grid point; and the branch of the body (the accumulator is reset exactly at
  field 0, that is at the points divisible by 26).
-/
import proofs.«429955_j26156350832970_3_alg».proof.Proof.Gen.KernelIdeal.Launch
import proofs.«429955_j26156350832970_3_alg».proof.Proof.Gen.KernelIdeal.Skeleton
import proofs.«429955_j26156350832970_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines before and after the region -/

/-- The host lines before the region, stretch by stretch (a function jax outlined is a stretch of its own). -/
abbrev linesBefore : List (List (HloOp τ sig (Elt F))) := [hostOps0, hostOps0_1, hostOps0_2, hostOps0_3, hostOps0_4, hostOps0_5]

/-- Core `c`'s buffer contents when the region is entered: the lines before it applied to the launch contents. -/
abbrev V0 (c : Dev nD) : Valuation τ sig (Elt F) := StableHlo.after (List.flatten (linesBefore (F := F))) (fun b => m (c, b))
/-- The same read at a TensorCore reference. -/
abbrev V (c : Dev nD) (b : Ref sig .tc) : Buf (Elt F) ((c : Thread nD τ).loc b) := V0 m c (Proc.devRef .tc b)

theorem linesBefore_sub : (linesBefore (F := F)).Forall fun ops => ops.Forall fun op => op.bufs ⊆ StableHlo.tcRefs τ sig :=
  ⟨hostOps0_sub, hostOps0_1_sub, hostOps0_2_sub, hostOps0_3_sub, hostOps0_4_sub, hostOps0_5_sub⟩

theorem linesBefore_fresh : (linesBefore (F := F)).Forall fun ops => ops.Forall fun op => op.fresh = ∅ := by
  simp only [List.Forall]; repeat' constructor

theorem hostOps1_fresh : (hostOps1 : List (HloOp τ sig (Elt F))).Forall fun op => op.fresh = ∅ := by
  simp only [List.Forall]; repeat' constructor

/-- @main is the lines before the region, the region, the lines after it: it reduces to the region continued by
    the later lines, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main linesBefore [hostOps1] linesBefore_sub linesBefore_fresh main_chain

/-- The later lines touch only unscoped TensorCore buffers: the pipeline's arrays and the buffers that bypass it. -/
theorem later_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem later_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result, which is none of the three arrays the pipeline stages. -/
theorem later_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, StableHlo.TRef.unary, StableHlo.TRef.binary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes argument 0: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, StableHlo.TRef.unary, StableHlo.TRef.binary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes argument 1: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, StableHlo.TRef.unary, StableHlo.TRef.binary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes argument 2: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, StableHlo.TRef.unary, StableHlo.TRef.binary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes argument 3: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, StableHlo.TRef.unary, StableHlo.TRef.binary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes argument 4: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host line before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, StableHlo.TRef.unary, StableHlo.TRef.binary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes argument 5: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The ids' staging buffer holds the point's block of ids at every point, for any proof data over `V` whose
    body leaves that block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the table's staging buffer. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run of the launch theorem -/

/-- Every argument is a buffer that bypasses the pipeline, so a run ending in the launch theorem's post ends with
    every argument as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c)⟩) h

/-! ## The body's branch -/

/-- The condition of the body's one branch, from the grid coordinates: the field coordinate is 0. -/
abbrev atField0 (i : grid0.Coords) : Prop := (Scalar.cmpi .ne (Scalar.extui (Scalar.cmpi .eq (BitVec.ofNat 32 (i 1).val) 0#32)) 0#32) = 1#1
/-- It holds at the points divisible by 26 — decided over the grid. -/
theorem atField0_iff : ∀ t : Fin cfg0.N, atField0 (grid0.coords t) ↔ t.val % 26 = 0 :=
  (by decide +kernel : ∀ t : Fin grid0.N, atField0 (grid0.coords t) ↔ t.val % 26 = 0)

/-! ## The staging memrefs the body is called with -/

/-- One staging buffer of the result window, through which its contents are stated. -/
abbrev VOut : View sig .tc .vmem S512x128 .f32 := (Memref.whole cc0_stg2_0 : Memref sig .tc .vmem S512x128 .f32).view
/-- Each window's current staging memref at point `t`, as the pipeline passes it, and its wholeness. -/
abbrev ms0_0 (t : Fin cfg0.N) : Memref sig .tc .vmem S1x512x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x128 .f32 := win0_2.stage (cfg0.slots t 2)
abbrev hs0_2 (t : Fin cfg0.N) : (ms0_2 t).IsWhole := hstage0_2 ((cfg0.slots t 2).cast nbuf0_2)

end Cert.KernelIdeal.Hand

end
-- ==== Proof.KernelIdealFirst.lean ====
/-
  The kernel body at a point of field 0. There the branch is taken: the body overwrites the whole accumulator
  block with zeros, loads the block of ids and the field's table, and stores accumulator + (histogram of the
  ids) x table back over the whole block. Run on whole staging memrefs — the two inputs at their contents, the
  accumulator at anything — the body ends with the inputs as they were and the accumulator holding the pieces its
  two stores wrote, the later store last; the list of pieces is what the symbolic run finds.
-/
import proofs.«429955_j26156350832970_3_alg».proof.Proof.KernelIdealAround

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at field 0: from the inputs' buffers at `x0` (ids) and `x1` (table) and the accumulator's at anything,
    it runs to the end, the inputs unchanged and the accumulator's buffer written with the pieces found. -/
noncomputable def runAtField0 (c : Dev nD) (i : grid0.Coords)
    (arg2 : Memref sig .tc .vmem S1x512x128 .bf16) (harg2 : arg2.IsWhole)
    (arg3 : Memref sig .tc .vmem S1x128x128 .f32) (harg3 : arg3.IsWhole)
    (arg4 : Memref sig .tc .vmem S512x128 .f32) (harg4 : arg4.IsWhole) (hc0 : atField0 i)
    (x0 : Vec F S1x512x128 .bf16) (x1 : Vec F S1x128x128 .f32) :
    { L : List (View.Piece (Elt F) S512x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__fm_kernel i arg2 harg2 arg3 harg3 arg4 harg4) K } := by
  refine ⟨?_, fun E K => ?run⟩
  case run =>
    simp only [cc0__fm_kernel_eq_skeleton]; unfold cc0__fm_kernel_skel
    simp only [k0_part1_eq_skeleton, k0_part2_eq_skeleton]
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Hand

end
-- ==== Proof.KernelIdealLater.lean ====
/-
  The kernel body at a point of a later field (field coordinate not 0). The branch is not taken: the body loads the
  block of ids and the field's table, reads the accumulator block as the point before left it, and stores
  accumulator + (histogram of the ids) x table back over the whole block. Run on whole staging memrefs — the two
  inputs at their contents, the accumulator at its running contents — the body ends with the inputs as they were
  and the accumulator holding the one piece its store wrote.
-/
import proofs.«429955_j26156350832970_3_alg».proof.Proof.KernelIdealFirst

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at a later field: from the inputs' buffers at `x0` (ids) and `x1` (table) and the accumulator's at
    `acc`, it runs to the end, the inputs unchanged and the accumulator's buffer written with the pieces found. -/
noncomputable def runAtLaterField (c : Dev nD) (i : grid0.Coords)
    (arg2 : Memref sig .tc .vmem S1x512x128 .bf16) (harg2 : arg2.IsWhole)
    (arg3 : Memref sig .tc .vmem S1x128x128 .f32) (harg3 : arg3.IsWhole)
    (arg4 : Memref sig .tc .vmem S512x128 .f32) (harg4 : arg4.IsWhole) (hc0 : ¬atField0 i)
    (x0 : Vec F S1x512x128 .bf16) (x1 : Vec F S1x128x128 .f32) (acc : Vec F S512x128 .f32) :
    { L : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare acc
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__fm_kernel i arg2 harg2 arg3 harg3 arg4 harg4) K } := by
  refine ⟨?_, fun E K => ?run⟩
  case run =>
    simp only [cc0__fm_kernel_eq_skeleton]; unfold cc0__fm_kernel_skel
    simp only [k0_part1_eq_skeleton, k0_part2_eq_skeleton]
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Hand

end
-- ==== Proof.KernelIdealFrame.lean ====
/-
  The frame of the program: every weakly fair execution of @main terminates without a fault and leaves the six
  arguments as launched. The kernel keeps a running sum in its result block across the 26 fields of a batch
  tile: the block is reset at field 0, added to at every later field, and written back to the result array only
  after field 25. So what the result's staging buffer holds after the body at a point is defined by recursion on
  the point — at a point of field 0 what the reset-and-add run leaves, at any other point what the add run leaves
  over the contents of the point before — and the body obligation is a case split on the field, each case closed
  by that case's run of the body. The launch theorem for a region with host lines on both sides then gives the
  run, and every argument, being no operand of the pipeline and written by no host line, ends as launched.
-/
import proofs.«429955_j26156350832970_3_alg».proof.Proof.KernelIdealLater

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the accumulator's staging buffer -/

/-- At field 0 the two whole-block stores tile the block, so their pieces cover it. -/
theorem cover_field0 (c : Dev nD) (i : grid0.Coords)
    (arg2 : Memref sig .tc .vmem S1x512x128 .bf16) (harg2 : arg2.IsWhole)
    (arg3 : Memref sig .tc .vmem S1x128x128 .f32) (harg3 : arg3.IsWhole)
    (arg4 : Memref sig .tc .vmem S512x128 .f32) (harg4 : arg4.IsWhole) (hc0 : atField0 i)
    (x0 : Vec F S1x512x128 .bf16) (x1 : Vec F S1x128x128 .f32) (y : S512x128.Idx) :
    ∃ pc ∈ (runAtField0 c i arg2 harg2 arg3 harg3 arg4 harg4 hc0 x0 x1).1, y ∈ pc.1.set :=
  View.cover_of_tiledL (runAtField0 c i arg2 harg2 arg3 harg3 arg4 harg4 hc0 x0 x1).1 S512x128.size (by sl_kernel_rfl) y

/-- What the body leaves in the accumulator's buffer at field 0: its pieces read back. -/
def outAtField0 (c : Dev nD) (i : grid0.Coords)
    (arg2 : Memref sig .tc .vmem S1x512x128 .bf16) (harg2 : arg2.IsWhole)
    (arg3 : Memref sig .tc .vmem S1x128x128 .f32) (harg3 : arg3.IsWhole)
    (arg4 : Memref sig .tc .vmem S512x128 .f32) (harg4 : arg4.IsWhole) (hc0 : atField0 i)
    (x0 : Vec F S1x512x128 .bf16) (x1 : Vec F S1x128x128 .f32) : Vec F S512x128 .f32 :=
  VOut.read (Elt F) (VOut.writes (Elt F) VOut.junk (runAtField0 c i arg2 harg2 arg3 harg3 arg4 harg4 hc0 x0 x1).1)

/-- At a later field the one whole-block store covers the block. -/
theorem cover_later (c : Dev nD) (i : grid0.Coords)
    (arg2 : Memref sig .tc .vmem S1x512x128 .bf16) (harg2 : arg2.IsWhole)
    (arg3 : Memref sig .tc .vmem S1x128x128 .f32) (harg3 : arg3.IsWhole)
    (arg4 : Memref sig .tc .vmem S512x128 .f32) (harg4 : arg4.IsWhole) (hc0 : ¬atField0 i)
    (x0 : Vec F S1x512x128 .bf16) (x1 : Vec F S1x128x128 .f32) (acc : Vec F S512x128 .f32) (y : S512x128.Idx) :
    ∃ pc ∈ (runAtLaterField c i arg2 harg2 arg3 harg3 arg4 harg4 hc0 x0 x1 acc).1, y ∈ pc.1.set :=
  View.cover_of_tiledL (runAtLaterField c i arg2 harg2 arg3 harg3 arg4 harg4 hc0 x0 x1 acc).1 S512x128.size (by sl_kernel_rfl) y

/-- What the body leaves in the accumulator's buffer at a later field, over the running contents `acc`. -/
def outAtLaterField (c : Dev nD) (i : grid0.Coords)
    (arg2 : Memref sig .tc .vmem S1x512x128 .bf16) (harg2 : arg2.IsWhole)
    (arg3 : Memref sig .tc .vmem S1x128x128 .f32) (harg3 : arg3.IsWhole)
    (arg4 : Memref sig .tc .vmem S512x128 .f32) (harg4 : arg4.IsWhole) (hc0 : ¬atField0 i)
    (x0 : Vec F S1x512x128 .bf16) (x1 : Vec F S1x128x128 .f32) (acc : Vec F S512x128 .f32) : Vec F S512x128 .f32 :=
  VOut.read (Elt F) (VOut.writes (Elt F) VOut.junk (runAtLaterField c i arg2 harg2 arg3 harg3 arg4 harg4 hc0 x0 x1 acc).1)

/-! ## The running sum, point by point -/

/-- What the accumulator's staging buffer holds after the body at position `n` of the grid: at a point of field 0
    what the reset-and-add run leaves, otherwise what the add run leaves over the contents after position `n - 1`
    (the buffer is not written back in between). -/
def accAfter (c : Dev nD) : (n : ℕ) → n < cfg0.N → Vec F S512x128 .f32
  | 0, hn => outAtField0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩)
      ((atField0_iff ⟨0, hn⟩).mpr (Nat.zero_mod _)) (iblk m c 0 ⟨0, hn⟩) (iblk m c 1 ⟨0, hn⟩)
  | n + 1, hn =>
    if h0 : (n + 1) % 26 = 0 then
      outAtField0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩)
        ((atField0_iff ⟨n + 1, hn⟩).mpr h0) (iblk m c 0 ⟨n + 1, hn⟩) (iblk m c 1 ⟨n + 1, hn⟩)
    else
      outAtLaterField c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩)
        (fun h => h0 ((atField0_iff ⟨n + 1, hn⟩).mp h)) (iblk m c 0 ⟨n + 1, hn⟩) (iblk m c 1 ⟨n + 1, hn⟩) (accAfter c n (Nat.lt_of_succ_lt hn))

/-- The running sum at a point of field 0. -/
theorem accAfter_field0 (c : Dev nD) (t : Fin cfg0.N) (h0 : t.val % 26 = 0) :
    accAfter m c t.val t.isLt = outAtField0 c (grid0.coords t) (ms0_0 t) (hs0_0 t) (ms0_1 t) (hs0_1 t) (ms0_2 t) (hs0_2 t)
      ((atField0_iff t).mpr h0) (iblk m c 0 t) (iblk m c 1 t) := by
  obtain ⟨n, hn⟩ := t
  cases n with
  | zero => exact rfl
  | succ n => exact (dif_pos h0).trans rfl

/-- The running sum at a point of a later field, over the sum at the point before. -/
theorem accAfter_later (c : Dev nD) (t : Fin cfg0.N) (h0 : ¬t.val % 26 = 0) :
    accAfter m c t.val t.isLt = outAtLaterField c (grid0.coords t) (ms0_0 t) (hs0_0 t) (ms0_1 t) (hs0_1 t) (ms0_2 t) (hs0_2 t)
      (fun h => h0 ((atField0_iff t).mp h)) (iblk m c 0 t) (iblk m c 1 t)
      (accAfter m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at a point, the two inputs' buffers at their blocks and the
    accumulator's at the running sum; the invariant the scoped rest and the generator register; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (accAfter m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (accAfter m c t.val t.isLt) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- At a point of a later field the accumulator's staging buffer holds what the body left at the point before: the
    point is not the first, and the block is written back only after field 25, which the point before is not. -/
theorem before0_2_later (c : Dev nD) (t : Fin cfg0.N) (h0 : ¬t.val % 26 = 0) (d) :
    (dats m 0 c).before 2 t d = (accAfter m c (t.val - 1) (Nat.lt_of_le_of_lt (Nat.sub_le _ _) t.isLt)) := by
  have hN : t.val < 52 := lt_of_lt_of_eq t.isLt (show cfg0.N = 52 from N_0)
  rw [Dat.before_out_kept _ 2 rfl t (by omega) (Bool.eq_false_iff.mpr fun h => by have := (flush0_2 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

set_option maxHeartbeats 800000 in
/-- The body at any point: the inputs' buffers hold their blocks; at field 0 the accumulator's buffer may hold
    anything and the reset-and-add run applies; at a later field it holds the running sum and the add run applies;
    the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  have hN : t.val < 52 := lt_of_lt_of_eq t.isLt (show cfg0.N = 52 from N_0)
  by_cases h0 : t.val % 26 = 0
  · rw [accAfter_field0 m c t h0]
    unfold outAtField0
    iintro ⟨HΦ, Ho, ⟨%d0, H0⟩, ⟨%d1, H1⟩, ⟨%d2, H2⟩⟩
    iapply ((runAtField0 c (grid0.coords t) _ _ _ _ _ _ ((atField0_iff t).mpr h0) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover_field0 c _ _ _ _ _ _ _ _ _ _)
  · rw [accAfter_later m c t h0]
    simp only [before0_2_later m c t h0]
    unfold outAtLaterField
    iintro ⟨HΦ, Ho, ⟨%d0, H0⟩, ⟨%d1, H1⟩, ⟨%d2, H2⟩⟩
    iapply ((runAtLaterField c (grid0.coords t) _ _ _ _ _ _ (fun h => h0 ((atField0_iff t).mp h)) (iblk m c 0 t) (iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover_later c _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has the
    pipeline's arrays at what the proof data say and every other unscoped buffer as the later host lines leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := later_sub) (hfresh := later_fresh) (hkeep := later_keeps)
    (hmain := hmain m Variants.none) (hA := A_eq m) (hΦ := fun _ _ => rfl)

/-- The frame: every execution terminates without a fault and the six arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (run_main m ρ)

end Cert.KernelIdeal.Hand

end
-- ==== Proof.KernelIdealRunning.lean ====
/-
  What the accumulator's staging buffer holds after each grid point, as a closed recursion. One field contributes
  the product of the histogram of its block of ids with its table. At a point of field 0 the body stores a zero
  block and then stores (zero block read back) + contribution; at a later field it stores (previous contents) +
  contribution. So the contents after a point are the contributions of the fields of the current batch tile up to
  this one, added in field order onto the zero block.
-/
import proofs.«429955_j26156350832970_3_alg».proof.Proof.KernelIdealFrame
import Idealize.ShloMosaic.Lib.Pipeline.Value
import Idealize.ShloMosaic.Lib.Tactic

noncomputable section

namespace Cert.KernelIdeal.Accum

open Idealize.ShloMosaic Idealize.ShloMosaic.TcCoe Idealize.SL.Sem
open Idealize.ShloMosaic.Pipeline (Dat)
open Cert.KernelIdeal Cert.KernelIdeal.Gen Cert.KernelIdeal.Hand

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- One field's contribution to the accumulator block: the histogram of the block of ids times the field's table. -/
def contribution (x0 : Vec F S1x512x128 .bf16) (x1 : Vec F S1x128x128 .f32) : FVec F S512x128 .f32 :=
  k0_pay8 (k0_pay3 x0) (k0_pay4 x1) (k0_pay5 (F := F)) (k0_pay6 x0) (k0_pay7 x0)

variable (m : (ℓ : Loc nD τ sig) → Buf (Elt F) ℓ)

/-- At a later field the one covering store leaves (what the buffer held) + (the field's contribution). -/
theorem out_later (c : Dev nD) (i : grid0.Coords)
    (a2 : Memref sig .tc .vmem S1x512x128 .bf16) (h2 : a2.IsWhole)
    (a3 : Memref sig .tc .vmem S1x128x128 .f32) (h3 : a3.IsWhole)
    (a4 : Memref sig .tc .vmem S512x128 .f32) (h4 : a4.IsWhole) (hc : ¬atField0 i)
    (x0 : Vec F S1x512x128 .bf16) (x1 : Vec F S1x128x128 .f32) (acc : Vec F S512x128 .f32) :
    outAtLaterField c i a2 h2 a3 h3 a4 h4 hc x0 x1 acc = k0_pay1 (contribution x0 x1) (k0_pay9 acc) := by
  unfold outAtLaterField
  rw [View.read_writes_eq_canon _ _ _ (cover_later c i a2 h2 a3 h3 a4 h4 hc x0 x1 acc)]
  unfold runAtLaterField
  dsimp only
  sl_unfold_words
  rw [View.canon_unit_zero hz2]
  unfold contribution
  simp only [View.readAt_eq_ld, h2.read_unread, h3.read_unread, h4.read_unread, View.ld_unit_zero (S := S1x512x128) hz3,
    View.ld_unit_zero (S := S1x128x128) hz3, View.ld_unit_zero (S := S512x128) hz2]

/-- At field 0 the later of the two covering stores leaves (the zero block, read back) + (the field's contribution). -/
theorem out_first (c : Dev nD) (i : grid0.Coords)
    (a2 : Memref sig .tc .vmem S1x512x128 .bf16) (h2 : a2.IsWhole)
    (a3 : Memref sig .tc .vmem S1x128x128 .f32) (h3 : a3.IsWhole)
    (a4 : Memref sig .tc .vmem S512x128 .f32) (h4 : a4.IsWhole) (hc : atField0 i)
    (x0 : Vec F S1x512x128 .bf16) (x1 : Vec F S1x128x128 .f32) :
    outAtField0 c i a2 h2 a3 h3 a4 h4 hc x0 x1 = k0_pay1 (contribution x0 x1) (k0_pay9 (k0_pay2 (F := F))) := by
  unfold outAtField0
  rw [View.read_writes_eq_canon _ _ _ (cover_field0 c i a2 h2 a3 h3 a4 h4 hc x0 x1)]
  unfold runAtField0
  dsimp only
  sl_unfold_words
  rw [View.canon_cons_unit_zero (S := S512x128) hz2, View.readCov_unit_zero (S := S512x128) _ hz2]
  unfold contribution
  simp only [View.readAt_eq_ld, h2.read_unread, h3.read_unread, View.ld_unit_zero (S := S1x512x128) hz3,
    View.ld_unit_zero (S := S1x128x128) hz3, View.ld_unit_zero (S := S512x128) hz2]

/-- The running sum after position `n` of the grid: restarted from the zero block at a point of field 0, continued
    from the position before otherwise. -/
def runningSum (c : Dev nD) : (n : ℕ) → n < cfg0.N → Vec F S512x128 .f32
  | 0, h => k0_pay1 (contribution (iblk m c 0 ⟨0, h⟩) (iblk m c 1 ⟨0, h⟩)) (k0_pay9 (k0_pay2 (F := F)))
  | n + 1, h =>
    if (n + 1) % 26 = 0 then
      k0_pay1 (contribution (iblk m c 0 ⟨n + 1, h⟩) (iblk m c 1 ⟨n + 1, h⟩)) (k0_pay9 (k0_pay2 (F := F)))
    else
      k0_pay1 (contribution (iblk m c 0 ⟨n + 1, h⟩) (iblk m c 1 ⟨n + 1, h⟩)) (k0_pay9 (runningSum c n (Nat.lt_of_succ_lt h)))

/-- What the frame's proof data say the buffer holds after a point is the running sum: by induction on the point. -/
theorem accAfter_eq (c : Dev nD) : ∀ (n : ℕ) (h : n < cfg0.N), accAfter m c n h = runningSum m c n h
  | 0, h => (accAfter_field0 m c ⟨0, h⟩ rfl).trans (out_first ..)
  | n + 1, h => by
    by_cases h0 : (n + 1) % 26 = 0
    · rw [accAfter_field0 m c ⟨n + 1, h⟩ h0, out_first]
      unfold runningSum
      rw [if_pos h0]
    · rw [accAfter_later m c ⟨n + 1, h⟩ h0, out_later]
      unfold runningSum
      rw [if_neg h0]
      show k0_pay1 _ (k0_pay9 (accAfter m c n _)) = k0_pay1 _ (k0_pay9 (runningSum m c n _))
      rw [accAfter_eq c n]

end Cert.KernelIdeal.Accum

end
-- ==== Proof.KernelIdealBlocks.lean ====
/-
  The accumulated result array, at the extended reals. Grid point t is batch tile t / 26 and field t % 26. Suppose one
  field's contribution at a point is known to be real: at row r and column col of the block it is g (field) (batch
  row 512 (t / 26) + r) (col). Then the running sum after point t is, entry by entry, the real sum of g over the
  fields 0 .. t % 26 of that tile (the zero block adds nothing), the block written back after field 25 is the sum over
  all 26 fields, the two tiles' blocks are rows 0..511 and 512..1023, and so every entry (b, col) of the result array
  ends at the sum over the 26 fields of g f b col.
-/
import proofs.«429955_j26156350832970_3_alg».proof.Proof.KernelIdealRunning
import Idealize.ShloMosaic.Lib.ValueIdx
import Idealize.ShloMosaic.Lib.Pipeline.Value
import Idealize.ShloMosaic.PureOps.Ideal.Laws

noncomputable section

namespace Cert.KernelIdeal.Accum

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (m : (ℓ : Loc nD τ sig) → Buf (Elt Ideal) ℓ)

/-- The printed index maps over the grid: the ids' block is (field, tile, 0), the table's (field, 0, 0), the
    result's (tile, 0). -/
theorem index_facts : ∀ t : Fin cfg0.N,
    win0_0.index t (0 : Fin 3) = t.val % 26 ∧ win0_0.index t (1 : Fin 3) = t.val / 26 ∧ win0_0.index t (2 : Fin 3) = 0
    ∧ win0_1.index t (0 : Fin 3) = t.val % 26 ∧ win0_1.index t (1 : Fin 3) = 0 ∧ win0_1.index t (2 : Fin 3) = 0
    ∧ win0_2.index t (0 : Fin 2) = t.val / 26 ∧ win0_2.index t (1 : Fin 2) = 0 :=
  (by decide +kernel : ∀ t : Fin grid0.N, _)

theorem point_lt (t : Fin cfg0.N) : t.val < 52 := lt_of_lt_of_eq t.isLt (show cfg0.N = 52 from N_0)

/-- The block of ids at a point is rows 512 (t / 26) .. of field t % 26 of the ids' operand. -/
theorem idsBlock_apply (c : Dev nD) (t : Fin cfg0.N) (r : Fin 512) (p : Fin 128) :
    (iblk m c 0 t : Vec Ideal S1x512x128 .bf16) (ix3 (0 : Fin 1) r p)
      = (V m c main_v5 : S26x1024x128.Idx → EReal)
          (ix3 (⟨t.val % 26, Nat.mod_lt _ (by decide)⟩ : Fin 26) (⟨512 * (t.val / 26) + r.val, by have := point_lt t; omega⟩ : Fin 1024) p) := by
  obtain ⟨e0, e1, e2, -⟩ := index_facts t
  unfold iblk
  rw [View.read_apply]
  show V m c main_v5 _ = V m c main_v5 _
  congr 1
  funext a; apply Fin.ext
  match a with
  | ⟨0, _⟩ => show win0_0.index t (0 : Fin 3) * 1 + 1 * 0 = t.val % 26; omega
  | ⟨1, _⟩ => show win0_0.index t (1 : Fin 3) * 512 + 1 * r.val = 512 * (t.val / 26) + r.val; omega
  | ⟨2, _⟩ => show win0_0.index t (2 : Fin 3) * 128 + 1 * p.val = p.val; omega

/-- The table's block at a point is the whole table of field t % 26. -/
theorem tableBlock_apply (c : Dev nD) (t : Fin cfg0.N) (k col : Fin 128) :
    (iblk m c 1 t : Vec Ideal S1x128x128 .f32) (ix3 (0 : Fin 1) k col)
      = (V m c main_v21 : S26x128x128.Idx → EReal) (ix3 (⟨t.val % 26, Nat.mod_lt _ (by decide)⟩ : Fin 26) k col) := by
  obtain ⟨-, -, -, e0, e1, e2, -⟩ := index_facts t
  unfold iblk
  rw [View.read_apply]
  show V m c main_v21 _ = V m c main_v21 _
  congr 1
  funext a; apply Fin.ext
  match a with
  | ⟨0, _⟩ => show win0_1.index t (0 : Fin 3) * 1 + 1 * 0 = t.val % 26; omega
  | ⟨1, _⟩ => show win0_1.index t (1 : Fin 3) * 128 + 1 * k.val = k.val; omega
  | ⟨2, _⟩ => show win0_1.index t (2 : Fin 3) * 128 + 1 * col.val = col.val; omega

/-- An update of the accumulator at an entry: what it held plus the contribution. -/
theorem update_apply (a : FVec Ideal S512x128 .f32) (b : Vec Ideal S512x128 .f32) (j : S512x128.Idx) :
    k0_pay1 (F := Ideal) a (k0_pay9 b) j = b j + a j := by
  unfold k0_pay1 k0_pay9
  simp only [shapeCast_self]
  rfl

/-- The reset block holds zero. -/
theorem reset_apply (j : S512x128.Idx) : k0_pay2 (F := Ideal) j = 0 := by
  unfold k0_pay2
  show Ideal.ofBits .f32 0x00000000#32 = 0
  exact Ideal.ofBits_zero_f32

section Value

variable (c : Dev nD) (g : ℕ → ℕ → ℕ → ℝ)
  (hcon : ∀ (t : Fin cfg0.N) (r : Fin 512) (col : Fin 128),
    contribution (F := Ideal) (iblk m c 0 t) (iblk m c 1 t) (ix2 r col)
      = ((g (t.val % 26) (512 * (t.val / 26) + r.val) col.val : ℝ) : EReal))

include hcon in
/-- The running sum after a point, entry by entry: the real sum of the contributions of the tile's fields so far. -/
theorem running_value (r : Fin 512) (col : Fin 128) : ∀ (n : ℕ) (h : n < cfg0.N),
    runningSum m c n h (ix2 r col)
      = ((∑ f ∈ Finset.range (n % 26 + 1), g f (512 * (n / 26) + r.val) col.val : ℝ) : EReal)
  | 0, h => by
    show k0_pay1 (F := Ideal) _ (k0_pay9 (k0_pay2 (F := Ideal))) (ix2 r col) = _
    rw [update_apply, reset_apply, zero_add, hcon ⟨0, h⟩ r col]
    simp
  | n + 1, h => by
    unfold runningSum
    by_cases h0 : (n + 1) % 26 = 0
    · rw [if_pos h0, update_apply, reset_apply, zero_add, hcon ⟨n + 1, h⟩ r col, h0]
      simp
    · rw [if_neg h0, update_apply, running_value r col n (Nat.lt_of_succ_lt h), hcon ⟨n + 1, h⟩ r col]
      have e1 : (n + 1) / 26 = n / 26 := by omega
      have e2 : (n + 1) % 26 = n % 26 + 1 := by omega
      show _ + ((g ((n + 1) % 26) (512 * ((n + 1) / 26) + r.val) col.val : ℝ) : EReal) = _
      rw [e1, e2, Finset.sum_range_succ _ (n % 26 + 1), EReal.coe_add]

/-- The accumulated array: entry (b, col) is the sum over the 26 fields. -/
def accumulated : FVec Ideal S1024x128 .f32 :=
  fun j => ((∑ f ∈ Finset.range 26, g f (j 0).val (j 1).val : ℝ) : EReal)

include hcon in
/-- What the write-back after field 25 of a tile writes is that tile's block of the accumulated array. -/
theorem flushed_eq (t : Fin cfg0.N) (hf : (cfg0.win 2).flush t = true) :
    (dats m 0 c).flushed 2 t = ((cfg0.win 2).blk t).view.read (Elt Ideal) (accumulated g) := by
  have h25 : t.val % 26 = 25 := (flush0_2 t).mp hf
  obtain ⟨-, -, -, -, -, -, e0, e1⟩ := index_facts t
  show (cfg0.win 2).cut (grid0.coords t) ((dats m 0 c).after 2 t) = _
  rw [after0_2, accAfter_eq]
  funext y
  obtain ⟨r, q, rfl⟩ : ∃ (r : Fin 512) (q : Fin 128), y = ix2 r q := ⟨y 0, y 1, eq_ix2 y⟩
  show runningSum m c t.val t.isLt (ix2 r q) = accumulated g (((cfg0.win 2).blk t).view.emb (ix2 r q))
  rw [running_value m c g hcon r q t.val t.isLt, h25]
  unfold accumulated
  have a0 : ((((cfg0.win 2).blk t).view.emb (ix2 r q)) 0).val = 512 * (t.val / 26) + r.val := by
    show win0_2.index t (0 : Fin 2) * 512 + 1 * r.val = _; omega
  have a1 : ((((cfg0.win 2).blk t).view.emb (ix2 r q)) 1).val = q.val := by
    show win0_2.index t (1 : Fin 2) * 128 + 1 * q.val = _; omega
  rw [a0, a1]

/-- Every entry of the result array lies in the block written back after field 25 of its tile. -/
theorem covered (i : S1024x128.Idx) : ∃ t : Fin cfg0.N, (cfg0.win 2).flush t = true ∧ i ∈ ((cfg0.win 2).blk t).view.set := by
  have hi0 : (i 0).val < 1024 := (i 0).isLt
  have hi1 : (i 1).val < 128 := (i 1).isLt
  let t : Fin cfg0.N := ⟨26 * ((i 0).val / 512) + 25, by rw [show cfg0.N = 52 from N_0]; omega⟩
  have ht : t.val = 26 * ((i 0).val / 512) + 25 := rfl
  obtain ⟨-, -, -, -, -, -, e0, e1⟩ := index_facts t
  refine ⟨t, (flush0_2 t).mpr (by rw [ht]; omega), ?_⟩
  show i ∈ ((View.whole main_v22).slice (win0_2.rect t)).set
  rw [View.set_slice_whole, Rect.mem_set_unit]
  intro a
  match a with
  | ⟨0, _⟩ =>
    show win0_2.index t (0 : Fin 2) * 512 ≤ (i 0).val ∧ (i 0).val < win0_2.index t (0 : Fin 2) * 512 + 512
    rw [e0, ht]; omega
  | ⟨1, _⟩ =>
    show win0_2.index t (1 : Fin 2) * 128 ≤ (i 1).val ∧ (i 1).val < win0_2.index t (1 : Fin 2) * 128 + 128
    rw [e1]; omega

include hcon in
/-- The result array after the region is the accumulated array. -/
theorem final : (dats m 0 c).arrAt 2 cfg0.N = accumulated g :=
  (dats m 0 c).arrAt_eq_of_cover 2 (accumulated g) (fun t hf => flushed_eq m c g hcon t hf) covered

end Value

end Cert.KernelIdeal.Accum

end
-- ==== Proof.FmSpec.lean ====
/-
  The mathematics both programs compute, stated once over plain index types.
  An id selects a row of a field's 100-row table. The kernel clips the id to 0..99; the reference lets a negative
  id count from the end and then clamps. On a non-negative id the two agree. For batch row b the model sums, over
  the 26 fields and the 100 ids of the field, the embedding row, its square, and the field's linear weight; the
  kernel obtains the three sums at once as one 128-column row: columns 0..15 the embedding, 16..31 its square,
  column 32 nothing, column 33 + f the linear weight of field f alone, the rest nothing.
-/
import Idealize.ShloMosaic.PureOps.Ideal
import Idealize.ShloMosaic.Lib.ValueIdx

noncomputable section

namespace Cert.FmSpec

open Idealize.ShloMosaic Idealize.ShloMosaic.ValueIdx

/-- The column of `sparse_feat` holding id number `p` of field `f`: fields are 101 columns apart. -/
def colOf (f : Fin 26) (p : Fin 100) : Fin 2626 := ⟨f.val * 101 + p.val, by omega⟩

/-- A signed word clamped to a row number 0..99. -/
def clampRow (w : BitVec 32) : Fin 100 := ⟨(min 99 (max 0 w.toInt)).toNat, by omega⟩

/-- The row the kernel reads for an id: the id clipped to 0..99. -/
def rowK (w : BitVec 32) : Fin 100 := clampRow w

/-- The row the reference reads for an id: a negative id first counts from the end (+100), then the result is
    clamped to 0..99. -/
def rowR (w : BitVec 32) : Fin 100 := clampRow (if w.toInt < 0 then w + 100#32 else w)

/-- On a non-negative id both programs read the same row. -/
theorem rowR_eq_rowK {w : BitVec 32} (h : 0 ≤ w.toInt) : rowR w = rowK w := by
  unfold rowR rowK; rw [if_neg (by omega)]

/-- The kernel's combined table of field `f` as real numbers: row `k` (zero from row 100 on), column `col`. -/
def tableR (Lr : Fin 26 → Fin 100 → ℝ) (Er : Fin 26 → Fin 100 → Fin 16 → ℝ) (f : Fin 26) (k : Fin 128) (col : Fin 128) : ℝ :=
  if hk : k.val < 100 then
    if hc : col.val < 16 then Er f ⟨k.val, hk⟩ ⟨col.val, hc⟩
    else if hc2 : col.val < 32 then Er f ⟨k.val, hk⟩ ⟨col.val - 16, by omega⟩ * Er f ⟨k.val, hk⟩ ⟨col.val - 16, by omega⟩
    else if col.val = 32 then 0
    else if col.val < 59 then Lr f ⟨k.val, hk⟩ * (if f.val = col.val - 33 then 1 else 0)
    else 0
  else 0

/-- A row number 0..99 as a row of the 128-row padded table. -/
def wide (r : Fin 100) : Fin 128 := ⟨r.val, by omega⟩

/-- The kernel's accumulated result as real numbers: for batch row `b` and column `col`, the sum over the fields and
    over the 100 ids of a field of the table entry in the row the id selects. -/
def accR (row : Fin 26 → Fin 1024 → Fin 100 → Fin 100) (Lr : Fin 26 → Fin 100 → ℝ) (Er : Fin 26 → Fin 100 → Fin 16 → ℝ)
    (b : Fin 1024) (col : Fin 128) : ℝ :=
  ∑ f : Fin 26, ∑ p : Fin 100, tableR Lr Er f (wide (row f b p)) col

/-- The per-field sum of linear weights. -/
def linSumR (row : Fin 26 → Fin 1024 → Fin 100 → Fin 100) (Lr : Fin 26 → Fin 100 → ℝ) (b : Fin 1024) (f : Fin 26) : ℝ :=
  ∑ p : Fin 100, Lr f (row f b p)

/-- The sum of embedding rows over all fields and ids. -/
def embSumR (row : Fin 26 → Fin 1024 → Fin 100 → Fin 100) (Er : Fin 26 → Fin 100 → Fin 16 → ℝ) (b : Fin 1024) (e : Fin 16) : ℝ :=
  ∑ f : Fin 26, ∑ p : Fin 100, Er f (row f b p) e

/-- The sum of squared embedding rows over all fields and ids. -/
def sqSumR (row : Fin 26 → Fin 1024 → Fin 100 → Fin 100) (Er : Fin 26 → Fin 100 → Fin 16 → ℝ) (b : Fin 1024) (e : Fin 16) : ℝ :=
  ∑ f : Fin 26, ∑ p : Fin 100, Er f (row f b p) e * Er f (row f b p) e

/-! ## The same as arrays over the programs' shapes, at the extended reals -/

/-- The row each id of `sparse_feat` selects, under a reading `sel` of an id as a row (the kernel's or the reference's). -/
def rowsOf (sel : BitVec 32 → Fin 100) (a0 : (⟨2, ![1024, 2626]⟩ : Shape).Idx → BitVec 32) : Fin 26 → Fin 1024 → Fin 100 → Fin 100 :=
  fun f b p => sel (a0 (ix2 b (colOf f p)))

/-- The accumulated 1024 x 128 result. -/
def accVec (row : Fin 26 → Fin 1024 → Fin 100 → Fin 100) (Lr : Fin 26 → Fin 100 → ℝ) (Er : Fin 26 → Fin 100 → Fin 16 → ℝ) :
    (⟨2, ![1024, 128]⟩ : Shape).Idx → EReal := fun j => ((accR row Lr Er (j 0) (j 1) : ℝ) : EReal)

/-- The per-field sums of linear weights, 1024 x 26. -/
def linVec (row : Fin 26 → Fin 1024 → Fin 100 → Fin 100) (Lr : Fin 26 → Fin 100 → ℝ) :
    (⟨2, ![1024, 26]⟩ : Shape).Idx → EReal := fun j => ((linSumR row Lr (j 0) (j 1) : ℝ) : EReal)

/-- The sums of embedding rows, 1024 x 16. -/
def embVec (row : Fin 26 → Fin 1024 → Fin 100 → Fin 100) (Er : Fin 26 → Fin 100 → Fin 16 → ℝ) :
    (⟨2, ![1024, 16]⟩ : Shape).Idx → EReal := fun j => ((embSumR row Er (j 0) (j 1) : ℝ) : EReal)

/-- The sums of squared embedding rows, 1024 x 16. -/
def sqVec (row : Fin 26 → Fin 1024 → Fin 100 → Fin 100) (Er : Fin 26 → Fin 100 → Fin 16 → ℝ) :
    (⟨2, ![1024, 16]⟩ : Shape).Idx → EReal := fun j => ((sqSumR row Er (j 0) (j 1) : ℝ) : EReal)

end Cert.FmSpec

end
-- ==== Proof.KernelIdealPayload.lean ====
/-
  The arithmetic of the kernel body at one entry. For a row of the block of ids the body counts, for every table row
  k, how many of the first 112 positions hold the id k (seven groups of 16 positions, each compared with 0..127 and
  summed), and multiplies the 512 x 128 matrix of counts with the field's 128 x 128 table. When the ids of the row are
  row numbers 0..99 in the first 100 positions and -1 afterwards, and the table's entries are real numbers, the count
  of k is the number of positions selecting k, so the product's entry in column col is the sum, over the 100 ids, of
  the table's entry in the selected row: a histogram times a table is the sum of the selected rows.
-/
import proofs.«429955_j26156350832970_3_alg».proof.Proof.Gen.KernelIdeal.Skeleton
import proofs.«429955_j26156350832970_3_alg».proof.Proof.FmSpec
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Intervals
import Mathlib.Algebra.BigOperators.Fin
import Mathlib.Data.EReal.Operations

noncomputable section

namespace Cert.KernelIdeal.Payload

open Idealize.ShloMosaic Idealize.ShloMosaic.ValueIdx
open Cert.KernelIdeal Cert.KernelIdeal.Gen

/-! ## The real-number side: positions, hits, and the collapse of the double sum -/

/-- The number held at position p of a row of ids: the selected row number below position 100, and -1 from there on. -/
def idAt (row : Fin 100 → Fin 100) (p : ℕ) : ℝ := if h : p < 100 then ((row ⟨p, h⟩).val : ℝ) else -1

/-- 1 when position p holds the number k, else 0. -/
def hit (row : Fin 100 → Fin 100) (k : Fin 128) (p : ℕ) : ℝ := if idAt row p = (k.val : ℝ) then 1 else 0

/-- A position from 100 on holds -1, which is no row number. -/
theorem hit_tail (row : Fin 100 → Fin 100) (k : Fin 128) (p : ℕ) (hp : 100 ≤ p) : hit row k p = 0 := by
  unfold hit idAt
  rw [dif_neg (by omega)]
  have : ((-1 : ℝ)) ≠ (k.val : ℝ) := by
    have h0 : (0 : ℝ) ≤ (k.val : ℝ) := Nat.cast_nonneg _
    intro h; rw [← h] at h0; norm_num at h0
  rw [if_neg this]

/-- A position below 100 holds the row number its id selects. -/
theorem hit_head (row : Fin 100 → Fin 100) (k : Fin 128) (p : Fin 100) :
    hit row k p.val = if Cert.FmSpec.wide (row p) = k then 1 else 0 := by
  unfold hit idAt
  rw [dif_pos p.isLt]
  have e : ((row ⟨p.val, p.isLt⟩).val : ℝ) = (k.val : ℝ) ↔ Cert.FmSpec.wide (row p) = k := by
    constructor
    · intro h; exact Fin.ext (by exact_mod_cast h)
    · intro h; rw [← h]; rfl
  simp only [e]

/-- A group of 16 consecutive positions starting at o, as a sum over an interval of positions. -/
theorem group_sum (f : ℕ → ℝ) (o : ℕ) : ∑ q : Fin 16, f (o + q.val) = ∑ p ∈ Finset.Ico o (o + 16), f p := by
  rw [Finset.sum_Ico_eq_sum_range, Nat.add_sub_cancel_left, Finset.sum_range]

/-- Seven groups of 16 make the first 112 positions. -/
theorem groups_sum (f : ℕ → ℝ) :
    0 + (∑ q : Fin 16, f (0 + q.val)) + (∑ q : Fin 16, f (16 + q.val)) + (∑ q : Fin 16, f (32 + q.val))
      + (∑ q : Fin 16, f (48 + q.val)) + (∑ q : Fin 16, f (64 + q.val)) + (∑ q : Fin 16, f (80 + q.val))
      + (∑ q : Fin 16, f (96 + q.val)) = ∑ p ∈ Finset.range 112, f p := by
  simp only [group_sum]
  rw [zero_add, Finset.sum_Ico_consecutive f (by omega) (by omega), Finset.sum_Ico_consecutive f (by omega) (by omega),
    Finset.sum_Ico_consecutive f (by omega) (by omega), Finset.sum_Ico_consecutive f (by omega) (by omega),
    Finset.sum_Ico_consecutive f (by omega) (by omega), Finset.sum_Ico_consecutive f (by omega) (by omega),
    Finset.range_eq_Ico]

/-- The histogram of a row's ids times the table is the sum of the selected table rows. -/
theorem histogram_algebra (row : Fin 100 → Fin 100) (tr : Fin 128 → Fin 128 → ℝ) (col : Fin 128) :
    ∑ k : Fin 128, (∑ p ∈ Finset.range 112, hit row k p) * tr k col = ∑ p : Fin 100, tr (Cert.FmSpec.wide (row p)) col := by
  have hcount : ∀ k : Fin 128, ∑ p ∈ Finset.range 112, hit row k p = ∑ p : Fin 100, (if Cert.FmSpec.wide (row p) = k then (1 : ℝ) else 0) := by
    intro k
    rw [Finset.range_eq_Ico, ← Finset.sum_Ico_consecutive (hit row k) (show 0 ≤ 100 by omega) (show 100 ≤ 112 by omega),
      Finset.sum_eq_zero (s := Finset.Ico 100 112) (fun p hp => hit_tail row k p (Finset.mem_Ico.mp hp).1), add_zero,
      ← Finset.range_eq_Ico, Finset.sum_range]
    exact Finset.sum_congr rfl fun p _ => hit_head row k p
  simp only [hcount, Finset.sum_mul]
  rw [Finset.sum_comm]
  refine Finset.sum_congr rfl fun p _ => ?_
  simp only [ite_mul, one_mul, zero_mul]
  rw [Finset.sum_ite_eq]
  simp

/-! ## The body's steps read at an index -/

/-- The bf16 zero word is the extended real 0. -/
theorem ofBits_zero_bf16 : Ideal.ofBits .bf16 0x0000#16 = 0 := by simp [Ideal.ofBits, Ideal.ieee]

/-- A comparison bit widened to a word and read as a signed integer is 1 where the two numbers are equal, else 0. -/
theorem indicator_eq (a c : EReal) :
    (FloatOps.sitofp (F := Ideal) .f32 ((FloatOps.cmpf (F := Ideal) (φ := .bf16) .oeq a c).setWidth 32) : EReal)
      = (((if a = c then 1 else 0 : ℝ)) : EReal) := by
  show ((((BitVec.ofBool (decide (a = c))).setWidth 32).toInt : ℝ) : EReal) = _
  by_cases h : a = c
  · rw [if_pos h, decide_eq_true h]
    have e : ((BitVec.ofBool true).setWidth 32).toInt = 1 := by decide
    rw [e]; norm_num
  · rw [if_neg h, decide_eq_false h]
    have e : ((BitVec.ofBool false).setWidth 32).toInt = 0 := by decide
    rw [e]; norm_num

/-- The row of numbers 0..127 as floats, read at column k. -/
theorem iota_row_at (k : Fin 128) : k0_pay5 (F := Ideal) (ix3 (0 : Fin 1) (0 : Fin 1) k) = ((k.val : ℝ) : EReal) := by
  unfold k0_pay5
  show ((((iota .tc S1x1x128 32 [2] iota_S1x1x128_d2_w32) (ix3 (0 : Fin 1) (0 : Fin 1) k)).toInt : ℝ) : EReal) = _
  rw [iota_single_apply]
  show (((BitVec.ofNat 32 k.val).toInt : ℝ) : EReal) = _
  have hk : (BitVec.ofNat 32 k.val).toInt = (k.val : ℤ) := by
    have := k.isLt
    rw [BitVec.toInt_eq_toNat_cond, BitVec.toNat_ofNat]
    have e : k.val % 2 ^ 32 = k.val := Nat.mod_eq_of_lt (by omega)
    rw [e, if_pos (by omega)]
  rw [hk]; norm_num

/-- One group of 16 positions starting at column o: each position's number is compared with the numbers of the row v8,
    the comparison bits become 0 or 1, and the 16 of them are added up. -/
def grp (o : ℕ) (h : S512x128.Slices ![0, o] S512x16) (X : FVec Ideal S512x128 .bf16) (v8 : FVec Ideal S1x1x128 .bf16) :
    FVec Ideal S512x128 .f32 :=
  multiReduction (F := Ideal) .add [1] S512x128
    (sitofp .f32 (extui 32 (cmpf .oeq
      (broadcastTo S512x16x128 (shapeCast S512x16x1 (extractStridedSlice S512x16 ![0, o] X h) shapeCasts_S512x16_S512x16x1)
        broadcasts_S512x16x1_S512x16x128)
      (broadcastTo S512x16x128 v8 broadcasts_S1x1x128_S512x16x128)) natLt_1_32))
    0x00000000#32 reduces_S512x16x128_S512x128 (.inl rfl) rfl

/-- The compared pair at (r, q, k): position o + q of row r against entry k of the row of numbers. -/
theorem grp_left_at (o : ℕ) (h : S512x128.Slices ![0, o] S512x16) (X : FVec Ideal S512x128 .bf16)
    (r : Fin 512) (q : Fin 16) (k : Fin 128) (p : Fin 128) (hp : p.val = o + q.val) :
    broadcastTo S512x16x128 (shapeCast S512x16x1 (extractStridedSlice S512x16 ![0, o] X h) shapeCasts_S512x16_S512x16x1)
        broadcasts_S512x16x1_S512x16x128 (ix3 r q k) = X (ix2 r p) := by
  refine (broadcastTo_apply _ broadcasts_S512x16x1_S512x16x128 (ix3 r q k) (ix3 r q (0 : Fin 1)) fun a => ?_).trans ?_
  · match a with
    | ⟨0, _⟩ => rfl
    | ⟨1, _⟩ => rfl
    | ⟨2, _⟩ => rfl
  refine (shapeCast_apply _ shapeCasts_S512x16_S512x16x1 (ix3 r q (0 : Fin 1)) (ix2 r q) ?_).trans ?_
  · rw [Shape.rowMajor_val_three, Shape.rowMajor_val_two]
    show r.val * 16 + q.val = (r.val * 16 + q.val) * 1 + 0
    omega
  exact slice2_axis1_apply o X h r q p hp

theorem grp_right_at (v8 : FVec Ideal S1x1x128 .bf16) (r : Fin 512) (q : Fin 16) (k : Fin 128) :
    broadcastTo S512x16x128 v8 broadcasts_S1x1x128_S512x16x128 (ix3 r q k) = v8 (ix3 (0 : Fin 1) (0 : Fin 1) k) := by
  refine broadcastTo_apply _ broadcasts_S1x1x128_S512x16x128 (ix3 r q k) (ix3 (0 : Fin 1) (0 : Fin 1) k) fun a => ?_
  match a with
  | ⟨0, _⟩ => rfl
  | ⟨1, _⟩ => rfl
  | ⟨2, _⟩ => rfl

/-- The count of one group at (r, k): the number of its 16 positions whose number equals entry k of the row of numbers. -/
theorem grp_at (o : ℕ) (ho : o + 16 ≤ 128) (h : S512x128.Slices ![0, o] S512x16) (X : FVec Ideal S512x128 .bf16)
    (v8 : FVec Ideal S1x1x128 .bf16) (r : Fin 512) (k : Fin 128) :
    grp o h X v8 (ix2 r k)
      = ∑ q : Fin 16, (((if X (ix2 r (⟨o + q.val, by have := q.isLt; omega⟩ : Fin 128)) = v8 (ix3 (0 : Fin 1) (0 : Fin 1) k) then 1 else 0 : ℝ)) : EReal) := by
  unfold grp
  refine (Ideal.multiReduction_add_single _ 0x00000000#32 reduces_S512x16x128_S512x128 (.inl rfl) rfl (ix2 r k)).trans ?_
  show ∑ q : Fin 16, _ = _
  refine Finset.sum_congr rfl fun q _ => ?_
  have e : reduces_S512x16x128_S512x128.lift (ix2 r k) q = ix3 r q k := funext fun a => Fin.ext (by
    match a with
    | ⟨0, _⟩ => rfl
    | ⟨1, _⟩ => rfl
    | ⟨2, _⟩ => rfl)
  rw [e]
  show FloatOps.sitofp (F := Ideal) .f32 ((FloatOps.cmpf (F := Ideal) (φ := .bf16) .oeq
      (broadcastTo S512x16x128 (shapeCast S512x16x1 (extractStridedSlice S512x16 ![0, o] X h) shapeCasts_S512x16_S512x16x1)
        broadcasts_S512x16x1_S512x16x128 (ix3 r q k))
      (broadcastTo S512x16x128 v8 broadcasts_S1x1x128_S512x16x128 (ix3 r q k))).setWidth 32) = _
  rw [grp_left_at o h X r q k (⟨o + q.val, by have := q.isLt; omega⟩ : Fin 128) rfl, grp_right_at v8 r q k]
  exact indicator_eq _ _

/-! The matrix product into a zero accumulator, read at an entry: the operands' indices at output (r, col) and
    contraction index k are (r, k) and (k, col). -/

theorem lhs_dot_0 (i : S512x128.Idx) (q : dot_S512x128_S128x128_S512x128_1_0_0_1_n_n.contr.Idx) :
    (dot_S512x128_S128x128_S512x128_1_0_0_1_n_n.lhsIdx i q 0).val = (i 0).val := by
  unfold DotDims.lhsIdx
  rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
  rfl
theorem lhs_dot_1 (i : S512x128.Idx) (q : dot_S512x128_S128x128_S512x128_1_0_0_1_n_n.contr.Idx) :
    (dot_S512x128_S128x128_S512x128_1_0_0_1_n_n.lhsIdx i q 1).val = (q ⟨0, by decide⟩).val :=
  dot_S512x128_S128x128_S512x128_1_0_0_1_n_n.lhsIdx_val_of_single rfl i q
theorem rhs_dot_0 (i : S512x128.Idx) (q : dot_S512x128_S128x128_S512x128_1_0_0_1_n_n.contr.Idx) :
    (dot_S512x128_S128x128_S512x128_1_0_0_1_n_n.rhsIdx i q 0).val = (q ⟨0, by decide⟩).val :=
  dot_S512x128_S128x128_S512x128_1_0_0_1_n_n.rhsIdx_val_of_single rfl i q
theorem rhs_dot_1 (i : S512x128.Idx) (q : dot_S512x128_S128x128_S512x128_1_0_0_1_n_n.contr.Idx) :
    (dot_S512x128_S128x128_S512x128_1_0_0_1_n_n.rhsIdx i q 1).val = (i 1).val := by
  unfold DotDims.rhsIdx
  rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
  rfl

/-- Entry (r, col) of the product is the sum over k of the left operand at (r, k) times the right at (k, col). -/
theorem matmul_at (A : FVec Ideal S512x128 .f32) (B : FVec Ideal S128x128 .f32) (r : Fin 512) (col : Fin 128) :
    matmul dot_S512x128_S128x128_S512x128_1_0_0_1_n_n (some .fp32) A B (constant (F := Ideal) S512x128 .f32 0x00000000#32) (ix2 r col)
      = ∑ k : Fin 128, A (ix2 r k) * B (ix2 k col) := by
  simp only [matmul]
  rw [Ideal.matmul_constant_zero_apply, ← Equiv.sum_comp (contrEquiv1 dot_S512x128_S128x128_S512x128_1_0_0_1_n_n 128 rfl rfl).symm]
  refine Finset.sum_congr rfl fun k _ => ?_
  have hk := contrEquiv1_symm_val dot_S512x128_S128x128_S512x128_1_0_0_1_n_n 128 rfl rfl k
  have el : dot_S512x128_S128x128_S512x128_1_0_0_1_n_n.lhsIdx (ix2 r col) ((contrEquiv1 dot_S512x128_S128x128_S512x128_1_0_0_1_n_n 128 rfl rfl).symm k) = ix2 r k := funext fun a => Fin.ext (by
    match a with
    | ⟨0, _⟩ => exact lhs_dot_0 _ _
    | ⟨1, _⟩ => exact (lhs_dot_1 _ _).trans hk)
  have er : dot_S512x128_S128x128_S512x128_1_0_0_1_n_n.rhsIdx (ix2 r col) ((contrEquiv1 dot_S512x128_S128x128_S512x128_1_0_0_1_n_n 128 rfl rfl).symm k) = ix2 k col := funext fun a => Fin.ext (by
    match a with
    | ⟨0, _⟩ => exact (rhs_dot_0 _ _).trans hk
    | ⟨1, _⟩ => exact rhs_dot_1 _ _)
  rw [el, er]

/-! ## The payloads as sums of groups -/

/-- The running count after the first two groups: zero, plus the group at 0, plus the group at 16. -/
theorem pay6_eq (x : Vec Ideal S1x512x128 .bf16) :
    k0_pay6 (F := Ideal) x
      = addf (addf (broadcast S512x128 (Scalar.ofBits (F := Ideal) .bf16 0x0000#16)) (truncf .bf16 (grp 0 slices_S512x128_o0_0_S512x16 (k0_pay3 x) (k0_pay5 (F := Ideal))) bitsLt_bf16_f32)) (truncf .bf16 (grp 16 slices_S512x128_o0_16_S512x16 (k0_pay3 x) (k0_pay5 (F := Ideal))) bitsLt_bf16_f32) := rfl

/-- The third group alone. -/
theorem pay7_eq (x : Vec Ideal S1x512x128 .bf16) :
    k0_pay7 (F := Ideal) x = (truncf .bf16 (grp 32 slices_S512x128_o0_32_S512x16 (k0_pay3 x) (k0_pay5 (F := Ideal))) bitsLt_bf16_f32) := rfl

/-- The count matrix the product is taken of: the running count plus the four remaining groups. -/
def countMat (v4 : FVec Ideal S512x128 .bf16) (v8 : FVec Ideal S1x1x128 .bf16) (v33 v44 : FVec Ideal S512x128 .bf16) :
    FVec Ideal S512x128 .f32 :=
  extf .f32 (addf (addf (addf (addf (addf v33 v44) (truncf .bf16 (grp 48 slices_S512x128_o0_48_S512x16 v4 v8) bitsLt_bf16_f32)) (truncf .bf16 (grp 64 slices_S512x128_o0_64_S512x16 v4 v8) bitsLt_bf16_f32)) (truncf .bf16 (grp 80 slices_S512x128_o0_80_S512x16 v4 v8) bitsLt_bf16_f32)) (truncf .bf16 (grp 96 slices_S512x128_o0_96_S512x16 v4 v8) bitsLt_bf16_f32)) bitsLt_bf16_f32

theorem pay8_eq (v4 : FVec Ideal S512x128 .bf16) (v6 : FVec Ideal S128x128 .f32) (v8 : FVec Ideal S1x1x128 .bf16)
    (v33 v44 : FVec Ideal S512x128 .bf16) :
    k0_pay8 (F := Ideal) v4 v6 v8 v33 v44
      = matmul dot_S512x128_S128x128_S512x128_1_0_0_1_n_n (some .fp32) (countMat v4 v8 v33 v44) v6 (constant (F := Ideal) S512x128 .f32 0x00000000#32) := rfl

/-- A finite sum of real numbers, taken in the extended reals, is the real sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

section Row

variable (x : Vec Ideal S1x512x128 .bf16) (r : Fin 512) (row : Fin 100 → Fin 100)
  (hx : ∀ p : Fin 128, x (ix3 (0 : Fin 1) r p)
    = if h : p.val < 100 then (((row ⟨p.val, h⟩).val : ℝ) : EReal) else ((-1 : ℝ) : EReal))
include hx

/-- The block of ids at (r, p) is the number held at position p. -/
theorem ids_at (p : Fin 128) : k0_pay3 x (ix2 r p) = ((idAt row p.val : ℝ) : EReal) := by
  unfold k0_pay3
  refine (shapeCast_1ab_ab_apply x shapeCasts_S1x512x128_S512x128 r p).trans ?_
  rw [hx p]; unfold idAt
  split <;> rfl

/-- One group's count at (r, k) is the number of its positions holding k. -/
theorem grp_count (o : ℕ) (ho : o + 16 ≤ 128) (h : S512x128.Slices ![0, o] S512x16) (k : Fin 128) :
    grp o h (k0_pay3 x) (k0_pay5 (F := Ideal)) (ix2 r k) = ((∑ q : Fin 16, hit row k (o + q.val) : ℝ) : EReal) := by
  rw [grp_at o ho h _ _ r k, ← coe_sum]
  refine Finset.sum_congr rfl fun q _ => ?_
  rw [ids_at x r row hx, iota_row_at k]
  unfold hit
  simp only [EReal.coe_eq_coe_iff]

/-- The count matrix at (r, k): the number of the first 112 positions holding k. -/
theorem countMat_at (k : Fin 128) :
    countMat (k0_pay3 x) (k0_pay5 (F := Ideal)) (k0_pay6 x) (k0_pay7 x) (ix2 r k)
      = ((∑ p ∈ Finset.range 112, hit row k p : ℝ) : EReal) := by
  rw [← groups_sum (hit row k)]
  unfold countMat
  rw [pay6_eq, pay7_eq]
  show ((((((Ideal.ofBits .bf16 0x0000#16 + grp 0 slices_S512x128_o0_0_S512x16 (k0_pay3 x) (k0_pay5 (F := Ideal)) (ix2 r k))
      + grp 16 slices_S512x128_o0_16_S512x16 (k0_pay3 x) (k0_pay5 (F := Ideal)) (ix2 r k))
      + grp 32 slices_S512x128_o0_32_S512x16 (k0_pay3 x) (k0_pay5 (F := Ideal)) (ix2 r k))
      + grp 48 slices_S512x128_o0_48_S512x16 (k0_pay3 x) (k0_pay5 (F := Ideal)) (ix2 r k))
      + grp 64 slices_S512x128_o0_64_S512x16 (k0_pay3 x) (k0_pay5 (F := Ideal)) (ix2 r k))
      + grp 80 slices_S512x128_o0_80_S512x16 (k0_pay3 x) (k0_pay5 (F := Ideal)) (ix2 r k))
      + grp 96 slices_S512x128_o0_96_S512x16 (k0_pay3 x) (k0_pay5 (F := Ideal)) (ix2 r k) = _
  rw [ofBits_zero_bf16, grp_count x r row hx 0 (by omega), grp_count x r row hx 16 (by omega), grp_count x r row hx 32 (by omega),
    grp_count x r row hx 48 (by omega), grp_count x r row hx 64 (by omega), grp_count x r row hx 80 (by omega),
    grp_count x r row hx 96 (by omega)]
  simp only [← EReal.coe_zero, ← EReal.coe_add]

end Row

/-- The matrix product of the histogram of a row's ids with the table, at row `r` and column `col`: the sum over the
    row's 100 ids of the table entry in the row the id selects. -/
theorem histogram_times_table (x : Vec Ideal S1x512x128 .bf16) (tb : Vec Ideal S1x128x128 .f32) (r : Fin 512)
    (row : Fin 100 → Fin 100)
    (hx : ∀ p : Fin 128, x (ix3 (0 : Fin 1) r p)
      = if h : p.val < 100 then (((row ⟨p.val, h⟩).val : ℝ) : EReal) else ((-1 : ℝ) : EReal))
    (tr : Fin 128 → Fin 128 → ℝ) (htb : ∀ k col : Fin 128, tb (ix3 (0 : Fin 1) k col) = ((tr k col : ℝ) : EReal))
    (col : Fin 128) :
    k0_pay8 (F := Ideal) (k0_pay3 x) (k0_pay4 tb) (k0_pay5 (F := Ideal)) (k0_pay6 x) (k0_pay7 x) (ix2 r col)
      = ((∑ p : Fin 100, tr (Cert.FmSpec.wide (row p)) col : ℝ) : EReal) := by
  have hT : ∀ k : Fin 128, k0_pay4 tb (ix2 k col) = ((tr k col : ℝ) : EReal) := fun k => by
    unfold k0_pay4
    exact (shapeCast_1ab_ab_apply tb shapeCasts_S1x128x128_S128x128 k col).trans (htb k col)
  rw [pay8_eq, matmul_at, ← histogram_algebra row tr col, ← coe_sum]
  refine Finset.sum_congr rfl fun k _ => ?_
  rw [countMat_at x r row hx k, hT k, EReal.coe_mul]

end Cert.KernelIdeal.Payload

end
-- ==== Proof.KernelIdealOperands.lean ====
/-
  The two operands the host prepares for the kernel, read at an index. The ids: entry (f, b, p) of the field-major
  128-wide array is, for a position p below 100, the id in column 101 f + p of batch row b clipped to 0..99 and read
  as a number, and -1 for the 28 padding positions. The table: entry (f, k, col) of the padded 26 x 128 x 128 array is
  the embedding (columns 0..15), its square (16..31), zero (32), the field's linear weight in the field's own column
  33 + f and zero in the other fields' columns (33..58), and zero in the padding (rows from 100, columns from 59).
-/
import proofs.«429955_j26156350832970_3_alg».proof.Proof.KernelIdealAround
import proofs.«429955_j26156350832970_3_alg».proof.Proof.FmSpec
import Idealize.ShloMosaic.Lib.ValueIdx
import Idealize.ShloMosaic.Lib.ValueLayout
import Idealize.ShloMosaic.Lib.Pipeline.Value
import Idealize.ShloMosaic.Lib.StableHlo.Run
import Idealize.ShloMosaic.Lib.KernelVsHost
import Idealize.ShloMosaic.Lib.IdealHost

noncomputable section

namespace Cert.KernelIdeal.Operands

open Idealize.ShloMosaic Idealize.ShloMosaic.TcCoe Idealize.ShloMosaic.ValueIdx Idealize.SL.Sem
open Cert.KernelIdeal Cert.KernelIdeal.Gen Cert.KernelIdeal.Hand Cert.FmSpec

variable (m : (ℓ : Loc nD τ sig) → Buf (Elt Ideal) ℓ)

/-! ## Layout operations of the ids' chain, read at an index given by coordinates -/

section Layout
variable {α : Type}

/-- Swapping the first two axes: entry (f, b, p) of the result is entry (b, f, p) of the operand. -/
theorem transpose_102_apply (x : S1024x26x128.Idx → α) (h : S1024x26x128.Transposes [1, 0, 2] S26x1024x128)
    (f : Fin 26) (b : Fin 1024) (p : Fin 128) :
    transpose S26x1024x128 [1, 0, 2] x h (ix3 f b p) = x (ix3 b f p) :=
  transpose_apply _ x h _ _ fun c => match c with | ⟨0, _⟩ => rfl | ⟨1, _⟩ => rfl | ⟨2, _⟩ => rfl

/-- Padding the last axis from 100 to 128 positions: below 100 the operand's entry, from 100 on the padding value. -/
theorem pad_ids_apply (x : S1024x26x100.Idx → α) (v : S_.Idx → α)
    (h : S1024x26x100.Pads ![0, 0, 0] ![0, 0, 28] ![0, 0, 0] S1024x26x128) (hu : 0 < S_.numel)
    (b : Fin 1024) (f : Fin 26) (p : Fin 128) :
    pad S1024x26x128 ![0, 0, 0] ![0, 0, 28] ![0, 0, 0] x v h hu (ix3 b f p)
      = if hp : p.val < 100 then x (ix3 b f ⟨p.val, hp⟩) else v ix0 := by
  split
  · next hp =>
    exact pad_apply_of_inside _ _ _ x v h hu _ (ix3 b f ⟨p.val, hp⟩) fun a => by
      match a with
      | ⟨0, _⟩ => show b.val = 0 + b.val * (0 + 1); omega
      | ⟨1, _⟩ => show f.val = 0 + f.val * (0 + 1); omega
      | ⟨2, _⟩ => show p.val = 0 + p.val * (0 + 1); omega
  · next hp =>
    rw [pad_apply_of_not_inside _ _ _ x v h hu _ ⟨2, by decide⟩ (by
      show ¬(0 ≤ p.val ∧ (p.val - 0) % (0 + 1) = 0 ∧ (p.val - 0) / (0 + 1) < 100)
      rintro ⟨-, -, h3⟩
      rw [Nat.sub_zero, Nat.zero_add, Nat.div_one] at h3
      exact hp h3)]
    exact congrArg v (eq_ix0 _)

/-- Dropping the last of the 101 columns of a field: entry (b, f, q) is unchanged for q below 100. -/
theorem slice_ids_apply (x : S1024x26x101.Idx → α) (h : S1024x26x101.Slices ![0, 0, 0] S1024x26x100)
    (b : Fin 1024) (f : Fin 26) (q : Fin 100) :
    extractStridedSlice S1024x26x100 ![0, 0, 0] x h (ix3 b f q) = x (ix3 b f ⟨q.val, by omega⟩) :=
  extractStridedSlice_apply _ x h _ _ fun a => by
    match a with
    | ⟨0, _⟩ => exact (Nat.zero_add _).symm
    | ⟨1, _⟩ => exact (Nat.zero_add _).symm
    | ⟨2, _⟩ => exact (Nat.zero_add _).symm

/-- Reading the 2626 columns of a batch row as 26 fields of 101: entry (b, f, q) is column 101 f + q of row b. -/
theorem reshape_ids_apply (x : S1024x2626.Idx → α) (h : S1024x2626.ShapeCasts S1024x26x101)
    (b : Fin 1024) (f : Fin 26) (q : Fin 101) :
    shapeCast S1024x26x101 x h (ix3 b f q) = x (ix2 b ⟨f.val * 101 + q.val, by omega⟩) :=
  shapeCast_apply x h _ _ (by
    rw [Shape.rowMajor_val_two, Shape.rowMajor_val_three]
    show b.val * 2626 + (f.val * 101 + q.val) = (b.val * 26 + f.val) * 101 + q.val
    omega)

end Layout

/-! ## The clip as arithmetic on signed words -/

/-- Clipping a signed word from below by 0 and then from above by 99 gives, as an integer, min 99 (max 0 w). -/
theorem clip_toInt (w : BitVec 32) : (IntOp.minsi 99#32 (IntOp.maxsi 0#32 w)).toInt = min 99 (max 0 w.toInt) := by
  have h0 : (0#32 : BitVec 32).toInt = 0 := by decide
  have h99 : (99#32 : BitVec 32).toInt = 99 := by decide
  unfold IntOp.minsi IntOp.maxsi
  by_cases h1 : w.slt 0#32 = true
  · rw [if_pos h1]
    have h3 : ¬ ((99#32 : BitVec 32).slt 0#32 = true) := by decide
    rw [if_neg h3, h0]
    rw [BitVec.slt_iff_toInt_lt, h0] at h1
    omega
  · rw [if_neg h1]
    rw [BitVec.slt_iff_toInt_lt, h0] at h1
    by_cases h2 : (99#32 : BitVec 32).slt w = true
    · rw [if_pos h2]; rw [BitVec.slt_iff_toInt_lt, h99] at h2; rw [h99]; omega
    · rw [if_neg h2]; rw [BitVec.slt_iff_toInt_lt, h99] at h2; omega

/-- The clipped word read as a number is the row number the kernel selects. -/
theorem clip_real (w : BitVec 32) :
    (((IntOp.minsi 99#32 (IntOp.maxsi 0#32 w)).toInt : ℝ) : EReal) = (((rowK w).val : ℝ) : EReal) := by
  rw [clip_toInt]
  have hz : min 99 (max 0 w.toInt) = (((min 99 (max 0 w.toInt)).toNat : ℕ) : ℤ) := (Int.toNat_of_nonneg (by omega)).symm
  show (((min 99 (max 0 w.toInt) : ℤ) : ℝ) : EReal) = ((((min 99 (max 0 w.toInt)).toNat : ℕ) : ℝ) : EReal)
  conv_lhs => rw [hz, Int.cast_natCast]

/-- The all-ones word read as a signed number is -1. -/
theorem neg_one_real : (((4294967295#32 : BitVec 32).toInt : ℝ) : EReal) = ((-1 : ℝ) : EReal) := by
  have h : (4294967295#32 : BitVec 32).toInt = -1 := by decide
  rw [h]; norm_num

set_option maxRecDepth 16384 in
/-- The ids' operand as the region finds it: the clipped id as a number, or -1 in the padding. -/
theorem ids_apply (c : Dev nD) (f : Fin 26) (b : Fin 1024) (p : Fin 128) :
    (V (F := Ideal) m c main_v5 : S26x1024x128.Idx → EReal) (ix3 f b p)
      = if h : p.val < 100 then
          (((rowK ((m ((c : Thread nD τ).loc main_arg0) : S1024x2626.Idx → BitVec 32) (ix2 b (colOf f ⟨p.val, h⟩)))).val : ℝ) : EReal)
        else ((-1 : ℝ) : EReal) := by
  dsimp only [V, V0]
  simp only [linesBefore, hostOps0, hostOps0_1, hostOps0_2, hostOps0_3, hostOps0_4, hostOps0_5, List.flatten_cons, List.flatten_nil, List.append_nil, List.cons_append, List.nil_append]
  simp only [StableHlo.TRef.unary, StableHlo.TRef.binary]
  after_results
  simp only [StableHlo.TRef.ofBuf, StableHlo.TRef.toBuf, cast_eq, id]
  rw [transpose_102_apply, sitofp_apply, pad_ids_apply]
  by_cases hp : p.val < 100
  · simp only [dif_pos hp]
    simp only [minsi, maxsi]
    rw [broadcastInDim_scalar_apply, broadcastInDim_scalar_apply, constantI_apply, constantI_apply, slice_ids_apply]
    show FloatOps.sitofp (F := Ideal) .bf16 (IntOp.minsi 99#32 (IntOp.maxsi 0#32
      (shapeCast S1024x26x101 (m ((c : Thread nD τ).loc main_arg0) : S1024x2626.Idx → BitVec 32)
        shapeCasts_S1024x2626_S1024x26x101 (ix3 b f ⟨p.val, by omega⟩)))) = _
    rw [reshape_ids_apply]
    exact clip_real _
  · simp only [dif_neg hp]
    exact neg_one_real

/-! ## Layout operations of the table's chain, read at an index given by coordinates -/

section TableLayout
variable {α : Type}

/-- Padding the 100 x 59 table of a field to 128 x 128: inside the operand's entry, outside the padding value. -/
theorem pad_table_apply (x : S26x100x59.Idx → α) (v : S_.Idx → α)
    (h : S26x100x59.Pads ![0, 0, 0] ![0, 28, 69] ![0, 0, 0] S26x128x128) (hu : 0 < S_.numel)
    (f : Fin 26) (k col : Fin 128) :
    pad S26x128x128 ![0, 0, 0] ![0, 28, 69] ![0, 0, 0] x v h hu (ix3 f k col)
      = if hk : k.val < 100 ∧ col.val < 59 then x (ix3 f ⟨k.val, hk.1⟩ ⟨col.val, hk.2⟩) else v ix0 := by
  split
  · next hk =>
    exact pad_apply_of_inside _ _ _ x v h hu _ (ix3 f ⟨k.val, hk.1⟩ ⟨col.val, hk.2⟩) fun a => by
      match a with
      | ⟨0, _⟩ => show f.val = 0 + f.val * (0 + 1); omega
      | ⟨1, _⟩ => show k.val = 0 + k.val * (0 + 1); omega
      | ⟨2, _⟩ => show col.val = 0 + col.val * (0 + 1); omega
  · next hk =>
    by_cases h1 : k.val < 100
    · have h2 : ¬ col.val < 59 := fun h2 => hk ⟨h1, h2⟩
      rw [pad_apply_of_not_inside _ _ _ x v h hu _ ⟨2, by decide⟩ (by
        show ¬(0 ≤ col.val ∧ (col.val - 0) % (0 + 1) = 0 ∧ (col.val - 0) / (0 + 1) < 59)
        rintro ⟨-, -, h3⟩
        rw [Nat.sub_zero, Nat.zero_add, Nat.div_one] at h3
        exact h2 h3)]
      exact congrArg v (eq_ix0 _)
    · rw [pad_apply_of_not_inside _ _ _ x v h hu _ ⟨1, by decide⟩ (by
        show ¬(0 ≤ k.val ∧ (k.val - 0) % (0 + 1) = 0 ∧ (k.val - 0) / (0 + 1) < 100)
        rintro ⟨-, -, h3⟩
        rw [Nat.sub_zero, Nat.zero_add, Nat.div_one] at h3
        exact h1 h3)]
      exact congrArg v (eq_ix0 _)

/-- Four pieces of 16, 16, 1 and 26 columns laid side by side: the piece a column falls in, read at the column
    counted from the piece's start. -/
theorem concat_table_apply (x0 x1 : S26x100x16.Idx → α) (x2 : S26x100x1.Idx → α) (x3 : S26x100x26.Idx → α)
    (h : Shape.Concatenates [S26x100x16, S26x100x16, S26x100x1, S26x100x26] S26x100x59 2)
    (f : Fin 26) (k : Fin 100) (col : Fin 59) :
    concatenate S26x100x59 2 [⟨S26x100x16, x0⟩, ⟨S26x100x16, x1⟩, ⟨S26x100x1, x2⟩, ⟨S26x100x26, x3⟩] h (ix3 f k col)
      = if h0 : col.val < 16 then x0 (ix3 f k ⟨col.val, h0⟩)
        else if h1 : col.val < 32 then x1 (ix3 f k ⟨col.val - 16, by omega⟩)
        else if h2 : col.val = 32 then x2 (ix3 f k (0 : Fin 1))
        else x3 (ix3 f k ⟨col.val - 33, by omega⟩) := by
  split
  · next h0 =>
    exact concatenate_apply_piece (t := S26x100x59) 2 [⟨S26x100x16, x0⟩, ⟨S26x100x16, x1⟩, ⟨S26x100x1, x2⟩, ⟨S26x100x26, x3⟩] h (ix3 f k col) 0 (by simp) S26x100x16 x0 rfl rfl 0 rfl (ix3 f k ⟨col.val, h0⟩)
      (fun b hb => by
        match b with
        | ⟨0, _⟩ => rfl
        | ⟨1, _⟩ => rfl
        | ⟨2, _⟩ => exact (hb (Fin.ext rfl)).elim)
      (by show 0 + col.val = col.val; omega)
  · next h0 =>
    split
    · next h1 =>
      exact concatenate_apply_piece (t := S26x100x59) 2 [⟨S26x100x16, x0⟩, ⟨S26x100x16, x1⟩, ⟨S26x100x1, x2⟩, ⟨S26x100x26, x3⟩] h (ix3 f k col) 1 (by simp) S26x100x16 x1 rfl rfl 16 rfl (ix3 f k ⟨col.val - 16, by omega⟩)
        (fun b hb => by
          match b with
          | ⟨0, _⟩ => rfl
          | ⟨1, _⟩ => rfl
          | ⟨2, _⟩ => exact (hb (Fin.ext rfl)).elim)
        (by show 16 + (col.val - 16) = col.val; omega)
    · next h1 =>
      split
      · next h2 =>
        exact concatenate_apply_piece (t := S26x100x59) 2 [⟨S26x100x16, x0⟩, ⟨S26x100x16, x1⟩, ⟨S26x100x1, x2⟩, ⟨S26x100x26, x3⟩] h (ix3 f k col) 2 (by simp) S26x100x1 x2 rfl rfl 32 rfl (ix3 f k (0 : Fin 1))
          (fun b hb => by
            match b with
            | ⟨0, _⟩ => rfl
            | ⟨1, _⟩ => rfl
            | ⟨2, _⟩ => exact (hb (Fin.ext rfl)).elim)
          (by show 32 + 0 = col.val; omega)
      · next h2 =>
        exact concatenate_apply_piece (t := S26x100x59) 2 [⟨S26x100x16, x0⟩, ⟨S26x100x16, x1⟩, ⟨S26x100x1, x2⟩, ⟨S26x100x26, x3⟩] h (ix3 f k col) 3 (by simp) S26x100x26 x3 rfl rfl 33 rfl (ix3 f k ⟨col.val - 33, by omega⟩)
          (fun b hb => by
            match b with
            | ⟨0, _⟩ => rfl
            | ⟨1, _⟩ => rfl
            | ⟨2, _⟩ => exact (hb (Fin.ext rfl)).elim)
          (by show 33 + (col.val - 33) = col.val; have := col.isLt; omega)

/-- A 26 x 100 array with a trailing unit axis added: entry (f, k, 0) is entry (f, k). -/
theorem bcast_lin1_apply (x : S26x100.Idx → α) (h : S26x100.BroadcastsInDim S26x100x1 (![0, 1] : Fin 2 → Fin S26x100x1.rank))
    (f : Fin 26) (k : Fin 100) (z : Fin 1) :
    broadcastInDim S26x100x1 ![0, 1] h x (ix3 f k z) = x (ix2 f k) :=
  broadcastInDim_apply _ h x _ _ fun a => by
    match a with
    | ⟨0, _⟩ => rfl
    | ⟨1, _⟩ => rfl

/-- The same array repeated along 26 columns: entry (f, k, c) is entry (f, k, 0). -/
theorem bcast_lin2_apply (x : S26x100x1.Idx → α) (h : S26x100x1.BroadcastsInDim S26x100x26 (![0, 1, 2] : Fin 3 → Fin S26x100x26.rank))
    (f : Fin 26) (k : Fin 100) (c : Fin 26) :
    broadcastInDim S26x100x26 ![0, 1, 2] h x (ix3 f k c) = x (ix3 f k (0 : Fin 1)) :=
  broadcastInDim_apply _ h x _ _ fun a => by
    match a with
    | ⟨0, _⟩ => rfl
    | ⟨1, _⟩ => rfl
    | ⟨2, _⟩ => rfl

/-- A 26 x 26 array with a unit middle axis added: entry (f, 0, c) is entry (f, c). -/
theorem bcast_eye1_apply (x : S26x26.Idx → α) (h : S26x26.BroadcastsInDim S26x1x26 (![0, 2] : Fin 2 → Fin S26x1x26.rank))
    (f : Fin 26) (z : Fin 1) (c : Fin 26) :
    broadcastInDim S26x1x26 ![0, 2] h x (ix3 f z c) = x (ix2 f c) :=
  broadcastInDim_apply _ h x _ _ fun a => by
    match a with
    | ⟨0, _⟩ => rfl
    | ⟨1, _⟩ => rfl

/-- The same array repeated along 100 rows: entry (f, k, c) is entry (f, 0, c). -/
theorem bcast_eye2_apply (x : S26x1x26.Idx → α) (h : S26x1x26.BroadcastsInDim S26x100x26 (![0, 1, 2] : Fin 3 → Fin S26x100x26.rank))
    (f : Fin 26) (k : Fin 100) (c : Fin 26) :
    broadcastInDim S26x100x26 ![0, 1, 2] h x (ix3 f k c) = x (ix3 f (0 : Fin 1) c) :=
  broadcastInDim_apply _ h x _ _ fun a => by
    match a with
    | ⟨0, _⟩ => rfl
    | ⟨1, _⟩ => rfl
    | ⟨2, _⟩ => rfl

/-- Dropping the trailing unit axis of the linear weights: entry (f, k) is entry (f, k, 0). -/
theorem reshape_lin_apply (x : S26x100x1.Idx → α) (h : S26x100x1.ShapeCasts S26x100) (f : Fin 26) (k : Fin 100) :
    shapeCast S26x100 x h (ix2 f k) = x (ix3 f k (0 : Fin 1)) :=
  shapeCast_apply x h _ _ (by
    rw [Shape.rowMajor_val_two, Shape.rowMajor_val_three]
    show (f.val * 100 + k.val) * 1 + 0 = f.val * 100 + k.val
    omega)

end TableLayout

/-! ## The identity pattern and the constants as numbers -/

/-- The word comparing a row number with a column number of the 26 x 26 pattern, read as a number: 1 on the
    diagonal, 0 off it. -/
theorem eye_real (f c : Fin 26) :
    (((IntOp.cmpi .eq (IntOp.addi (BitVec.ofNat 32 f.val) 0#32) (BitVec.ofNat 32 c.val)).toNat : ℝ) : EReal)
      = (((if f.val = c.val then 1 else 0 : ℝ) : ℝ) : EReal) := by
  have ha : IntOp.addi (BitVec.ofNat 32 f.val) 0#32 = BitVec.ofNat 32 f.val := by
    unfold IntOp.addi; exact BitVec.add_zero _
  rw [ha]
  by_cases hfc : f.val = c.val
  · rw [if_pos hfc, hfc, IntOp.cmpi_eq.2 rfl]
    norm_num
  · rw [if_neg hfc]
    have hne : ¬ IntOp.cmpi .eq (BitVec.ofNat 32 f.val) (BitVec.ofNat 32 c.val) = 1#1 := by
      rw [IntOp.cmpi_eq]
      intro he
      have := congrArg BitVec.toNat he
      rw [BitVec.toNat_ofNat, BitVec.toNat_ofNat, Nat.mod_eq_of_lt (by have := f.isLt; omega), Nat.mod_eq_of_lt (by have := c.isLt; omega)] at this
      exact hfc this
    rw [eq_zero_of_ne_one hne]
    norm_num

/-- The all-zero word read as a 32-bit float is the number 0. -/
theorem zero_bits : Ideal.ofBits .f32 0x00000000#32 = ((0 : ℝ) : EReal) := by
  simp [Ideal.ofBits, Ideal.ieee]

/-- The zero word read as a signed number is 0. -/
theorem zero_word_real : (((0#32 : BitVec 32).toInt : ℝ) : EReal) = ((0 : ℝ) : EReal) := by
  have h : (0#32 : BitVec 32).toInt = 0 := by decide
  rw [h]; norm_num

/-- The product of two real numbers, formed in the extended reals, is their real product. -/
theorem coe_mul_of_eq {x y : EReal} {r s : ℝ} (hx : x = ((r : ℝ) : EReal)) (hy : y = ((s : ℝ) : EReal)) :
    x * y = ((r * s : ℝ) : EReal) := by
  rw [hx, hy, EReal.coe_mul]

/-! ## The host lines in three stretches: the ids' chain, the table's four pieces, the concatenation and padding -/

/-- A line run in two stretches: the second continues from what the first leaves. -/
theorem after_append (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => simp only [List.cons_append, StableHlo.after_cons, ih]

/-- The host lines that prepare the ids. -/
def linesA : List (HloOp τ sig (Elt Ideal)) :=
  hostOps0 ++ hostOps0_1 ++ hostOps0_2 ++ hostOps0_3 ++ (hostOps0_4 (F := Ideal)).take 2
/-- The host lines that compute the four pieces of the table. -/
def linesB : List (HloOp τ sig (Elt Ideal)) := ((hostOps0_4 (F := Ideal)).drop 2).take 16
/-- The host lines that lay the pieces side by side and pad the result. -/
def linesC : List (HloOp τ sig (Elt Ideal)) := (hostOps0_4 (F := Ideal)).drop 18 ++ hostOps0_5

theorem lines_split : List.flatten (linesBefore (F := Ideal)) = linesA ++ (linesB ++ linesC) := rfl

set_option maxRecDepth 16384 in
/-- The ids' lines leave the linear weights as launched. -/
theorem linesA_arg2 (c : Dev nD) :
    StableHlo.after linesA (fun b => m (c, b)) (Proc.devRef .tc main_arg2) = m ((c : Thread nD τ).loc main_arg2) := by
  simp only [linesA, hostOps0, hostOps0_1, hostOps0_2, hostOps0_3, hostOps0_4, List.take_succ_cons, List.take_zero, List.cons_append, List.nil_append, List.append_nil]
  simp only [StableHlo.TRef.unary, StableHlo.TRef.binary]
  after_results

set_option maxRecDepth 16384 in
/-- The ids' lines leave the embedding table as launched. -/
theorem linesA_arg3 (c : Dev nD) :
    StableHlo.after linesA (fun b => m (c, b)) (Proc.devRef .tc main_arg3) = m ((c : Thread nD τ).loc main_arg3) := by
  simp only [linesA, hostOps0, hostOps0_1, hostOps0_2, hostOps0_3, hostOps0_4, List.take_succ_cons, List.take_zero, List.cons_append, List.nil_append, List.append_nil]
  simp only [StableHlo.TRef.unary, StableHlo.TRef.binary]
  after_results

section Pieces
variable (W : Valuation τ sig (Elt Ideal))

set_option maxRecDepth 16384 in
/-- The first piece is the embedding table itself. -/
theorem piece_emb_apply (Er : Fin 26 → Fin 100 → Fin 16 → ℝ)
    (hE : ∀ (f : Fin 26) (k : Fin 100) (e : Fin 16), (W (Proc.devRef .tc main_arg3) : S26x100x16.Idx → EReal) (ix3 f k e) = ((Er f k e : ℝ) : EReal))
    (f : Fin 26) (k : Fin 100) (e : Fin 16) :
    (StableHlo.after linesB W (Proc.devRef .tc main_arg3) : S26x100x16.Idx → EReal) (ix3 f k e) = ((Er f k e : ℝ) : EReal) := by
  simp only [linesB, hostOps0_4, List.drop_succ_cons, List.drop_zero, List.take_succ_cons, List.take_zero]
  after_results
  exact hE f k e

set_option maxRecDepth 16384 in
/-- The second piece is the embedding squared entry by entry. -/
theorem piece_sq_apply (Er : Fin 26 → Fin 100 → Fin 16 → ℝ)
    (hE : ∀ (f : Fin 26) (k : Fin 100) (e : Fin 16), (W (Proc.devRef .tc main_arg3) : S26x100x16.Idx → EReal) (ix3 f k e) = ((Er f k e : ℝ) : EReal))
    (f : Fin 26) (k : Fin 100) (e : Fin 16) :
    (StableHlo.after linesB W (Proc.devRef .tc main_v6) : S26x100x16.Idx → EReal) (ix3 f k e)
      = ((Er f k e * Er f k e : ℝ) : EReal) := by
  simp only [linesB, hostOps0_4, List.drop_succ_cons, List.drop_zero, List.take_succ_cons, List.take_zero]
  after_results
  rw [mulf_apply]
  exact coe_mul_of_eq (hE f k e) (hE f k e)

set_option maxRecDepth 16384 in
/-- The third piece is a column of zeros. -/
theorem piece_zero_apply (f : Fin 26) (k : Fin 100) (z : Fin 1) :
    (StableHlo.after linesB W (Proc.devRef .tc main_v19) : S26x100x1.Idx → EReal) (ix3 f k z) = ((0 : ℝ) : EReal) := by
  simp only [linesB, hostOps0_4, List.drop_succ_cons, List.drop_zero, List.take_succ_cons, List.take_zero]
  after_results
  rw [broadcastInDim_scalar_apply, constant_apply]
  exact zero_bits

set_option maxRecDepth 16384 in
/-- The fourth piece: the field's linear weight in the field's own column, zero in the other fields' columns. -/
theorem piece_lin_apply (Lr : Fin 26 → Fin 100 → ℝ)
    (hL : ∀ (f : Fin 26) (k : Fin 100), (W (Proc.devRef .tc main_arg2) : S26x100x1.Idx → EReal) (ix3 f k (0 : Fin 1)) = ((Lr f k : ℝ) : EReal))
    (f : Fin 26) (k : Fin 100) (j : Fin 26) :
    (StableHlo.after linesB W (Proc.devRef .tc main_v18) : S26x100x26.Idx → EReal) (ix3 f k j)
      = ((Lr f k * (if f.val = j.val then 1 else 0) : ℝ) : EReal) := by
  simp only [linesB, hostOps0_4, List.drop_succ_cons, List.drop_zero, List.take_succ_cons, List.take_zero]
  after_results
  rw [mulf_apply, bcast_lin2_apply, bcast_lin1_apply, bcast_eye2_apply, bcast_eye1_apply]
  have h1 : shapeCast S26x100 (W (Proc.devRef .tc main_arg2) : S26x100x1.Idx → EReal) shapeCasts_S26x100x1_S26x100 (ix2 f k)
      = ((Lr f k : ℝ) : EReal) := by
    rw [reshape_lin_apply]; exact hL f k
  exact coe_mul_of_eq h1 (eye_real f j)

end Pieces

set_option maxRecDepth 16384 in
/-- The table's operand as the region finds it, when the two tables hold real numbers. -/
theorem table_apply (c : Dev nD) (Lr : Fin 26 → Fin 100 → ℝ) (Er : Fin 26 → Fin 100 → Fin 16 → ℝ)
    (hL : ∀ (f : Fin 26) (k : Fin 100), (m ((c : Thread nD τ).loc main_arg2) : S26x100x1.Idx → EReal) (ix3 f k (0 : Fin 1)) = ((Lr f k : ℝ) : EReal))
    (hE : ∀ (f : Fin 26) (k : Fin 100) (e : Fin 16), (m ((c : Thread nD τ).loc main_arg3) : S26x100x16.Idx → EReal) (ix3 f k e) = ((Er f k e : ℝ) : EReal))
    (f : Fin 26) (k col : Fin 128) :
    (V (F := Ideal) m c main_v21 : S26x128x128.Idx → EReal) (ix3 f k col) = ((tableR Lr Er f k col : ℝ) : EReal) := by
  have hE' : ∀ (f : Fin 26) (k : Fin 100) (e : Fin 16),
      (StableHlo.after linesA (fun b => m (c, b)) (Proc.devRef .tc main_arg3) : S26x100x16.Idx → EReal) (ix3 f k e)
        = ((Er f k e : ℝ) : EReal) := fun f k e => by rw [linesA_arg3]; exact hE f k e
  have hL' : ∀ (f : Fin 26) (k : Fin 100),
      (StableHlo.after linesA (fun b => m (c, b)) (Proc.devRef .tc main_arg2) : S26x100x1.Idx → EReal) (ix3 f k (0 : Fin 1))
        = ((Lr f k : ℝ) : EReal) := fun f k => by rw [linesA_arg2]; exact hL f k
  dsimp only [V, V0]
  rw [lines_split, after_append, after_append]
  simp only [linesC, hostOps0_4, hostOps0_5, List.drop_succ_cons, List.drop_zero, List.cons_append, List.nil_append, List.append_nil]
  simp only [StableHlo.TRef.unary, StableHlo.TRef.binary]
  simp only [StableHlo.after_cons, StableHlo.after_nil]
  rw [StableHlo.binary_result, StableHlo.unary_result]
  rw [StableHlo.unary_result_ne]; rotate_left; decide
  rw [StableHlo.nullary_result]
  rw [StableHlo.nullary_result_ne]; rotate_left; decide
  rw [StableHlo.nary4_result]
  simp only [StableHlo.TRef.ofBuf, StableHlo.TRef.toBuf, cast_eq]
  rw [pad_table_apply]
  by_cases hk : k.val < 100 ∧ col.val < 59
  · rw [dif_pos hk]
    refine (concat_table_apply _ _ _ _ _ f ⟨k.val, hk.1⟩ ⟨col.val, hk.2⟩).trans ?_
    by_cases h0 : col.val < 16
    · have ht : tableR Lr Er f k col = Er f ⟨k.val, hk.1⟩ ⟨col.val, h0⟩ := by
        unfold tableR; rw [dif_pos hk.1, dif_pos h0]
      refine ((dif_pos h0).trans (piece_emb_apply _ Er hE' f ⟨k.val, hk.1⟩ ⟨col.val, h0⟩)).trans ?_
      exact congrArg (fun r : ℝ => (r : EReal)) ht.symm
    · by_cases h1 : col.val < 32
      · have ht : tableR Lr Er f k col
            = Er f ⟨k.val, hk.1⟩ ⟨col.val - 16, by omega⟩ * Er f ⟨k.val, hk.1⟩ ⟨col.val - 16, by omega⟩ := by
          unfold tableR; rw [dif_pos hk.1, dif_neg h0, dif_pos h1]
        refine ((dif_neg h0).trans ((dif_pos h1).trans
          (piece_sq_apply _ Er hE' f ⟨k.val, hk.1⟩ ⟨col.val - 16, by omega⟩))).trans ?_
        exact congrArg (fun r : ℝ => (r : EReal)) ht.symm
      · by_cases h2 : col.val = 32
        · have ht : tableR Lr Er f k col = 0 := by
            unfold tableR; rw [dif_pos hk.1, dif_neg h0, dif_neg h1, if_pos h2]
          refine ((dif_neg h0).trans ((dif_neg h1).trans ((dif_pos h2).trans
            (piece_zero_apply _ f ⟨k.val, hk.1⟩ 0)))).trans ?_
          exact congrArg (fun r : ℝ => (r : EReal)) ht.symm
        · have ht : tableR Lr Er f k col = Lr f ⟨k.val, hk.1⟩ * (if f.val = col.val - 33 then 1 else 0) := by
            unfold tableR; rw [dif_pos hk.1, dif_neg h0, dif_neg h1, if_neg h2, if_pos hk.2]
          refine ((dif_neg h0).trans ((dif_neg h1).trans ((dif_neg h2).trans
            (piece_lin_apply _ Lr hL' f ⟨k.val, hk.1⟩ ⟨col.val - 33, by omega⟩)))).trans ?_
          exact congrArg (fun r : ℝ => (r : EReal)) ht.symm
  · rw [dif_neg hk]
    have ht : tableR Lr Er f k col = 0 := by
      unfold tableR
      by_cases h1 : k.val < 100
      · have h2 : ¬ col.val < 59 := fun h2 => hk ⟨h1, h2⟩
        rw [dif_pos h1, dif_neg (show ¬ col.val < 16 by omega), dif_neg (show ¬ col.val < 32 by omega),
          if_neg (show ¬ col.val = 32 by omega), if_neg h2]
      · rw [dif_neg h1]
    rw [ht]
    exact zero_word_real

end Cert.KernelIdeal.Operands

end
-- ==== Proof.KernelIdealAfter.lean ====
/-
  The host lines after the region. They cut three column ranges out of the accumulated 1024 x 128 result — columns
  0..15 (the summed embeddings), 16..31 (the summed squares) and 33..58 (the per-field linear sums) — join the linear
  sums with the dense features, multiply by the transposed weight row and add the bias, and add half the sum over the
  16 embedding coordinates of (sum squared - sum of squares). The program's result buffer after those lines is that
  expression of the accumulated result and of three arguments.
-/
import proofs.«429955_j26156350832970_3_alg».proof.Proof.KernelIdealFrame
import Idealize.ShloMosaic.Lib.ValueIdx
import Idealize.ShloMosaic.Lib.StableHlo.Run

noncomputable section

namespace Cert.KernelIdeal.After

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable {F : FTy → Type} [FloatOps F]

/-- The last lines of the model, as one function of the three sums and three arguments. -/
def tail (sl : FVec F S1024x26 .f32) (s sos : FVec F S1024x16 .f32) (D : FVec F S1024x13 .f32) (W : FVec F S1x39 .f32)
    (B : FVec F S1 .f32) : FVec F S1024x1 .f32 :=
  addf
    (addf (Host.dotGeneral dot_S1024x39_S39x1_S1024x1_1_0_0_1_n_n none
        (concatenate S1024x39 1 [⟨S1024x26, sl⟩, ⟨S1024x13, D⟩] concatenates_S1024x26_S1024x13_S1024x39_d1)
        (transpose S39x1 [1, 0] W transposes_S1x39_S39x1_1_0))
      (broadcastInDim S1024x1 ![0, 1] bcast_S1x1_S1024x1_0_1 (broadcastInDim S1x1 ![1] bcast_S1_S1x1_1 B)))
    (mulf (broadcastInDim S1024x1 ![] bcast_S_S1024x1 (constant (F := F) S_ .f32 0x3F000000#32))
      (broadcastInDim S1024x1 ![0] bcast_S1024_S1024x1_0
        (Host.reduceAdd (subf (mulf s s) sos) (constant (F := F) S_ .f32 0x00000000#32) reducesTo_S1024x16_S1024_d1 h_S_)))

/-- The later lines from any contents `W`: the result buffer holds the tail of the three column ranges of the
    accumulated result as `W` has it, and of the three arguments as `W` has them. -/
theorem after_lines (W : Valuation τ sig (Elt F)) :
    (StableHlo.after hostOps1 W (Proc.devRef .tc main_v38) : FVec F S1024x1 .f32)
      = tail
          (extractStridedSlice S1024x26 ![0, 33] (W (Proc.devRef .tc main_v22) : FVec F S1024x128 .f32) slices_S1024x128_S1024x26_0_33)
          (extractStridedSlice S1024x16 ![0, 0] (W (Proc.devRef .tc main_v22) : FVec F S1024x128 .f32) slices_S1024x128_S1024x16_0_0)
          (extractStridedSlice S1024x16 ![0, 16] (W (Proc.devRef .tc main_v22) : FVec F S1024x128 .f32) slices_S1024x128_S1024x16_0_16)
          (W (Proc.devRef .tc main_arg1)) (W (Proc.devRef .tc main_arg4)) (W (Proc.devRef .tc main_arg5)) := by
  after_results_simp
  repeat (first
    | rw [StableHlo.unary_result]
    | (rw [StableHlo.unary_result_ne]; rotate_left; decide))
  rfl

variable (m : (ℓ : Loc nD τ sig) → Buf (Elt F) ℓ)

/-- The result buffer after the later lines: the tail of the three column ranges of the accumulated result. -/
theorem result_after (c : Dev nD) :
    (Pipeline.afterTail₀ cfgs (dats m) 0 (V0 m) [hostOps1] c main_v38 : FVec F S1024x1 .f32)
      = tail
          (extractStridedSlice S1024x26 ![0, 33] ((dats m 0 c).arrAt 2 cfg0.N : FVec F S1024x128 .f32) slices_S1024x128_S1024x26_0_33)
          (extractStridedSlice S1024x16 ![0, 0] ((dats m 0 c).arrAt 2 cfg0.N : FVec F S1024x128 .f32) slices_S1024x128_S1024x16_0_0)
          (extractStridedSlice S1024x16 ![0, 16] ((dats m 0 c).arrAt 2 cfg0.N : FVec F S1024x128 .f32) slices_S1024x128_S1024x16_0_16)
          (m ((c : Thread nD τ).loc main_arg1)) (m ((c : Thread nD τ).loc main_arg4)) (m ((c : Thread nD τ).loc main_arg5)) := by
  unfold Pipeline.afterTail₀
  simp only [List.flatten_cons, List.flatten_nil, List.append_nil]
  refine (after_lines _).trans ?_
  have hA : Pipeline.withArrays (cfgs 0).spec c (V0 m c) (fun w => (dats m 0 c).arrAt w (cfgs 0).N) (Proc.devRef .tc main_v22)
      = ((dats m 0 c).arrAt 2 cfg0.N : FVec F S1024x128 .f32) :=
    Pipeline.withArrays_arr spec0 launch0.win.arr_inj c _ _ 2
  have h1 : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans
      (V_main_arg1 m c)
  have h4 : Pipeline.withArrays (cfgs 0).spec c (V0 m c) (fun w => (dats m 0 c).arrAt w (cfgs 0).N) (Proc.devRef .tc main_arg4)
      = m ((c : Thread nD τ).loc main_arg4) :=
    (Pipeline.withArrays_of_ne _ c (V0 m c) _ main_arg4 (by exact (by decide : ∀ w, Pipeline.arrRef spec0 w ≠ main_arg4))).trans
      (V_main_arg4 m c)
  have h5 : Pipeline.withArrays (cfgs 0).spec c (V0 m c) (fun w => (dats m 0 c).arrAt w (cfgs 0).N) (Proc.devRef .tc main_arg5)
      = m ((c : Thread nD τ).loc main_arg5) :=
    (Pipeline.withArrays_of_ne _ c (V0 m c) _ main_arg5 (by exact (by decide : ∀ w, Pipeline.arrRef spec0 w ≠ main_arg5))).trans
      (V_main_arg5 m c)
  rw [hA, h1, h4, h5]

end Cert.KernelIdeal.After

end
-- ==== Proof.FmColumns.lean ====
/-
  Which sums sit in which columns of the accumulated row. The combined table puts the embedding in columns 0..15,
  its square in 16..31, and the linear weight of field f in column 33 + f only (zero in the other fields' columns).
  Summed over the fields and ids, column e is therefore the sum of embedding coordinates e, column 16 + e the sum of
  their squares, and column 33 + f the sum of field f's own linear weights: every other field contributes zeros there.
-/
import proofs.«429955_j26156350832970_3_alg».proof.Proof.FmSpec

noncomputable section

namespace Cert.FmSpec

variable (Lr : Fin 26 → Fin 100 → ℝ) (Er : Fin 26 → Fin 100 → Fin 16 → ℝ)

/-- A table entry in an embedding column. -/
theorem tableR_emb (f : Fin 26) (k : Fin 100) (e : Fin 16) :
    tableR Lr Er f (wide k) ⟨e.val, by omega⟩ = Er f k e := by
  have hk : (wide k).val < 100 := k.isLt
  unfold tableR
  rw [dif_pos hk, dif_pos (show ((⟨e.val, by omega⟩ : Fin 128)).val < 16 from e.isLt)]
  rfl

/-- A table entry in a squared-embedding column. -/
theorem tableR_sq (f : Fin 26) (k : Fin 100) (e : Fin 16) :
    tableR Lr Er f (wide k) ⟨16 + e.val, by omega⟩ = Er f k e * Er f k e := by
  have hk : (wide k).val < 100 := k.isLt
  have he : (⟨16 + e.val - 16, by omega⟩ : Fin 16) = e := Fin.ext (by simp)
  unfold tableR
  rw [dif_pos hk, dif_neg (show ¬((⟨16 + e.val, by omega⟩ : Fin 128)).val < 16 from by simp),
    dif_pos (show ((⟨16 + e.val, by omega⟩ : Fin 128)).val < 32 from by simp; omega)]
  show Er f ⟨(wide k).val, hk⟩ ⟨16 + e.val - 16, _⟩ * Er f ⟨(wide k).val, hk⟩ ⟨16 + e.val - 16, _⟩ = _
  rw [he]
  rfl

/-- A table entry in a linear-weight column: the weight in the field's own column, zero in another field's. -/
theorem tableR_lin (f : Fin 26) (k : Fin 100) (f' : Fin 26) :
    tableR Lr Er f (wide k) ⟨33 + f'.val, by omega⟩ = Lr f k * (if f = f' then 1 else 0) := by
  have hk : (wide k).val < 100 := k.isLt
  unfold tableR
  rw [dif_pos hk, dif_neg (show ¬((⟨33 + f'.val, by omega⟩ : Fin 128)).val < 16 from by simp; omega),
    dif_neg (show ¬((⟨33 + f'.val, by omega⟩ : Fin 128)).val < 32 from by simp; omega),
    if_neg (show ¬((⟨33 + f'.val, by omega⟩ : Fin 128)).val = 32 from by simp; omega),
    if_pos (show ((⟨33 + f'.val, by omega⟩ : Fin 128)).val < 59 from by simp; omega)]
  show Lr f ⟨(wide k).val, hk⟩ * (if f.val = 33 + f'.val - 33 then 1 else 0) = _
  by_cases h : f = f'
  · subst h
    rw [if_pos (by omega), if_pos rfl]
    rfl
  · rw [if_neg (fun h' => h (Fin.ext (by omega))), if_neg h]
    rfl

variable (row : Fin 26 → Fin 1024 → Fin 100 → Fin 100)

/-- Columns 0..15 of the accumulated row are the embedding sums. -/
theorem accR_emb (b : Fin 1024) (e : Fin 16) : accR row Lr Er b ⟨e.val, by omega⟩ = embSumR row Er b e := by
  unfold accR embSumR
  exact Finset.sum_congr rfl fun f _ => Finset.sum_congr rfl fun p _ => tableR_emb Lr Er f (row f b p) e

/-- Columns 16..31 are the sums of squares. -/
theorem accR_sq (b : Fin 1024) (e : Fin 16) : accR row Lr Er b ⟨16 + e.val, by omega⟩ = sqSumR row Er b e := by
  unfold accR sqSumR
  exact Finset.sum_congr rfl fun f _ => Finset.sum_congr rfl fun p _ => tableR_sq Lr Er f (row f b p) e

/-- Column 33 + f' is field f' alone: its own linear sum. -/
theorem accR_lin (b : Fin 1024) (f' : Fin 26) : accR row Lr Er b ⟨33 + f'.val, by omega⟩ = linSumR row Lr b f' := by
  unfold accR linSumR
  rw [Finset.sum_eq_single f']
  · exact Finset.sum_congr rfl fun p _ => by rw [tableR_lin, if_pos rfl, mul_one]
  · intro f _ hf
    exact Finset.sum_eq_zero fun p _ => by rw [tableR_lin, if_neg hf, mul_zero]
  · intro h; exact absurd (Finset.mem_univ _) h

end Cert.FmSpec

end
-- ==== Proof.KernelIdealValue.lean ====
/-
  The idealized kernel's result. With both tables real-valued, one field's contribution at a grid point is the
  product of the histogram of the point's ids with the field's table, and the ids' operand holds clipped ids (and -1
  in the padding) while the table's operand holds the combined table: so the contribution at (r, col) is the sum over
  the 100 ids of batch row 512 (t / 26) + r of the combined table's entry in the selected row. Summed over the 26
  fields this is FmSpec's accumulated array; its columns 33..58, 0..15 and 16..31 are the three sums; and the host
  lines after the region apply the model's last lines to them. Hence the run: @main ends with its result buffer at the
  last lines of the three sums under the kernel's reading of an id, every argument unchanged.
-/
import proofs.«429955_j26156350832970_3_alg».proof.Proof.KernelIdealBlocks
import proofs.«429955_j26156350832970_3_alg».proof.Proof.KernelIdealPayload
import proofs.«429955_j26156350832970_3_alg».proof.Proof.KernelIdealOperands
import proofs.«429955_j26156350832970_3_alg».proof.Proof.KernelIdealAfter
import proofs.«429955_j26156350832970_3_alg».proof.Proof.FmColumns

noncomputable section

namespace Cert.KernelIdeal.Value

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand Cert.KernelIdeal.Accum Cert.FmSpec

variable (m : (ℓ : Loc nD τ sig) → Buf (Elt Ideal) ℓ) (ρ : Dev nD → PrngReg) (c : Dev nD)
  (Lr : Fin 26 → Fin 100 → ℝ) (Er : Fin 26 → Fin 100 → Fin 16 → ℝ)

/-- The rows the kernel reads: every id of the launch's `sparse_feat` clipped to 0..99. -/
abbrev rowsK : Fin 26 → Fin 1024 → Fin 100 → Fin 100 :=
  rowsOf rowK (m ((c : Thread nD τ).loc main_arg0) : S1024x2626.Idx → BitVec 32)

/-- One field's contribution to entry (b, col), over plain naturals (zero outside the ranges). -/
def fieldSum (f b col : ℕ) : ℝ :=
  if h : f < 26 ∧ b < 1024 ∧ col < 128 then
    ∑ p : Fin 100, tableR Lr Er ⟨f, h.1⟩ (wide (rowsK m c ⟨f, h.1⟩ ⟨b, h.2.1⟩ p)) ⟨col, h.2.2⟩
  else 0

section

variable (hL : ∀ (f : Fin 26) (k : Fin 100), (m ((c : Thread nD τ).loc main_arg2) : S26x100x1.Idx → EReal) (ix3 f k (0 : Fin 1)) = ((Lr f k : ℝ) : EReal))
  (hE : ∀ (f : Fin 26) (k : Fin 100) (e : Fin 16), (m ((c : Thread nD τ).loc main_arg3) : S26x100x16.Idx → EReal) (ix3 f k e) = ((Er f k e : ℝ) : EReal))

include hL hE in
/-- The histogram of a point's ids times the field's table is the sum of the selected rows of the combined table. -/
theorem contribution_value (t : Fin cfg0.N) (r : Fin 512) (col : Fin 128) :
    contribution (F := Ideal) (iblk m c 0 t) (iblk m c 1 t) (ix2 r col)
      = ((fieldSum m c Lr Er (t.val % 26) (512 * (t.val / 26) + r.val) col.val : ℝ) : EReal) := by
  have ht := point_lt t
  have hf : t.val % 26 < 26 := Nat.mod_lt _ (by decide)
  have hb : 512 * (t.val / 26) + r.val < 1024 := by omega
  unfold contribution
  rw [Cert.KernelIdeal.Payload.histogram_times_table (iblk m c 0 t) (iblk m c 1 t) r
      (fun p => rowsK m c ⟨t.val % 26, hf⟩ ⟨512 * (t.val / 26) + r.val, hb⟩ p)
      (fun p => (idsBlock_apply m c t r p).trans (Cert.KernelIdeal.Operands.ids_apply m c _ _ p))
      (fun k col => tableR Lr Er ⟨t.val % 26, hf⟩ k col)
      (fun k col => (tableBlock_apply m c t k col).trans (Cert.KernelIdeal.Operands.table_apply m c Lr Er hL hE _ k col))
      col]
  unfold fieldSum
  rw [dif_pos ⟨hf, hb, col.isLt⟩]

include hL hE in
/-- The result array after the region is the accumulated array of FmSpec under the kernel's reading of an id. -/
theorem acc_final : ((dats m 0 c).arrAt 2 cfg0.N : FVec Ideal S1024x128 .f32) = accVec (rowsK m c) Lr Er := by
  rw [Cert.KernelIdeal.Accum.final m c (fieldSum m c Lr Er) (contribution_value m c Lr Er hL hE)]
  funext j
  unfold accumulated accVec accR
  congr 1
  rw [Finset.sum_range]
  refine Finset.sum_congr rfl fun f _ => ?_
  unfold fieldSum
  rw [dif_pos ⟨f.isLt, idx2_lt0 j, idx2_lt1 j⟩]
  rfl

end

variable (row : Fin 26 → Fin 1024 → Fin 100 → Fin 100)

/-- Columns 33..58 of the accumulated array are the per-field linear sums. -/
theorem lin_columns :
    extractStridedSlice S1024x26 ![0, 33] (accVec row Lr Er : FVec Ideal S1024x128 .f32) slices_S1024x128_S1024x26_0_33 = linVec row Lr := by
  funext j
  unfold extractStridedSlice
  show accVec row Lr Er _ = linVec row Lr j
  unfold accVec linVec
  congr 1
  rw [← accR_lin Lr Er row (j 0) (j 1)]
  congr 1
  exact Fin.ext (Nat.zero_add _)

/-- Columns 0..15 are the embedding sums. -/
theorem emb_columns :
    extractStridedSlice S1024x16 ![0, 0] (accVec row Lr Er : FVec Ideal S1024x128 .f32) slices_S1024x128_S1024x16_0_0 = embVec row Er := by
  funext j
  unfold extractStridedSlice
  show accVec row Lr Er _ = embVec row Er j
  unfold accVec embVec
  congr 1
  rw [← accR_emb Lr Er row (j 0) (j 1)]
  congr 1
  · exact Fin.ext (Nat.zero_add _)
  · exact Fin.ext (Nat.zero_add _)

/-- Columns 16..31 are the sums of squares. -/
theorem sq_columns :
    extractStridedSlice S1024x16 ![0, 16] (accVec row Lr Er : FVec Ideal S1024x128 .f32) slices_S1024x128_S1024x16_0_16 = sqVec row Er := by
  funext j
  unfold extractStridedSlice
  show accVec row Lr Er _ = sqVec row Er j
  unfold accVec sqVec
  congr 1
  rw [← accR_sq Lr Er row (j 0) (j 1)]
  congr 1
  exact Fin.ext (Nat.zero_add _)

/-- The kernel's value: its result buffer ends at the model's last lines of the three sums, the arguments unchanged. -/
theorem run
    (hL : ∀ (c : Dev nD) (f : Fin 26) (k : Fin 100), (m ((c : Thread nD τ).loc main_arg2) : S26x100x1.Idx → EReal) (ix3 f k (0 : Fin 1)) = ((Lr f k : ℝ) : EReal))
    (hE : ∀ (c : Dev nD) (f : Fin 26) (k : Fin 100) (e : Fin 16), (m ((c : Thread nD τ).loc main_arg3) : S26x100x16.Idx → EReal) (ix3 f k e) = ((Er f k e : ℝ) : EReal)) :
    θ_run defs (onTc (τ := τ) (main (F := Ideal))) ⟨m, fun _ => 0, ρ⟩ (fun r => ∀ c : Dev nD,
      r.2.mem ((c.tc : Thread nD τ).loc main_v38)
        = Cert.KernelIdeal.After.tail (F := Ideal) (linVec (rowsK m c) Lr) (embVec (rowsK m c) Er) (sqVec (rowsK m c) Er)
            (m ((c : Thread nD τ).loc main_arg1)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ⟨?_, ?_⟩) (run_main m ρ)
  · refine ((h c).2 main_v38 (Pipeline.mem_restRefs_of main_v38 (by decide) (by decide))).trans ?_
    rw [Cert.KernelIdeal.After.result_after m c, acc_final m c Lr Er (hL c) (hE c), lin_columns, emb_columns, sq_columns]
  · exact ⟨((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩

end Cert.KernelIdeal.Value

end
-- ==== Proof.ReferenceSums.lean ====
/-
  The reference, read down to its three sums. Its @main forms, for every batch row, field and position, the id in
  column 101 f + p, lets a negative id count from the end of the table, gathers (clamping to the table's rows) the
  linear weight and the embedding row the id selects, and sums: the linear weights per field over the 100 positions,
  the embedding rows and their squares over all 2600 (field, position) pairs. The rest of @main is the model's last
  lines applied to those three sums. When the two tables hold real numbers the three sums are the real sums of
  FmSpec under the reference's reading of an id.
-/
import proofs.«429955_j26156350832970_3_alg».proof.Proof.Gen.ReferenceIdeal.Read
import proofs.«429955_j26156350832970_3_alg».proof.Proof.FmSpec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Sums

open Idealize.ShloMosaic Idealize.ShloMosaic.TcCoe Idealize.ShloMosaic.ValueIdx Idealize.SL.Sem
open Cert.ReferenceIdeal Cert.ReferenceIdeal.Gen Cert.ReferenceIdeal.Read Cert.FmSpec

variable {F : FTy → Type} [FloatOps F]

/-- The last lines of the model, as one function of the three sums and three arguments. -/
def tail (sl : FVec F S1024x26 .f32) (s sos : FVec F S1024x16 .f32) (D : FVec F S1024x13 .f32) (W : FVec F S1x39 .f32)
    (B : FVec F S1 .f32) : FVec F S1024x1 .f32 :=
  addf
    (addf (Host.dotGeneral dot_S1024x39_S39x1_S1024x1_1_0_0_1_n_n none
        (concatenate S1024x39 1 [⟨S1024x26, sl⟩, ⟨S1024x13, D⟩] concatenates_S1024x26_S1024x13_S1024x39_d1)
        (transpose S39x1 [1, 0] W transposes_S1x39_S39x1_1_0))
      (broadcastInDim S1024x1 ![0, 1] bcast_S1x1_S1024x1_0_1 (broadcastInDim S1x1 ![1] bcast_S1_S1x1_1 B)))
    (mulf (broadcastInDim S1024x1 ![] bcast_S_S1024x1 (constant (F := F) S_ .f32 0x3F000000#32))
      (broadcastInDim S1024x1 ![0] bcast_S1024_S1024x1_0
        (Host.reduceAdd (subf (mulf s s) sos) (constant (F := F) S_ .f32 0x00000000#32) reducesTo_S1024x16_S1024_d1 h_S_)))

/-- The reference's result is the tail of its three sums. -/
theorem result_is_tail (x0 : IVec S1024x2626 32) (x1 : FVec F S1024x13 .f32) (x2 : FVec F S26x100x1 .f32)
    (x3 : FVec F S26x100x16 .f32) (x4 : FVec F S1x39 .f32) (x5 : FVec F S1 .f32) :
    val_main_v68 (F := F) x0 x1 x2 x3 x4 x5
      = tail (val_main_v36 (F := F) x0 x2) (val_main_v59 (F := F) x0 x3) (val_main_v61 (F := F) x0 x3) x1 x4 x5 := by
  unfold val_main_v68 val_main_v42 val_main_v67 val_main_v39 val_main_v41 val_main_v40 val_main_v37 val_main_v38
    val_main_v66 val_main_v65 val_main_v64 val_main_v63 val_main_v62 val_main_cst_14 val_main_cst_13 tail
  rfl

/-! ## Words

A natural number below 2^31 is, as a 32-bit word, a non-negative signed integer; the reference's reading of an id
(a negative id counts from the end of the 100-row table) is a select on the sign. -/

/-- A natural number below 2^31 reads back as itself from its 32-bit word. -/
theorem toInt_ofNat_small (n : Nat) (h : n < 2147483648) : (BitVec.ofNat 32 n).toInt = (n : Int) := by
  have h1 : (BitVec.ofNat 32 n).toNat = n := by rw [BitVec.toNat_ofNat]; omega
  rw [BitVec.toInt_eq_toNat_of_lt (by rw [h1]; omega), h1]

/-- Such a word is not below zero in the signed order. -/
theorem slt_ofNat_zero (n : Nat) (h : n < 2147483648) : IntOp.cmpi .slt (BitVec.ofNat 32 n) 0#32 = 0#1 := by
  unfold IntOp.cmpi
  simp only [BitVec.slt, toInt_ofNat_small n h]
  have h0 : ¬ ((n : Int) < 0) := by omega
  simp [h0]

/-- The wrap "select (x < 0) (x + m) x" leaves a small natural number alone. -/
theorem select_ofNat (n : Nat) (h : n < 2147483648) (m : BitVec 32) :
    Scalar.select (IntOp.cmpi .slt (BitVec.ofNat 32 n) 0#32) (IntOp.addi (BitVec.ofNat 32 n) m) (BitVec.ofNat 32 n)
      = BitVec.ofNat 32 n := by
  rw [slt_ofNat_zero n h, select_zero]

/-- An id with a negative one counted from the end of the 100-row table. -/
def wrap (w : BitVec 32) : BitVec 32 := if w.toInt < 0 then w + 100#32 else w

/-- The program's select on the sign of an id is that wrap. -/
theorem select_wrap (w : BitVec 32) :
    Scalar.select (IntOp.cmpi .slt w 0#32) (IntOp.addi w 100#32) w = wrap w := by
  unfold IntOp.cmpi IntOp.addi Scalar.select wrap
  by_cases h : w.toInt < 0
  · simp [BitVec.slt, h]
  · simp [BitVec.slt, h]

/-- A start index read signed and clamped into the table's rows is the row the wrapped id names. -/
theorem clamp_wrap (w : BitVec 32) (h : min (wrap w).toInt.toNat 99 < 100) :
    (⟨min (wrap w).toInt.toNat 99, h⟩ : Fin 100) = rowR w := by
  refine Fin.ext ?_
  show min (wrap w).toInt.toNat 99 = (min 99 (max 0 (wrap w).toInt)).toNat
  generalize (wrap w).toInt = z
  omega

/-! ## Sums -/

/-- The coercion of the reals into the extended reals goes through a finite sum. -/
theorem coe_sum {ι : Type} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A (field, position) pair as its place 100 f + p among the 2600. -/
def pairEquiv : Fin 26 × Fin 100 ≃ Fin 2600 where
  toFun q := ⟨q.1.val * 100 + q.2.val, by have := q.1.isLt; have := q.2.isLt; omega⟩
  invFun k := (⟨k.val / 100, by have := k.isLt; omega⟩, ⟨k.val % 100, by omega⟩)
  left_inv q := by
    obtain ⟨a, b⟩ := q
    have := a.isLt; have := b.isLt
    ext <;> simp <;> omega
  right_inv k := by
    ext; simp; omega

/-- A sum over the 2600 places is the double sum over fields and positions. -/
theorem sum_2600 {M : Type} [AddCommMonoid M] (g : Fin 2600 → M) :
    ∑ k : Fin 2600, g k
      = ∑ f : Fin 26, ∑ p : Fin 100, g ⟨f.val * 100 + p.val, by have := f.isLt; have := p.isLt; omega⟩ := by
  rw [← Equiv.sum_comp pairEquiv g, Fintype.sum_prod_type]
  rfl

/-! ## The gathers and the index vectors at an index -/

/-- A gather reads its operand at any index whose coordinates are, axis by axis, the clamped start plus the batching
    and offset coordinates. -/
theorem gather_apply_of {α : Type} {w : Nat} {s si t : Shape} (d : GatherDims s si t) (x : s.Idx → α) (idx : IVec si w)
    (j : t.Idx) (i : s.Idx) (h : ∀ a, d.start j idx a + d.batchCoord j a + d.offCoord j a = (i a).val) :
    Host.gather d x idx j = x i := by
  unfold Host.gather
  exact congrArg x (funext fun a => Fin.ext (h a))

/-- The column gather read at (b, f, p): row b of the operand, at the column the start index names, clamped. -/
theorem gather15_apply {α : Type} {w : Nat} (x : S1024x2626.Idx → α) (idx : IVec S26x100x1 w)
    (b : Fin 1024) (f : Fin 26) (p : Fin 100) :
    Host.gather gather_S1024x2626_S26x100x1_S1024x26x100_0_1_n_n_1_2_10241 x idx (ix3 b f p)
      = x (ix2 b ⟨min (idx (ix3 f p (0 : Fin 1))).toInt.toNat 2625, by omega⟩) := by
  refine gather_apply_of _ x idx _ _ fun a => ?_
  match a with
  | ⟨0, _⟩ =>
    show GatherDims.start _ (ix3 b f p) idx 0 + GatherDims.batchCoord _ (ix3 b f p) 0 + GatherDims.offCoord _ (ix3 b f p) 0 = b.val
    rw [GatherDims.batchCoord_eq_zero _ _ _ (by decide)]
    unfold GatherDims.start GatherDims.offCoord
    rw [dif_neg (by decide), dif_pos (by decide)]
    simp only [Nat.zero_add, Nat.add_zero]
    rfl
  | ⟨1, _⟩ =>
    show GatherDims.start _ (ix3 b f p) idx 1 + GatherDims.batchCoord _ (ix3 b f p) 1 + GatherDims.offCoord _ (ix3 b f p) 1 = _
    rw [GatherDims.batchCoord_eq_zero _ _ _ (by decide), GatherDims.offCoord_eq_zero _ _ _ (by decide)]
    simp only [Nat.add_zero]
    unfold GatherDims.start
    rw [dif_pos (by decide)]
    have hsi : GatherDims.siIdx gather_S1024x2626_S26x100x1_S1024x26x100_0_1_n_n_1_2_10241 (ix3 b f p)
        ⟨List.idxOf (1 : Fin S1024x2626.rank) gather_S1024x2626_S26x100x1_S1024x26x100_0_1_n_n_1_2_10241.startIndexMap,
          List.idxOf_lt_length_iff.2 (by decide)⟩ = ix3 f p (0 : Fin 1) := by
      funext c; refine Fin.ext ?_
      match c with
      | ⟨0, _⟩ => rfl
      | ⟨1, _⟩ => rfl
      | ⟨2, _⟩ => rfl
    rw [hsi]
    rfl
/-- The linear-weight gather read at (b, f, p): the operand at the three start-index components, each clamped. -/
theorem gather35_apply {α : Type} {w : Nat} (x : S26x100x1.Idx → α) (idx : IVec S1024x26x100x3 w)
    (b : Fin 1024) (f : Fin 26) (p : Fin 100) :
    Host.gather gather_S26x100x1_S1024x26x100x3_S1024x26x100_n_012_n_n_012_3_111 x idx (ix3 b f p)
      = x (ix3 (⟨min (idx (ix4 b f p (0 : Fin 3))).toInt.toNat 25, by omega⟩ : Fin 26)
            (⟨min (idx (ix4 b f p (1 : Fin 3))).toInt.toNat 99, by omega⟩ : Fin 100)
            (⟨min (idx (ix4 b f p (2 : Fin 3))).toInt.toNat 0, by omega⟩ : Fin 1)) := by
  refine gather_apply_of _ x idx _ _ fun a => ?_
  match a with
  | ⟨0, _⟩ =>
    show GatherDims.start _ (ix3 b f p) idx 0 + GatherDims.batchCoord _ (ix3 b f p) 0 + GatherDims.offCoord _ (ix3 b f p) 0 = _
    rw [GatherDims.batchCoord_eq_zero _ _ _ (by decide), GatherDims.offCoord_eq_zero _ _ _ (by decide)]
    simp only [Nat.add_zero]
    unfold GatherDims.start
    rw [dif_pos (by decide)]
    have hsi : GatherDims.siIdx gather_S26x100x1_S1024x26x100x3_S1024x26x100_n_012_n_n_012_3_111 (ix3 b f p)
        ⟨List.idxOf (0 : Fin S26x100x1.rank) gather_S26x100x1_S1024x26x100x3_S1024x26x100_n_012_n_n_012_3_111.startIndexMap,
          List.idxOf_lt_length_iff.2 (by decide)⟩ = ix4 b f p (0 : Fin 3) := by
      funext c; refine Fin.ext ?_
      match c with
      | ⟨0, _⟩ => rfl
      | ⟨1, _⟩ => rfl
      | ⟨2, _⟩ => rfl
      | ⟨3, _⟩ => rfl
    rw [hsi]
    rfl
  | ⟨1, _⟩ =>
    show GatherDims.start _ (ix3 b f p) idx 1 + GatherDims.batchCoord _ (ix3 b f p) 1 + GatherDims.offCoord _ (ix3 b f p) 1 = _
    rw [GatherDims.batchCoord_eq_zero _ _ _ (by decide), GatherDims.offCoord_eq_zero _ _ _ (by decide)]
    simp only [Nat.add_zero]
    unfold GatherDims.start
    rw [dif_pos (by decide)]
    have hsi : GatherDims.siIdx gather_S26x100x1_S1024x26x100x3_S1024x26x100_n_012_n_n_012_3_111 (ix3 b f p)
        ⟨List.idxOf (1 : Fin S26x100x1.rank) gather_S26x100x1_S1024x26x100x3_S1024x26x100_n_012_n_n_012_3_111.startIndexMap,
          List.idxOf_lt_length_iff.2 (by decide)⟩ = ix4 b f p (1 : Fin 3) := by
      funext c; refine Fin.ext ?_
      match c with
      | ⟨0, _⟩ => rfl
      | ⟨1, _⟩ => rfl
      | ⟨2, _⟩ => rfl
      | ⟨3, _⟩ => rfl
    rw [hsi]
    rfl
  | ⟨2, _⟩ =>
    show GatherDims.start _ (ix3 b f p) idx 2 + GatherDims.batchCoord _ (ix3 b f p) 2 + GatherDims.offCoord _ (ix3 b f p) 2 = _
    rw [GatherDims.batchCoord_eq_zero _ _ _ (by decide), GatherDims.offCoord_eq_zero _ _ _ (by decide)]
    simp only [Nat.add_zero]
    unfold GatherDims.start
    rw [dif_pos (by decide)]
    have hsi : GatherDims.siIdx gather_S26x100x1_S1024x26x100x3_S1024x26x100_n_012_n_n_012_3_111 (ix3 b f p)
        ⟨List.idxOf (2 : Fin S26x100x1.rank) gather_S26x100x1_S1024x26x100x3_S1024x26x100_n_012_n_n_012_3_111.startIndexMap,
          List.idxOf_lt_length_iff.2 (by decide)⟩ = ix4 b f p (2 : Fin 3) := by
      funext c; refine Fin.ext ?_
      match c with
      | ⟨0, _⟩ => rfl
      | ⟨1, _⟩ => rfl
      | ⟨2, _⟩ => rfl
      | ⟨3, _⟩ => rfl
    rw [hsi]
    rfl

/-- The embedding gather read at (b, f, p, e): the operand's row at the two clamped start-index components, entry e. -/
theorem gather57_apply {α : Type} {w : Nat} (x : S26x100x16.Idx → α) (idx : IVec S1024x26x100x2 w)
    (b : Fin 1024) (f : Fin 26) (p : Fin 100) (e : Fin 16) :
    Host.gather gather_S26x100x16_S1024x26x100x2_S1024x26x100x16_3_01_n_n_01_3_1116 x idx (ix4 b f p e)
      = x (ix3 (⟨min (idx (ix4 b f p (0 : Fin 2))).toInt.toNat 25, by omega⟩ : Fin 26)
            (⟨min (idx (ix4 b f p (1 : Fin 2))).toInt.toNat 99, by omega⟩ : Fin 100) e) := by
  refine gather_apply_of _ x idx _ _ fun a => ?_
  match a with
  | ⟨0, _⟩ =>
    show GatherDims.start _ (ix4 b f p e) idx 0 + GatherDims.batchCoord _ (ix4 b f p e) 0 + GatherDims.offCoord _ (ix4 b f p e) 0 = _
    rw [GatherDims.batchCoord_eq_zero _ _ _ (by decide), GatherDims.offCoord_eq_zero _ _ _ (by decide)]
    simp only [Nat.add_zero]
    unfold GatherDims.start
    rw [dif_pos (by decide)]
    have hsi : GatherDims.siIdx gather_S26x100x16_S1024x26x100x2_S1024x26x100x16_3_01_n_n_01_3_1116 (ix4 b f p e)
        ⟨List.idxOf (0 : Fin S26x100x16.rank) gather_S26x100x16_S1024x26x100x2_S1024x26x100x16_3_01_n_n_01_3_1116.startIndexMap,
          List.idxOf_lt_length_iff.2 (by decide)⟩ = ix4 b f p (0 : Fin 2) := by
      funext c; refine Fin.ext ?_
      match c with
      | ⟨0, _⟩ => rfl
      | ⟨1, _⟩ => rfl
      | ⟨2, _⟩ => rfl
      | ⟨3, _⟩ => rfl
    rw [hsi]
    rfl
  | ⟨1, _⟩ =>
    show GatherDims.start _ (ix4 b f p e) idx 1 + GatherDims.batchCoord _ (ix4 b f p e) 1 + GatherDims.offCoord _ (ix4 b f p e) 1 = _
    rw [GatherDims.batchCoord_eq_zero _ _ _ (by decide), GatherDims.offCoord_eq_zero _ _ _ (by decide)]
    simp only [Nat.add_zero]
    unfold GatherDims.start
    rw [dif_pos (by decide)]
    have hsi : GatherDims.siIdx gather_S26x100x16_S1024x26x100x2_S1024x26x100x16_3_01_n_n_01_3_1116 (ix4 b f p e)
        ⟨List.idxOf (1 : Fin S26x100x16.rank) gather_S26x100x16_S1024x26x100x2_S1024x26x100x16_3_01_n_n_01_3_1116.startIndexMap,
          List.idxOf_lt_length_iff.2 (by decide)⟩ = ix4 b f p (1 : Fin 2) := by
      funext c; refine Fin.ext ?_
      match c with
      | ⟨0, _⟩ => rfl
      | ⟨1, _⟩ => rfl
      | ⟨2, _⟩ => rfl
      | ⟨3, _⟩ => rfl
    rw [hsi]
    rfl
  | ⟨2, _⟩ =>
    show GatherDims.start _ (ix4 b f p e) idx 2 + GatherDims.batchCoord _ (ix4 b f p e) 2 + GatherDims.offCoord _ (ix4 b f p e) 2 = e.val
    rw [GatherDims.batchCoord_eq_zero _ _ _ (by decide)]
    unfold GatherDims.start GatherDims.offCoord
    rw [dif_neg (by decide), dif_pos (by decide)]
    simp only [Nat.zero_add, Nat.add_zero]
    rfl

variable {α : Type}

/-- The three-piece index vector read at component c of (b, f, p): piece c at (b, f, p, 0). -/
theorem concat3_apply (y0 y1 y2 : S1024x26x100x1.Idx → α) (b : Fin 1024) (f : Fin 26) (p : Fin 100) :
    concatenate S1024x26x100x3 3 [⟨S1024x26x100x1, y0⟩, ⟨S1024x26x100x1, y1⟩, ⟨S1024x26x100x1, y2⟩]
        concatenates_S1024x26x100x1_S1024x26x100x1_S1024x26x100x1_S1024x26x100x3_d3 (ix4 b f p (0 : Fin 3)) = y0 (ix4 b f p (0 : Fin 1))
    ∧ concatenate S1024x26x100x3 3 [⟨S1024x26x100x1, y0⟩, ⟨S1024x26x100x1, y1⟩, ⟨S1024x26x100x1, y2⟩]
        concatenates_S1024x26x100x1_S1024x26x100x1_S1024x26x100x1_S1024x26x100x3_d3 (ix4 b f p (1 : Fin 3)) = y1 (ix4 b f p (0 : Fin 1))
    ∧ concatenate S1024x26x100x3 3 [⟨S1024x26x100x1, y0⟩, ⟨S1024x26x100x1, y1⟩, ⟨S1024x26x100x1, y2⟩]
        concatenates_S1024x26x100x1_S1024x26x100x1_S1024x26x100x1_S1024x26x100x3_d3 (ix4 b f p (2 : Fin 3)) = y2 (ix4 b f p (0 : Fin 1)) := by
  have hi : ∀ (c : Fin 3) (b' : Fin S1024x26x100x1.rank), b'.cast (rfl : S1024x26x100x1.rank = S1024x26x100x3.rank) ≠ (3 : Fin S1024x26x100x3.rank) →
      ((ix4 b f p (0 : Fin 1) : S1024x26x100x1.Idx) b').val = ((ix4 b f p c : S1024x26x100x3.Idx) (b'.cast rfl)).val := by
    intro c b' hb'
    match b' with
    | ⟨0, _⟩ => rfl
    | ⟨1, _⟩ => rfl
    | ⟨2, _⟩ => rfl
    | ⟨3, _⟩ => exact absurd rfl hb'
  refine ⟨?_, ?_, ?_⟩
  · exact concatenate_apply_piece (3 : Fin S1024x26x100x3.rank) _ _ (ix4 b f p (0 : Fin 3)) 0 (by simp) S1024x26x100x1 y0 rfl rfl 0 rfl
      (ix4 b f p (0 : Fin 1)) (hi 0) rfl
  · exact concatenate_apply_piece (3 : Fin S1024x26x100x3.rank) _ _ (ix4 b f p (1 : Fin 3)) 1 (by simp) S1024x26x100x1 y1 rfl rfl 1 rfl
      (ix4 b f p (0 : Fin 1)) (hi 1) rfl
  · exact concatenate_apply_piece (3 : Fin S1024x26x100x3.rank) _ _ (ix4 b f p (2 : Fin 3)) 2 (by simp) S1024x26x100x1 y2 rfl rfl 2 rfl
      (ix4 b f p (0 : Fin 1)) (hi 2) rfl

/-- The two-piece index vector read at component c of (b, f, p). -/
theorem concat2_apply (y0 y1 : S1024x26x100x1.Idx → α) (b : Fin 1024) (f : Fin 26) (p : Fin 100) :
    concatenate S1024x26x100x2 3 [⟨S1024x26x100x1, y0⟩, ⟨S1024x26x100x1, y1⟩]
        concatenates_S1024x26x100x1_S1024x26x100x1_S1024x26x100x2_d3 (ix4 b f p (0 : Fin 2)) = y0 (ix4 b f p (0 : Fin 1))
    ∧ concatenate S1024x26x100x2 3 [⟨S1024x26x100x1, y0⟩, ⟨S1024x26x100x1, y1⟩]
        concatenates_S1024x26x100x1_S1024x26x100x1_S1024x26x100x2_d3 (ix4 b f p (1 : Fin 2)) = y1 (ix4 b f p (0 : Fin 1)) := by
  have hi : ∀ (c : Fin 2) (b' : Fin S1024x26x100x1.rank), b'.cast (rfl : S1024x26x100x1.rank = S1024x26x100x2.rank) ≠ (3 : Fin S1024x26x100x2.rank) →
      ((ix4 b f p (0 : Fin 1) : S1024x26x100x1.Idx) b').val = ((ix4 b f p c : S1024x26x100x2.Idx) (b'.cast rfl)).val := by
    intro c b' hb'
    match b' with
    | ⟨0, _⟩ => rfl
    | ⟨1, _⟩ => rfl
    | ⟨2, _⟩ => rfl
    | ⟨3, _⟩ => exact absurd rfl hb'
  refine ⟨?_, ?_⟩
  · exact concatenate_apply_piece (3 : Fin S1024x26x100x2.rank) _ _ (ix4 b f p (0 : Fin 2)) 0 (by simp) S1024x26x100x1 y0 rfl rfl 0 rfl
      (ix4 b f p (0 : Fin 1)) (hi 0) rfl
  · exact concatenate_apply_piece (3 : Fin S1024x26x100x2.rank) _ _ (ix4 b f p (1 : Fin 2)) 1 (by simp) S1024x26x100x1 y1 rfl rfl 1 rfl
      (ix4 b f p (0 : Fin 1)) (hi 1) rfl

/-! ## The integer stages at an index

The column index 101 f + p, the field number and the wrapped id, each read from the program's stages. -/

/-- The column stage at (f, p) is the word 101 f + p: the wrap of a negative column never fires. -/
theorem col_apply (f : Fin 26) (p : Fin 100) :
    val_main_v13 (F := F) (ix2 f p) = BitVec.ofNat 32 (f.val * 101 + p.val) := by
  have h8 : val_main_v8 (F := F) (ix2 f p) = BitVec.ofNat 32 (f.val * 101 + p.val) := by
    rw [val_main_v8_apply, val_main_v6_apply, val_main_v3_apply, val_main_v2_apply, val_main_v0_apply, val_main_v1_apply,
      val_main_c_apply, val_main_v7_apply, val_main_v5_apply, val_main_v4_apply]
    show IntOp.addi (IntOp.muli (BitVec.ofNat 32 f.val) (BitVec.ofNat 32 101)) (BitVec.ofNat 32 p.val) = _
    unfold IntOp.addi IntOp.muli
    rw [← BitVec.ofNat_mul, ← BitVec.ofNat_add]
  have hf := f.isLt
  have hp := p.isLt
  rw [val_main_v13_apply, val_main_v10_apply, val_main_v12_apply, h8, val_main_v9_apply, val_main_c_0_apply]
  exact select_ofNat _ (by omega) _

/-- The start indices of the column gather at (f, p, 0). -/
theorem colvec_apply (f : Fin 26) (p : Fin 100) :
    val_main_v14 (F := F) (ix3 f p (0 : Fin 1)) = BitVec.ofNat 32 (f.val * 101 + p.val) := by
  rw [val_main_v14_apply]
  have hi : idx_main_v14 (ix3 f p (0 : Fin 1)) = ix2 f p := by
    funext a
    match a with
    | ⟨0, _⟩ => rfl
    | ⟨1, _⟩ => rfl
  rw [hi]
  exact col_apply f p

/-- The id of field f, position p, in batch row b: the argument's column 101 f + p. -/
theorem id_apply (x0 : IVec S1024x2626 32) (b : Fin 1024) (f : Fin 26) (p : Fin 100) :
    val_main_v15 (F := F) x0 (ix3 b f p) = x0 (ix2 b (colOf f p)) := by
  unfold val_main_v15
  refine (gather15_apply x0 (val_main_v14 (F := F)) b f p).trans ?_
  have hc : ∀ h, (⟨min (val_main_v14 (F := F) (ix3 f p (0 : Fin 1))).toInt.toNat 2625, h⟩ : Fin 2626) = colOf f p := by
    intro h
    refine Fin.ext ?_
    show min (val_main_v14 (F := F) (ix3 f p (0 : Fin 1))).toInt.toNat 2625 = f.val * 101 + p.val
    have hf := f.isLt
    have hp := p.isLt
    rw [colvec_apply, toInt_ofNat_small _ (by omega)]
    omega
  rw [hc]

/-- The wrapped id (the first copy of that stage). -/
theorem wrapA_apply (x0 : IVec S1024x2626 32) (b : Fin 1024) (f : Fin 26) (p : Fin 100) :
    val_main_v27 (F := F) x0 (ix3 b f p) = wrap (x0 (ix2 b (colOf f p))) := by
  rw [val_main_v27_apply, val_main_v24_apply, val_main_v26_apply, id_apply, val_main_v23_apply, val_main_c_4_apply,
    val_main_v25_apply, val_main_c_5_apply]
  exact select_wrap _

/-- The wrapped id (the second copy). -/
theorem wrapB_apply (x0 : IVec S1024x2626 32) (b : Fin 1024) (f : Fin 26) (p : Fin 100) :
    val_main_v52 (F := F) x0 (ix3 b f p) = wrap (x0 (ix2 b (colOf f p))) := by
  rw [val_main_v52_apply, val_main_v49_apply, val_main_v51_apply, id_apply, val_main_v48_apply, val_main_c_9_apply,
    val_main_v50_apply, val_main_c_10_apply]
  exact select_wrap _

/-- The field iota at (0, f, 0). -/
theorem fieldIota_apply (f : Fin 26) :
    val_main_v17 (F := F) (ix3 (0 : Fin 1) f (0 : Fin 1)) = BitVec.ofNat 32 f.val := by
  rw [val_main_v17_apply, val_main_v16_apply]

/-- The field number (first copy): the wrap of a negative field never fires. -/
theorem fieldA_apply (f : Fin 26) :
    val_main_v22 (F := F) (ix3 (0 : Fin 1) f (0 : Fin 1)) = BitVec.ofNat 32 f.val := by
  have hf := f.isLt
  rw [val_main_v22_apply, val_main_v19_apply, val_main_v21_apply, fieldIota_apply, val_main_v18_apply, val_main_c_2_apply]
  exact select_ofNat _ (by omega) _

/-- The field number (second copy). -/
theorem fieldB_apply (f : Fin 26) :
    val_main_v47 (F := F) (ix3 (0 : Fin 1) f (0 : Fin 1)) = BitVec.ofNat 32 f.val := by
  have hf := f.isLt
  rw [val_main_v47_apply, val_main_v44_apply, val_main_v46_apply, fieldIota_apply, val_main_v43_apply, val_main_c_7_apply]
  exact select_ofNat _ (by omega) _

/-- The three components of the linear gather's start index at (b, f, p): the field, the wrapped id, zero. -/
theorem linIdx_apply (x0 : IVec S1024x2626 32) (b : Fin 1024) (f : Fin 26) (p : Fin 100) :
    val_main_v34 (F := F) x0 (ix4 b f p (0 : Fin 3)) = BitVec.ofNat 32 f.val
    ∧ val_main_v34 (F := F) x0 (ix4 b f p (1 : Fin 3)) = wrap (x0 (ix2 b (colOf f p)))
    ∧ val_main_v34 (F := F) x0 (ix4 b f p (2 : Fin 3)) = 0#32 := by
  obtain ⟨h0, h1, h2⟩ := concat3_apply (val_main_v31 (F := F)) (val_main_v32 (F := F) x0) (val_main_v33 (F := F)) b f p
  have e31 : idx_main_v31 (ix4 b f p (0 : Fin 1)) = ix3 b f p := by
    funext a
    match a with
    | ⟨0, _⟩ => rfl
    | ⟨1, _⟩ => rfl
    | ⟨2, _⟩ => rfl
  have e32 : idx_main_v32 (ix4 b f p (0 : Fin 1)) = ix3 b f p := by
    funext a
    match a with
    | ⟨0, _⟩ => rfl
    | ⟨1, _⟩ => rfl
    | ⟨2, _⟩ => rfl
  have e28 : idx_main_v28 (ix3 b f p) = ix3 (0 : Fin 1) f (0 : Fin 1) := by
    funext a
    match a with
    | ⟨0, _⟩ => rfl
    | ⟨1, _⟩ => rfl
    | ⟨2, _⟩ => rfl
  refine ⟨?_, ?_, ?_⟩
  · unfold val_main_v34
    rw [h0, val_main_v31_apply, e31, val_main_v28_apply, e28]
    exact fieldA_apply f
  · unfold val_main_v34
    rw [h1, val_main_v32_apply, e32]
    exact wrapA_apply x0 b f p
  · unfold val_main_v34
    rw [h2, val_main_v33_apply, val_main_v30_apply, val_main_v29_apply, val_main_c_6_apply]

/-- The two components of the embedding gather's start index at (b, f, p): the field, the wrapped id. -/
theorem embIdx_apply (x0 : IVec S1024x2626 32) (b : Fin 1024) (f : Fin 26) (p : Fin 100) :
    val_main_v56 (F := F) x0 (ix4 b f p (0 : Fin 2)) = BitVec.ofNat 32 f.val
    ∧ val_main_v56 (F := F) x0 (ix4 b f p (1 : Fin 2)) = wrap (x0 (ix2 b (colOf f p))) := by
  obtain ⟨h0, h1⟩ := concat2_apply (val_main_v54 (F := F)) (val_main_v55 (F := F) x0) b f p
  have e54 : idx_main_v54 (ix4 b f p (0 : Fin 1)) = ix3 b f p := by
    funext a
    match a with
    | ⟨0, _⟩ => rfl
    | ⟨1, _⟩ => rfl
    | ⟨2, _⟩ => rfl
  have e55 : idx_main_v55 (ix4 b f p (0 : Fin 1)) = ix3 b f p := by
    funext a
    match a with
    | ⟨0, _⟩ => rfl
    | ⟨1, _⟩ => rfl
    | ⟨2, _⟩ => rfl
  have e53 : idx_main_v53 (ix3 b f p) = ix3 (0 : Fin 1) f (0 : Fin 1) := by
    funext a
    match a with
    | ⟨0, _⟩ => rfl
    | ⟨1, _⟩ => rfl
    | ⟨2, _⟩ => rfl
  refine ⟨?_, ?_⟩
  · unfold val_main_v56
    rw [h0, val_main_v54_apply, e54, val_main_v53_apply, e53]
    exact fieldB_apply f
  · unfold val_main_v56
    rw [h1, val_main_v55_apply, e55]
    exact wrapB_apply x0 b f p

/-- A field number read signed and clamped into the 26 fields is the field. -/
theorem clamp_field (f : Fin 26) (h : min (BitVec.ofNat 32 f.val).toInt.toNat 25 < 26) :
    (⟨min (BitVec.ofNat 32 f.val).toInt.toNat 25, h⟩ : Fin 26) = f := by
  refine Fin.ext ?_
  show min (BitVec.ofNat 32 f.val).toInt.toNat 25 = f.val
  have hf := f.isLt
  rw [toInt_ofNat_small _ (by omega)]
  omega

/-! ## The gathered values at an index -/

/-- The gathered linear weight at (b, f, p): the table's entry in field f, at the row the id selects. -/
theorem linGather_apply (x0 : IVec S1024x2626 32) (x2 : FVec F S26x100x1 .f32) (b : Fin 1024) (f : Fin 26) (p : Fin 100) :
    val_main_v35 (F := F) x0 x2 (ix3 b f p) = x2 (ix3 f (rowR (x0 (ix2 b (colOf f p)))) (0 : Fin 1)) := by
  unfold val_main_v35
  refine (gather35_apply x2 (val_main_v34 (F := F) x0) b f p).trans ?_
  obtain ⟨h0, h1, h2⟩ := linIdx_apply (F := F) x0 b f p
  have key : ∀ (u v w : BitVec 32) (hu : u = BitVec.ofNat 32 f.val) (hv : v = wrap (x0 (ix2 b (colOf f p)))) (hw : w = 0#32)
      (a1 : min u.toInt.toNat 25 < 26) (a2 : min v.toInt.toNat 99 < 100) (a3 : min w.toInt.toNat 0 < 1),
      x2 (ix3 (⟨min u.toInt.toNat 25, a1⟩ : Fin 26) (⟨min v.toInt.toNat 99, a2⟩ : Fin 100) (⟨min w.toInt.toNat 0, a3⟩ : Fin 1))
        = x2 (ix3 f (rowR (x0 (ix2 b (colOf f p)))) (0 : Fin 1)) := by
    intro u v w hu hv hw a1 a2 a3
    subst hu hv hw
    rw [clamp_field f a1, clamp_wrap _ a2]
    rfl
  exact key _ _ _ h0 h1 h2 _ _ _

/-- The gathered embedding entry at (b, f, p, e): the table's row in field f the id selects, entry e. -/
theorem embGather_apply (x0 : IVec S1024x2626 32) (x3 : FVec F S26x100x16 .f32) (b : Fin 1024) (f : Fin 26) (p : Fin 100)
    (e : Fin 16) :
    val_main_v57 (F := F) x0 x3 (ix4 b f p e) = x3 (ix3 f (rowR (x0 (ix2 b (colOf f p)))) e) := by
  unfold val_main_v57
  refine (gather57_apply x3 (val_main_v56 (F := F) x0) b f p e).trans ?_
  obtain ⟨h0, h1⟩ := embIdx_apply (F := F) x0 b f p
  have key : ∀ (u v : BitVec 32) (hu : u = BitVec.ofNat 32 f.val) (hv : v = wrap (x0 (ix2 b (colOf f p))))
      (a1 : min u.toInt.toNat 25 < 26) (a2 : min v.toInt.toNat 99 < 100),
      x3 (ix3 (⟨min u.toInt.toNat 25, a1⟩ : Fin 26) (⟨min v.toInt.toNat 99, a2⟩ : Fin 100) e)
        = x3 (ix3 f (rowR (x0 (ix2 b (colOf f p)))) e) := by
    intro u v hu hv a1 a2
    subst hu hv
    rw [clamp_field f a1, clamp_wrap _ a2]
  exact key _ _ h0 h1 _ _

/-- The reshaped gather at (b, 100 f + p, e). -/
theorem embFlat_apply (x0 : IVec S1024x2626 32) (x3 : FVec F S26x100x16 .f32) (b : Fin 1024) (f : Fin 26) (p : Fin 100)
    (e : Fin 16) (h : f.val * 100 + p.val < 2600) :
    val_main_v58 (F := F) x0 x3 (ix3 b (⟨f.val * 100 + p.val, h⟩ : Fin 2600) e)
      = x3 (ix3 f (rowR (x0 (ix2 b (colOf f p)))) e) := by
  rw [val_main_v58_apply]
  have hi : idx_main_v58 (ix3 b (⟨f.val * 100 + p.val, h⟩ : Fin 2600) e) = ix4 b f p e := by
    have hb := b.isLt
    have hf := f.isLt
    have hp := p.isLt
    have he := e.isLt
    funext a
    refine Fin.ext ?_
    match a with
    | ⟨0, _⟩ =>
      show ((b.val * 2600 + (f.val * 100 + p.val)) * 16 + e.val) / 41600 = b.val
      omega
    | ⟨1, _⟩ =>
      show ((b.val * 2600 + (f.val * 100 + p.val)) * 16 + e.val) / 1600 % 26 = f.val
      omega
    | ⟨2, _⟩ =>
      show ((b.val * 2600 + (f.val * 100 + p.val)) * 16 + e.val) / 16 % 100 = p.val
      omega
    | ⟨3, _⟩ =>
      show ((b.val * 2600 + (f.val * 100 + p.val)) * 16 + e.val) % 16 = e.val
      omega
  rw [hi]
  exact embGather_apply x0 x3 b f p e

/-! ## The three sums -/

/-- The per-field sums of gathered linear weights are the real sums under the reference's reading of an id. -/
theorem lin_sums (x0 : IVec S1024x2626 32) (x2 : FVec Ideal S26x100x1 .f32) (Lr : Fin 26 → Fin 100 → ℝ)
    (hL : ∀ (f : Fin 26) (k : Fin 100), x2 (ix3 f k (0 : Fin 1)) = ((Lr f k : ℝ) : EReal)) :
    val_main_v36 (F := Ideal) x0 x2 = linVec (rowsOf rowR x0) Lr := by
  funext j
  obtain ⟨b, f, rfl⟩ : ∃ (b : Fin 1024) (f : Fin 26), j = ix2 b f := ⟨j 0, j 1, eq_ix2 j⟩
  rw [val_main_v36_apply]
  show Ideal.ofBits .f32 0x00000000#32 + _ = ((∑ p : Fin 100, Lr f (rowR (x0 (ix2 b (colOf f p)))) : ℝ) : EReal)
  rw [Ideal.ofBits_zero_f32, zero_add, coe_sum]
  refine Finset.sum_congr rfl fun k _ => ?_
  have hi : idx_main_v36 (ix2 b f) k = ix3 b f k := by
    funext a
    match a with
    | ⟨0, _⟩ => rfl
    | ⟨1, _⟩ => rfl
    | ⟨2, _⟩ => rfl
  rw [hi, linGather_apply, hL]

/-- The sums of gathered embedding rows. -/
theorem emb_sums (x0 : IVec S1024x2626 32) (x3 : FVec Ideal S26x100x16 .f32) (Er : Fin 26 → Fin 100 → Fin 16 → ℝ)
    (hE : ∀ (f : Fin 26) (k : Fin 100) (e : Fin 16), x3 (ix3 f k e) = ((Er f k e : ℝ) : EReal)) :
    val_main_v59 (F := Ideal) x0 x3 = embVec (rowsOf rowR x0) Er := by
  funext j
  obtain ⟨b, e, rfl⟩ : ∃ (b : Fin 1024) (e : Fin 16), j = ix2 b e := ⟨j 0, j 1, eq_ix2 j⟩
  rw [val_main_v59_apply]
  show Ideal.ofBits .f32 0x00000000#32 + _
    = ((∑ f : Fin 26, ∑ p : Fin 100, Er f (rowR (x0 (ix2 b (colOf f p)))) e : ℝ) : EReal)
  rw [Ideal.ofBits_zero_f32, zero_add, sum_2600, coe_sum]
  refine Finset.sum_congr rfl fun f _ => ?_
  rw [coe_sum]
  refine Finset.sum_congr rfl fun p _ => ?_
  have hi : ∀ h, idx_main_v59 (ix2 b e) (⟨f.val * 100 + p.val, h⟩ : Fin 2600)
      = ix3 b (⟨f.val * 100 + p.val, h⟩ : Fin 2600) e := by
    intro h
    funext a
    match a with
    | ⟨0, _⟩ => rfl
    | ⟨1, _⟩ => rfl
    | ⟨2, _⟩ => rfl
  rw [hi, embFlat_apply, hE]

/-- The sums of the squares of gathered embedding rows. -/
theorem sq_sums (x0 : IVec S1024x2626 32) (x3 : FVec Ideal S26x100x16 .f32) (Er : Fin 26 → Fin 100 → Fin 16 → ℝ)
    (hE : ∀ (f : Fin 26) (k : Fin 100) (e : Fin 16), x3 (ix3 f k e) = ((Er f k e : ℝ) : EReal)) :
    val_main_v61 (F := Ideal) x0 x3 = sqVec (rowsOf rowR x0) Er := by
  funext j
  obtain ⟨b, e, rfl⟩ : ∃ (b : Fin 1024) (e : Fin 16), j = ix2 b e := ⟨j 0, j 1, eq_ix2 j⟩
  rw [val_main_v61_apply]
  show Ideal.ofBits .f32 0x00000000#32 + _
    = ((∑ f : Fin 26, ∑ p : Fin 100,
        Er f (rowR (x0 (ix2 b (colOf f p)))) e * Er f (rowR (x0 (ix2 b (colOf f p)))) e : ℝ) : EReal)
  rw [Ideal.ofBits_zero_f32, zero_add, sum_2600, coe_sum]
  refine Finset.sum_congr rfl fun f _ => ?_
  rw [coe_sum]
  refine Finset.sum_congr rfl fun p _ => ?_
  have hi : ∀ h, idx_main_v61 (ix2 b e) (⟨f.val * 100 + p.val, h⟩ : Fin 2600)
      = ix3 b (⟨f.val * 100 + p.val, h⟩ : Fin 2600) e := by
    intro h
    funext a
    match a with
    | ⟨0, _⟩ => rfl
    | ⟨1, _⟩ => rfl
    | ⟨2, _⟩ => rfl
  rw [hi, val_main_v60_apply, embFlat_apply, hE, EReal.coe_mul]
  rfl

end Cert.ReferenceIdeal.Sums

end
-- ==== Proof.PreRead.lean ====
/-
  What the precondition says, read off its printed form: every entry of the two tables (and of the other float
  inputs) is a real number, not an infinity, and every id of `sparse_feat` is non-negative as a signed word.
-/
import proofs.«429955_j26156350832970_3_alg».proof.Pre_finite_inputs
import proofs.«429955_j26156350832970_3_alg».proof.Proof.Gen.Pre_finite_inputs
import Idealize.ShloMosaic.PureOps.Ideal
import Idealize.ShloMosaic.Lib.ReduceAll
import Idealize.ShloMosaic.Lib.ValueIdx

noncomputable section

namespace Cert.PreRead

open Idealize.ShloMosaic Idealize.ShloMosaic.ValueIdx
open Cert.Pre_finite_inputs

/-- A shape with no axes has a single index. -/
instance : Subsingleton S_.Idx := ⟨fun a b => funext fun d => d.elim0⟩

/-- The word 0x7F800000 read as a 32-bit float is +∞, the top element of the extended reals. -/
theorem inf_bits : Ideal.ofBits .f32 0x7F800000#32 = (⊤ : EReal) := by
  simp [Ideal.ofBits, Ideal.ieee]

/-- An extended real whose absolute value max(x, -x) lies strictly below +∞ is a real number:
    at either infinity the maximum is +∞ itself. -/
theorem real_of_abs_lt_top (x : EReal) (h : max x (-x) < ⊤) : ∃ r : ℝ, x = ((r : ℝ) : EReal) := by
  induction x using EReal.rec with
  | bot => simp at h
  | coe r => exact ⟨r, rfl⟩
  | top => simp at h

/-- One entry of the comparison array "|x| < +∞" being 1 says that entry of x is a real number. -/
theorem real_of_cmp {s : Shape} (hb : S_.BroadcastsInDim s (![] : Fin 0 → Fin s.rank)) (x : FVec Ideal s .f32) (i : s.Idx)
    (h : cmpf .olt (Host.absf x) (broadcastInDim s ![] hb (constant (F := Ideal) S_ .f32 0x7F800000#32)) i = 1#1) :
    ∃ r : ℝ, x i = ((r : ℝ) : EReal) := by
  apply real_of_abs_lt_top
  have h' : BitVec.ofBool (decide (max (x i) (-(x i)) < Ideal.ofBits .f32 0x7F800000#32)) = 1#1 := h
  rw [inf_bits] at h'
  by_contra hn
  rw [decide_eq_false hn] at h'
  exact absurd h' (by decide)

/-- From the precondition evaluated to all ones: the ids are non-negative and every float input is real-valued. -/
theorem of_pre [Cert.Pre_finite_inputs.Facts]
    (a0 : IVec S1024x2626 32) (a1 : FVec Ideal S1024x13 .f32) (a2 : FVec Ideal S26x100x1 .f32)
    (a3 : FVec Ideal S26x100x16 .f32) (a4 : FVec Ideal S1x39 .f32) (a5 : FVec Ideal S1 .f32)
    (h : Cert.Pre_finite_inputs.fn (F := Ideal) a0 a1 a2 a3 a4 a5 = fun _ => 1#1) :
    (∀ i, 0 ≤ (a0 i).toInt)
    ∧ (∀ i, ∃ r : ℝ, a2 i = ((r : ℝ) : EReal))
    ∧ (∀ i, ∃ r : ℝ, a3 i = ((r : ℝ) : EReal)) := by
  have h0 := congrFun h ValueIdx.ix0
  dsimp only [Cert.Pre_finite_inputs.fn, Cert.Pre_finite_inputs.fn_part1] at h0
  simp only [andi, IntOp.andi_eq_one] at h0
  obtain ⟨⟨⟨⟨⟨h1, h2⟩, h3⟩, h4⟩, h5⟩, h6⟩ := h0
  refine ⟨fun i => ?_, fun i => ?_, fun i => ?_⟩
  · have e : IntOp.cmpi .sge (a0 i) 0#32 = 1#1 := Host.reduce_andi_all _ _ _ _ _ h6 i
    have := IntOp.cmpi_sge.1 e
    simpa using this
  · exact real_of_cmp _ a2 i (Host.reduce_andi_all _ _ _ _ _ h2 i)
  · exact real_of_cmp _ a3 i (Host.reduce_andi_all _ _ _ _ _ h3 i)

end Cert.PreRead

end
-- ==== Proof.lean ====
/-
  The certificate. A factorization-machine layer over 26 categorical fields: for every batch row and field the
  100 ids of the field each select a row of the field's linear table and of its embedding table; the model adds, per
  field, the selected linear weights, and over all fields the selected embedding rows and their squares, and finishes
  with a linear layer over (per-field linear sums, dense features) plus half the sum over the embedding coordinates of
  (sum squared - sum of squares).
  The reference gathers the rows and sums them. The kernel builds, per field and block of 512 batch rows, the
  histogram of the field's ids over the row numbers 0..127 and multiplies it with a combined 128 x 128 table (embedding,
  its square, the linear weight in the field's own column), accumulating over the fields in the result block; the host
  then cuts the three sums out of the 128 columns and applies the same last lines. A histogram times a table is the sum
  of the selected rows, so with real-valued tables the two programs compute the same three sums — provided both read an
  id as the same row: the kernel clips an id to 0..99, the reference lets a negative id count from the end before it
  clamps, and on non-negative ids these agree. The precondition therefore asks, beside finite float inputs, that the
  ids are non-negative.
  The three frames: the two kernel programs by the launch theorem for a region with host lines on both sides, the
  body's two control cases (field 0 resets the accumulator, a later field adds to it) run symbolically; the
  reference by its straight-line run. The idealization replaced seven widen-after-narrow pairs by the identity.
-/
import proofs.«429955_j26156350832970_3_alg».proof.Defs
import proofs.«429955_j26156350832970_3_alg».proof.Proof.Gen.Kernel
import proofs.«429955_j26156350832970_3_alg».proof.Proof.Gen.KernelIdeal
import proofs.«429955_j26156350832970_3_alg».proof.Proof.Gen.ReferenceIdeal
import proofs.«429955_j26156350832970_3_alg».proof.Proof.Gen.ReferenceIdeal.Run
import proofs.«429955_j26156350832970_3_alg».proof.Proof.Gen.ReferenceIdeal.Read
import proofs.«429955_j26156350832970_3_alg».proof.Proof.Gen.Pre_finite_inputs
import proofs.«429955_j26156350832970_3_alg».proof.Proof.KernelFrame
import proofs.«429955_j26156350832970_3_alg».proof.Proof.KernelIdealFrame
import proofs.«429955_j26156350832970_3_alg».proof.Proof.KernelIdealValue
import proofs.«429955_j26156350832970_3_alg».proof.Proof.ReferenceSums
import proofs.«429955_j26156350832970_3_alg».proof.Proof.PreRead
import Idealize.ShloMosaic.Adequacy
import Idealize.ShloMosaic.Init

noncomputable section

namespace Cert.Proof

open Idealize.ShloMosaic Idealize.ShloMosaic.TcCoe Idealize.ShloMosaic.ValueIdx Idealize.SL.Sem Cert.FmSpec

/-- The model's last lines are the same function in the two programs' vocabularies. -/
theorem tails_agree {F : FTy → Type} [FloatOps F]
    (sl : FVec F Cert.KernelIdeal.S1024x26 .f32) (s sos : FVec F Cert.KernelIdeal.S1024x16 .f32)
    (D : FVec F Cert.KernelIdeal.S1024x13 .f32) (W : FVec F Cert.KernelIdeal.S1x39 .f32) (B : FVec F Cert.KernelIdeal.S1 .f32) :
    Cert.ReferenceIdeal.Sums.tail (F := F) sl s sos D W B = Cert.KernelIdeal.After.tail (F := F) sl s sos D W B := rfl

/-- On non-negative ids the reference reads the rows the kernel reads. -/
theorem rows_agree (a0 : (⟨2, ![1024, 2626]⟩ : Shape).Idx → BitVec 32) (h : ∀ i, 0 ≤ (a0 i).toInt) :
    rowsOf rowR a0 = rowsOf rowK a0 := by
  funext f b p
  unfold rowsOf
  exact rowR_eq_rowK (h _)

theorem frame_kernel : Cert.frame_Kernel := fun m ρ _ => Cert.Kernel.Hand.frame m ρ

theorem frame_kernelIdeal : Cert.frame_KernelIdeal := fun m ρ _ => Cert.KernelIdeal.Hand.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Each of the seven rewrites is the rule that widening after narrowing is the identity at the extended reals. -/
theorem preserves : Cert.preserves_Kernel_KernelIdeal :=
  ⟨IdealRules.truncf_extf.statement Cert.KernelIdeal.S512x16x128 .f32 .bf16,
    IdealRules.truncf_extf.statement Cert.KernelIdeal.S512x16x128 .f32 .bf16,
    IdealRules.truncf_extf.statement Cert.KernelIdeal.S512x16x128 .f32 .bf16,
    IdealRules.truncf_extf.statement Cert.KernelIdeal.S512x16x128 .f32 .bf16,
    IdealRules.truncf_extf.statement Cert.KernelIdeal.S512x16x128 .f32 .bf16,
    IdealRules.truncf_extf.statement Cert.KernelIdeal.S512x16x128 .f32 .bf16,
    IdealRules.truncf_extf.statement Cert.KernelIdeal.S512x16x128 .f32 .bf16⟩

/-- Both idealized programs end at the model's last lines of the same three sums. -/
theorem algebraic : Cert.algebraic_KernelIdeal_ReferenceIdeal := by
  intro m ρ m' ρ' hpre hagree
  obtain ⟨hids, hlin, hemb⟩ := Cert.PreRead.of_pre _ _ _ _ _ _ (hpre 0)
  choose Lr0 hLr0 using hlin
  choose Er0 hEr0 using hemb
  let Lr : Fin 26 → Fin 100 → ℝ := fun f k => Lr0 (ix3 f k (0 : Fin 1))
  let Er : Fin 26 → Fin 100 → Fin 16 → ℝ := fun f k e => Er0 (ix3 f k e)
  have hL : ∀ (c : Dev Cert.KernelIdeal.nD) (f : Fin 26) (k : Fin 100),
      (m ((c : Thread Cert.KernelIdeal.nD Cert.KernelIdeal.τ).loc Cert.KernelIdeal.main_arg2) : Cert.KernelIdeal.S26x100x1.Idx → EReal) (ix3 f k (0 : Fin 1)) = ((Lr f k : ℝ) : EReal) := by
    intro c f k
    obtain rfl : c = 0 := Subsingleton.elim _ _
    exact hLr0 _
  have hE : ∀ (c : Dev Cert.KernelIdeal.nD) (f : Fin 26) (k : Fin 100) (e : Fin 16),
      (m ((c : Thread Cert.KernelIdeal.nD Cert.KernelIdeal.τ).loc Cert.KernelIdeal.main_arg3) : Cert.KernelIdeal.S26x100x16.Idx → EReal) (ix3 f k e) = ((Er f k e : ℝ) : EReal) := by
    intro c f k e
    obtain rfl : c = 0 := Subsingleton.elim _ _
    exact hEr0 _
  refine ⟨_, Cert.KernelIdeal.Value.run m ρ Lr Er hL hE, ?_⟩
  refine (θ_run Cert.ReferenceIdeal.defs _ _).mono (fun _ h c => ⟨(h c).1.trans ?_, (h c).2⟩)
    (Cert.ReferenceIdeal.Value.run (F := Ideal) m' ρ')
  obtain rfl : c = 0 := Subsingleton.elim _ _
  rw [Cert.ReferenceIdeal.Read.val_main_v68_eq, Cert.ReferenceIdeal.Sums.result_is_tail,
    (hagree 0).1, (hagree 0).2.1, (hagree 0).2.2.1, (hagree 0).2.2.2.1, (hagree 0).2.2.2.2.1, (hagree 0).2.2.2.2.2,
    Cert.ReferenceIdeal.Sums.lin_sums _ _ Lr (hL 0), Cert.ReferenceIdeal.Sums.emb_sums _ _ Er (hE 0),
    Cert.ReferenceIdeal.Sums.sq_sums _ _ Er (hE 0), rows_agree _ hids, tails_agree]

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_kernel, Cert.Proof.frame_kernelIdeal, Cert.Proof.frame_referenceIdeal, Cert.Proof.preserves,
    Cert.Proof.algebraic⟩

end
